-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x16 : Shape := ⟨2, ![1600000, 16]⟩
abbrev S16x64 : Shape := ⟨2, ![16, 64]⟩
abbrev S64 : Shape := ⟨1, ![64]⟩
abbrev S64x64 : Shape := ⟨2, ![64, 64]⟩
abbrev S64x7 : Shape := ⟨2, ![64, 7]⟩
abbrev S7 : Shape := ⟨1, ![7]⟩
abbrev S1x1600000 : Shape := ⟨2, ![1, 1600000]⟩
abbrev S1600000 : Shape := ⟨1, ![1600000]⟩
abbrev S_ : Shape := ⟨0, ![]⟩

class Facts : Prop where
  slices_S2x1600000_S1x1600000_0_0 : S2x1600000.Slices ![0, 0] S1x1600000
  shapeCasts_S1x1600000_S1600000 : S1x1600000.ShapeCasts S1600000
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x7 : S_.BroadcastsInDim S64x7 (![] : Fin 0 → Fin S64x7.rank)
  reducesTo_S64x7_S_d0_1 : S64x7.ReducesTo [0, 1] S_
  bcast_S_S7 : S_.BroadcastsInDim S7 (![] : Fin 0 → Fin S7.rank)
  reducesTo_S7_S_d0 : S7.ReducesTo [0] S_
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_v1 : IVec S1600000 32) (main_v65 : IVec S_ 1) (main_v68 : IVec S7 1) : IVec S_ 1 :=
  let main_c_25 : IVec S_ 1 := constantI S_ 1 1#1
  let main_v69 : IVec S_ 1 := (fun x v => Host.reduce IntOp.andi x v reducesTo_S7_S_d0 h_S_) main_v68 main_c_25
  let main_v70 : IVec S_ 1 := andi main_v65 main_v69
  let main_c_26 : IVec S_ 32 := constantI S_ 32 0#32
  let main_v71 : IVec S1600000 32 := broadcastInDim S1600000 ![] bcast_S_S1600000 main_c_26
  let main_v72 : IVec S1600000 1 := cmpi .sge main_v1 main_v71
  let main_c_27 : IVec S_ 32 := constantI S_ 32 100000#32
  let main_v73 : IVec S1600000 32 := broadcastInDim S1600000 ![] bcast_S_S1600000 main_c_27
  let main_v74 : IVec S1600000 1 := cmpi .slt main_v1 main_v73
  let main_v75 : IVec S1600000 1 := andi main_v72 main_v74
  let main_c_28 : IVec S_ 1 := constantI S_ 1 1#1
  let main_v76 : IVec S_ 1 := (fun x v => Host.reduce IntOp.andi x v reducesTo_S1600000_S_d0 h_S_) main_v75 main_c_28
  let main_v77 : IVec S_ 1 := andi main_v70 main_v76
  main_v77

def fn_part3 {F : FTy → Type} [FloatOps F] (main_arg12 : FVec F S64 .f32) (main_arg13 : FVec F S64x7 .f32) (main_arg14 : FVec F S7 .f32) (main_v1 : IVec S1600000 32) (main_v50 : IVec S_ 1) (main_v51 : FVec F S64x64 .f32) : IVec S_ 1 :=
  let main_cst_18 : FVec F S_ .f32 := constant S_ .f32 0x7F800000#32
  let main_v52 : FVec F S64x64 .f32 := broadcastInDim S64x64 ![] bcast_S_S64x64 main_cst_18
  let main_v53 : IVec S64x64 1 := cmpf .olt main_v51 main_v52
  let main_c_19 : IVec S_ 1 := constantI S_ 1 1#1
  let main_v54 : IVec S_ 1 := (fun x v => Host.reduce IntOp.andi x v reducesTo_S64x64_S_d0_1 h_S_) main_v53 main_c_19
  let main_v55 : IVec S_ 1 := andi main_v50 main_v54
  let main_v56 : FVec F S64 .f32 := Host.absf main_arg12
  let main_cst_20 : FVec F S_ .f32 := constant S_ .f32 0x7F800000#32
  let main_v57 : FVec F S64 .f32 := broadcastInDim S64 ![] bcast_S_S64 main_cst_20
  let main_v58 : IVec S64 1 := cmpf .olt main_v56 main_v57
  let main_c_21 : IVec S_ 1 := constantI S_ 1 1#1
  let main_v59 : IVec S_ 1 := (fun x v => Host.reduce IntOp.andi x v reducesTo_S64_S_d0 h_S_) main_v58 main_c_21
  let main_v60 : IVec S_ 1 := andi main_v55 main_v59
  let main_v61 : FVec F S64x7 .f32 := Host.absf main_arg13
  let main_cst_22 : FVec F S_ .f32 := constant S_ .f32 0x7F800000#32
  let main_v62 : FVec F S64x7 .f32 := broadcastInDim S64x7 ![] bcast_S_S64x7 main_cst_22
  let main_v63 : IVec S64x7 1 := cmpf .olt main_v61 main_v62
  let main_c_23 : IVec S_ 1 := constantI S_ 1 1#1
  let main_v64 : IVec S_ 1 := (fun x v => Host.reduce IntOp.andi x v reducesTo_S64x7_S_d0_1 h_S_) main_v63 main_c_23
  let main_v65 : IVec S_ 1 := andi main_v60 main_v64
  let main_v66 : FVec F S7 .f32 := Host.absf main_arg14
  let main_cst_24 : FVec F S_ .f32 := constant S_ .f32 0x7F800000#32
  let main_v67 : FVec F S7 .f32 := broadcastInDim S7 ![] bcast_S_S7 main_cst_24
  let main_v68 : IVec S7 1 := cmpf .olt main_v66 main_v67
  fn_part4 (F := F) main_v1 main_v65 main_v68

def fn_part2 {F : FTy → Type} [FloatOps F] (main_arg8 : FVec F S64 .f32) (main_arg9 : FVec F S64x64 .f32) (main_arg10 : FVec F S64 .f32) (main_arg11 : FVec F S64x64 .f32) (main_arg12 : FVec F S64 .f32) (main_arg13 : FVec F S64x7 .f32) (main_arg14 : FVec F S7 .f32) (main_v1 : IVec S1600000 32) (main_v30 : IVec S_ 1) (main_v33 : IVec S16x64 1) (main_c_11 : IVec S_ 1) : IVec S_ 1 :=
  let main_v34 : IVec S_ 1 := (fun x v => Host.reduce IntOp.andi x v reducesTo_S16x64_S_d0_1 h_S_) main_v33 main_c_11
  let main_v35 : IVec S_ 1 := andi main_v30 main_v34
  let main_v36 : FVec F S64 .f32 := Host.absf main_arg8
  let main_cst_12 : FVec F S_ .f32 := constant S_ .f32 0x7F800000#32
  let main_v37 : FVec F S64 .f32 := broadcastInDim S64 ![] bcast_S_S64 main_cst_12
  let main_v38 : IVec S64 1 := cmpf .olt main_v36 main_v37
  let main_c_13 : IVec S_ 1 := constantI S_ 1 1#1
  let main_v39 : IVec S_ 1 := (fun x v => Host.reduce IntOp.andi x v reducesTo_S64_S_d0 h_S_) main_v38 main_c_13
  let main_v40 : IVec S_ 1 := andi main_v35 main_v39
  let main_v41 : FVec F S64x64 .f32 := Host.absf main_arg9
  let main_cst_14 : FVec F S_ .f32 := constant S_ .f32 0x7F800000#32
  let main_v42 : FVec F S64x64 .f32 := broadcastInDim S64x64 ![] bcast_S_S64x64 main_cst_14
  let main_v43 : IVec S64x64 1 := cmpf .olt main_v41 main_v42
  let main_c_15 : IVec S_ 1 := constantI S_ 1 1#1
  let main_v44 : IVec S_ 1 := (fun x v => Host.reduce IntOp.andi x v reducesTo_S64x64_S_d0_1 h_S_) main_v43 main_c_15
  let main_v45 : IVec S_ 1 := andi main_v40 main_v44
  let main_v46 : FVec F S64 .f32 := Host.absf main_arg10
  let main_cst_16 : FVec F S_ .f32 := constant S_ .f32 0x7F800000#32
  let main_v47 : FVec F S64 .f32 := broadcastInDim S64 ![] bcast_S_S64 main_cst_16
  let main_v48 : IVec S64 1 := cmpf .olt main_v46 main_v47
  let main_c_17 : IVec S_ 1 := constantI S_ 1 1#1
  let main_v49 : IVec S_ 1 := (fun x v => Host.reduce IntOp.andi x v reducesTo_S64_S_d0 h_S_) main_v48 main_c_17
  let main_v50 : IVec S_ 1 := andi main_v45 main_v49
  let main_v51 : FVec F S64x64 .f32 := Host.absf main_arg11
  fn_part3 (F := F) main_arg12 main_arg13 main_arg14 main_v1 main_v50 main_v51

def fn_part1 {F : FTy → Type} [FloatOps F] (main_arg5 : FVec F S64x64 .f32) (main_arg6 : FVec F S64 .f32) (main_arg7 : FVec F S16x64 .f32) (main_arg8 : FVec F S64 .f32) (main_arg9 : FVec F S64x64 .f32) (main_arg10 : FVec F S64 .f32) (main_arg11 : FVec F S64x64 .f32) (main_arg12 : FVec F S64 .f32) (main_arg13 : FVec F S64x7 .f32) (main_arg14 : FVec F S7 .f32) (main_v1 : IVec S1600000 32) (main_v15 : IVec S_ 1) (main_v16 : FVec F S64 .f32) (main_cst_4 : FVec F S_ .f32) : IVec S_ 1 :=
  let main_v17 : FVec F S64 .f32 := broadcastInDim S64 ![] bcast_S_S64 main_cst_4
  let main_v18 : IVec S64 1 := cmpf .olt main_v16 main_v17
  let main_c_5 : IVec S_ 1 := constantI S_ 1 1#1
  let main_v19 : IVec S_ 1 := (fun x v => Host.reduce IntOp.andi x v reducesTo_S64_S_d0 h_S_) main_v18 main_c_5
  let main_v20 : IVec S_ 1 := andi main_v15 main_v19
  let main_v21 : FVec F S64x64 .f32 := Host.absf main_arg5
  let main_cst_6 : FVec F S_ .f32 := constant S_ .f32 0x7F800000#32
  let main_v22 : FVec F S64x64 .f32 := broadcastInDim S64x64 ![] bcast_S_S64x64 main_cst_6
  let main_v23 : IVec S64x64 1 := cmpf .olt main_v21 main_v22
  let main_c_7 : IVec S_ 1 := constantI S_ 1 1#1
  let main_v24 : IVec S_ 1 := (fun x v => Host.reduce IntOp.andi x v reducesTo_S64x64_S_d0_1 h_S_) main_v23 main_c_7
  let main_v25 : IVec S_ 1 := andi main_v20 main_v24
  let main_v26 : FVec F S64 .f32 := Host.absf main_arg6
  let main_cst_8 : FVec F S_ .f32 := constant S_ .f32 0x7F800000#32
  let main_v27 : FVec F S64 .f32 := broadcastInDim S64 ![] bcast_S_S64 main_cst_8
  let main_v28 : IVec S64 1 := cmpf .olt main_v26 main_v27
  let main_c_9 : IVec S_ 1 := constantI S_ 1 1#1
  let main_v29 : IVec S_ 1 := (fun x v => Host.reduce IntOp.andi x v reducesTo_S64_S_d0 h_S_) main_v28 main_c_9
  let main_v30 : IVec S_ 1 := andi main_v25 main_v29
  let main_v31 : FVec F S16x64 .f32 := Host.absf main_arg7
  let main_cst_10 : FVec F S_ .f32 := constant S_ .f32 0x7F800000#32
  let main_v32 : FVec F S16x64 .f32 := broadcastInDim S16x64 ![] bcast_S_S16x64 main_cst_10
  let main_v33 : IVec S16x64 1 := cmpf .olt main_v31 main_v32
  let main_c_11 : IVec S_ 1 := constantI S_ 1 1#1
  fn_part2 (F := F) main_arg8 main_arg9 main_arg10 main_arg11 main_arg12 main_arg13 main_arg14 main_v1 main_v30 main_v33 main_c_11

def fn {F : FTy → Type} [FloatOps F] (main_arg0 : FVec F S100000x64 .f32) (main_arg1 : IVec S2x1600000 32) (main_arg2 : FVec F S1600000x16 .f32) (main_arg3 : FVec F S16x64 .f32) (main_arg4 : FVec F S64 .f32) (main_arg5 : FVec F S64x64 .f32) (main_arg6 : FVec F S64 .f32) (main_arg7 : FVec F S16x64 .f32) (main_arg8 : FVec F S64 .f32) (main_arg9 : FVec F S64x64 .f32) (main_arg10 : FVec F S64 .f32) (main_arg11 : FVec F S64x64 .f32) (main_arg12 : FVec F S64 .f32) (main_arg13 : FVec F S64x7 .f32) (main_arg14 : FVec F S7 .f32) : IVec S_ 1 :=
  let main_v0 : IVec S1x1600000 32 := (extractStridedSlice S1x1600000 ![0, 0] · slices_S2x1600000_S1x1600000_0_0) main_arg1
  let main_v1 : IVec S1600000 32 := shapeCast S1600000 main_v0 shapeCasts_S1x1600000_S1600000
  let main_v2 : FVec F S100000x64 .f32 := Host.absf main_arg0
  let main_cst : FVec F S_ .f32 := constant S_ .f32 0x7F800000#32
  let main_v3 : FVec F S100000x64 .f32 := broadcastInDim S100000x64 ![] bcast_S_S100000x64 main_cst
  let main_v4 : IVec S100000x64 1 := cmpf .olt main_v2 main_v3
  let main_c : IVec S_ 1 := constantI S_ 1 1#1
  let main_v5 : IVec S_ 1 := (fun x v => Host.reduce IntOp.andi x v reducesTo_S100000x64_S_d0_1 h_S_) main_v4 main_c
  let main_v6 : FVec F S1600000x16 .f32 := Host.absf main_arg2
  let main_cst_0 : FVec F S_ .f32 := constant S_ .f32 0x7F800000#32
  let main_v7 : FVec F S1600000x16 .f32 := broadcastInDim S1600000x16 ![] bcast_S_S1600000x16 main_cst_0
  let main_v8 : IVec S1600000x16 1 := cmpf .olt main_v6 main_v7
  let main_c_1 : IVec S_ 1 := constantI S_ 1 1#1
  let main_v9 : IVec S_ 1 := (fun x v => Host.reduce IntOp.andi x v reducesTo_S1600000x16_S_d0_1 h_S_) main_v8 main_c_1
  let main_v10 : IVec S_ 1 := andi main_v5 main_v9
  let main_v11 : FVec F S16x64 .f32 := Host.absf main_arg3
  let main_cst_2 : FVec F S_ .f32 := constant S_ .f32 0x7F800000#32
  let main_v12 : FVec F S16x64 .f32 := broadcastInDim S16x64 ![] bcast_S_S16x64 main_cst_2
  let main_v13 : IVec S16x64 1 := cmpf .olt main_v11 main_v12
  let main_c_3 : IVec S_ 1 := constantI S_ 1 1#1
  let main_v14 : IVec S_ 1 := (fun x v => Host.reduce IntOp.andi x v reducesTo_S16x64_S_d0_1 h_S_) main_v13 main_c_3
  let main_v15 : IVec S_ 1 := andi main_v10 main_v14
  let main_v16 : FVec F S64 .f32 := Host.absf main_arg4
  let main_cst_4 : FVec F S_ .f32 := constant S_ .f32 0x7F800000#32
  fn_part1 (F := F) main_arg5 main_arg6 main_arg7 main_arg8 main_arg9 main_arg10 main_arg11 main_arg12 main_arg13 main_arg14 main_v1 main_v15 main_v16 main_cst_4
-- ==== Kernel.lean ====
abbrev S100000x64 : Shape := ⟨2, ![100000, 64]⟩
abbrev S2x1600000 : Shape := ⟨2, ![2, 1600000]⟩
abbrev S1600000x16 : Shape := ⟨2, ![1600000, 16]⟩
abbrev S16x64 : Shape := ⟨2, ![16, 64]⟩
abbrev S64 : Shape := ⟨1, ![64]⟩
abbrev S64x64 : Shape := ⟨2, ![64, 64]⟩
abbrev S64x7 : Shape := ⟨2, ![64, 7]⟩
abbrev S7 : Shape := ⟨1, ![7]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S1x64 : Shape := ⟨2, ![1, 64]⟩
abbrev S16000x64 : Shape := ⟨2, ![16000, 64]⟩
abbrev S16000x16 : Shape := ⟨2, ![16000, 16]⟩
abbrev S10000x64 : Shape := ⟨2, ![10000, 64]⟩
abbrev S100000 : Shape := ⟨1, ![100000]⟩
abbrev S16000x1 : Shape := ⟨2, ![16000, 1]⟩
abbrev S100000x1 : Shape := ⟨2, ![100000, 1]⟩
abbrev S10000x1 : Shape := ⟨2, ![10000, 1]⟩
abbrev S1x7 : Shape := ⟨2, ![1, 7]⟩
abbrev S100000x7 : Shape := ⟨2, ![100000, 7]⟩
abbrev S10000x7 : Shape := ⟨2, ![10000, 7]⟩
abbrev S10000 : Shape := ⟨1, ![10000]⟩

abbrev nBuf : Space → Nat
  | .hbm => 148
  | .vmem => 58
  | .smem => 0
  | _ => 0

abbrev hbmTy0_0 (i : Nat) : BufTy := match i % 128 with
  | 0 => ⟨S100000x64, .f32⟩
  | 1 => ⟨S2x1600000, .i32⟩
  | 2 => ⟨S1600000x16, .f32⟩
  | 3 => ⟨S16x64, .f32⟩
  | 4 => ⟨S64, .f32⟩
  | 5 => ⟨S64x64, .f32⟩
  | 6 => ⟨S64, .f32⟩
  | 7 => ⟨S16x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x7, .f32⟩
  | 14 => ⟨S7, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1, .i32⟩
  | 28 => ⟨S_, .i32⟩
  | 29 => ⟨S1600000x1, .i32⟩
  | 30 => ⟨S1600000x1, .i1⟩
  | 31 => ⟨S1x1, .i32⟩
  | 32 => ⟨S1600000x1, .i32⟩
  | 33 => ⟨S1600000x1, .i1⟩
  | 34 => ⟨S1600000x1, .i1⟩
  | 35 => ⟨S_, .i1⟩
  | 36 => ⟨S1600000, .i1⟩
  | 37 => ⟨S1600000x64, .f32⟩
  | 38 => ⟨S1600000x64, .i1⟩
  | 39 => ⟨S_, .f32⟩
  | 40 => ⟨S1600000x64, .f32⟩
  | 41 => ⟨S1600000x64, .f32⟩
  | 42 => ⟨S1x64, .f32⟩
  | 43 => ⟨S1600000x64, .f32⟩
  | 44 => ⟨S_, .f32⟩
  | 45 => ⟨S100000x64, .f32⟩
  | 46 => ⟨S1600000x1, .i32⟩
  | 47 => ⟨S100000x64, .f32⟩
  | 48 => ⟨S1x64, .f32⟩
  | 49 => ⟨S100000x64, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1, .i32⟩
  | 59 => ⟨S_, .i32⟩
  | 60 => ⟨S1600000x1, .i32⟩
  | 61 => ⟨S1600000x1, .i1⟩
  | 62 => ⟨S1x1, .i32⟩
  | 63 => ⟨S1600000x1, .i32⟩
  | 64 => ⟨S1600000x1, .i1⟩
  | 65 => ⟨S1600000x1, .i1⟩
  | 66 => ⟨S_, .i1⟩
  | 67 => ⟨S1600000, .i1⟩
  | 68 => ⟨S1600000x64, .f32⟩
  | 69 => ⟨S1600000x64, .i1⟩
  | 70 => ⟨S_, .f32⟩
  | 71 => ⟨S1600000x64, .f32⟩
  | 72 => ⟨S1600000x64, .f32⟩
  | 73 => ⟨S1x64, .f32⟩
  | 74 => ⟨S1600000x64, .f32⟩
  | 75 => ⟨S_, .f32⟩
  | 76 => ⟨S100000x64, .f32⟩
  | 77 => ⟨S1600000x1, .i32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S1600000, .f32⟩
  | 84 => ⟨S_, .f32⟩
  | 85 => ⟨S100000, .f32⟩
  | 86 => ⟨S1600000x1, .i32⟩
  | 87 => ⟨S100000, .f32⟩
  | 88 => ⟨S_, .f32⟩
  | 89 => ⟨S100000, .f32⟩
  | 90 => ⟨S100000, .f32⟩
  | 91 => ⟨S_, .f32⟩
  | 92 => ⟨S100000, .f32⟩
  | 93 => ⟨S100000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1, .i32⟩
  | 122 => ⟨S_, .i32⟩
  | 123 => ⟨S1600000x1, .i32⟩
  | 124 => ⟨S1600000x1, .i1⟩
  | 125 => ⟨S1x1, .i32⟩
  | 126 => ⟨S1600000x1, .i32⟩
  | 127 => ⟨S1600000x1, .i1⟩
  | _ => ⟨S100000x64, .f32⟩

abbrev hbmTy0_1 (i : Nat) : BufTy := match i % 128 with
  | 0 => ⟨S1600000x1, .i1⟩
  | 1 => ⟨S_, .i1⟩
  | 2 => ⟨S1600000, .i1⟩
  | 3 => ⟨S1600000x64, .f32⟩
  | 4 => ⟨S1600000x64, .i1⟩
  | 5 => ⟨S_, .f32⟩
  | 6 => ⟨S1600000x64, .f32⟩
  | 7 => ⟨S1600000x64, .f32⟩
  | 8 => ⟨S1600000x1, .f32⟩
  | 9 => ⟨S1600000x64, .f32⟩
  | 10 => ⟨S_, .f32⟩
  | 11 => ⟨S100000x64, .f32⟩
  | 12 => ⟨S1600000x1, .i32⟩
  | 13 => ⟨S100000x64, .f32⟩
  | 14 => ⟨S100000, .f32⟩
  | 15 => ⟨S100000x1, .f32⟩
  | 16 => ⟨S1x64, .f32⟩
  | 17 => ⟨S100000x64, .f32⟩
  | 18 => ⟨S1x7, .f32⟩
  | 19 => ⟨S100000x7, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S16000x64, .f32⟩
  | .local _ .vmem, ⟨1, _⟩ => ⟨S16000x64, .f32⟩
  | .local _ .vmem, ⟨2, _⟩ => ⟨S16000x16, .f32⟩
  | .local _ .vmem, ⟨3, _⟩ => ⟨S16000x16, .f32⟩
  | .local _ .vmem, ⟨4, _⟩ => ⟨S16x64, .f32⟩
  | .local _ .vmem, ⟨5, _⟩ => ⟨S1x64, .f32⟩
  | .local _ .vmem, ⟨6, _⟩ => ⟨S16000x64, .f32⟩
  | .local _ .vmem, ⟨7, _⟩ => ⟨S16000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S16000x64, .f32⟩
  | .local _ .vmem, ⟨17, _⟩ => ⟨S16000x64, .f32⟩
  | .local _ .vmem, ⟨18, _⟩ => ⟨S16000x16, .f32⟩
  | .local _ .vmem, ⟨19, _⟩ => ⟨S16000x16, .f32⟩
  | .local _ .vmem, ⟨20, _⟩ => ⟨S16x64, .f32⟩
  | .local _ .vmem, ⟨21, _⟩ => ⟨S1x64, .f32⟩
  | .local _ .vmem, ⟨22, _⟩ => ⟨S16000x64, .f32⟩
  | .local _ .vmem, ⟨23, _⟩ => ⟨S16000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S64x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S64x64, .f32⟩
  | .local _ .vmem, ⟨35, _⟩ => ⟨S10000x64, .f32⟩
  | .local _ .vmem, ⟨36, _⟩ => ⟨S10000x64, .f32⟩
  | .local _ .vmem, ⟨37, _⟩ => ⟨S16000x64, .f32⟩
  | .local _ .vmem, ⟨38, _⟩ => ⟨S16000x64, .f32⟩
  | .local _ .vmem, ⟨39, _⟩ => ⟨S16000x1, .f32⟩
  | .local _ .vmem, ⟨40, _⟩ => ⟨S16000x1, .f32⟩
  | .local _ .vmem, ⟨41, _⟩ => ⟨S16000x64, .f32⟩
  | .local _ .vmem, ⟨42, _⟩ => ⟨S16000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x1, .f32⟩
  | .local _ .vmem, ⟨48, _⟩ => ⟨S10000x1, .f32⟩
  | .local _ .vmem, ⟨49, _⟩ => ⟨S1x64, .f32⟩
  | .local _ .vmem, ⟨50, _⟩ => ⟨S10000x64, .f32⟩
  | .local _ .vmem, ⟨51, _⟩ => ⟨S10000x64, .f32⟩
  | .local _ .vmem, ⟨52, _⟩ => ⟨S10000x64, .f32⟩
  | .local _ .vmem, ⟨53, _⟩ => ⟨S10000x64, .f32⟩
  | .local _ .vmem, ⟨54, _⟩ => ⟨S64x7, .f32⟩
  | .local _ .vmem, ⟨55, _⟩ => ⟨S1x7, .f32⟩
  | .local _ .vmem, ⟨56, _⟩ => ⟨S10000x7, .f32⟩
  | .local _ .vmem, ⟨57, _⟩ => ⟨S10000x7, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_cst : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_cst_0 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_cst_1 : Ref sig .tc := ⟨.hbm, 82, rfl⟩
abbrev main_v21 : Ref sig .tc := ⟨.hbm, 83, rfl⟩
abbrev main_cst_2 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_cst_3 : Ref sig .tc := ⟨.hbm, 88, rfl⟩
abbrev main_v25 : Ref sig .tc := ⟨.hbm, 89, rfl⟩
abbrev main_v26 : Ref sig .tc := ⟨.hbm, 90, rfl⟩
abbrev main_cst_4 : Ref sig .tc := ⟨.hbm, 91, rfl⟩
abbrev main_v27 : Ref sig .tc := ⟨.hbm, 92, rfl⟩
abbrev main_v28 : Ref sig .tc := ⟨.hbm, 93, rfl⟩
abbrev main_c : Ref sig .tc := ⟨.hbm, 94, rfl⟩
abbrev main_v29 : Ref sig .tc := ⟨.hbm, 95, rfl⟩
abbrev main_v30 : Ref sig .tc := ⟨.hbm, 96, rfl⟩
abbrev main_c_5 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_c_6 : Ref sig .tc := ⟨.hbm, 103, rfl⟩
abbrev main_v36 : Ref sig .tc := ⟨.hbm, 104, rfl⟩
abbrev main_v37 : Ref sig .tc := ⟨.hbm, 105, rfl⟩
abbrev main_c_7 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_call2_c : Ref sig .tc := ⟨.hbm, 113, rfl⟩
abbrev main_call2_v0 : Ref sig .tc := ⟨.hbm, 114, rfl⟩
abbrev main_call2_v1 : Ref sig .tc := ⟨.hbm, 115, rfl⟩
abbrev main_call2_c_0 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_c_1 : Ref sig .tc := ⟨.hbm, 121, rfl⟩
abbrev main_call2_c_2 : Ref sig .tc := ⟨.hbm, 122, rfl⟩
abbrev main_call2_v6 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_c_3 : Ref sig .tc := ⟨.hbm, 129, rfl⟩
abbrev main_call2_v12 : Ref sig .tc := ⟨.hbm, 130, rfl⟩
abbrev main_call2_v13 : Ref sig .tc := ⟨.hbm, 131, rfl⟩
abbrev main_call2_v14 : Ref sig .tc := ⟨.hbm, 132, rfl⟩
abbrev main_call2_cst : Ref sig .tc := ⟨.hbm, 133, rfl⟩
abbrev main_call2_v15 : Ref sig .tc := ⟨.hbm, 134, rfl⟩
abbrev main_v44 : Ref sig .tc := ⟨.hbm, 135, rfl⟩
abbrev main_v45 : Ref sig .tc := ⟨.hbm, 136, rfl⟩
abbrev main_v46 : Ref sig .tc := ⟨.hbm, 137, rfl⟩
abbrev main_cst_8 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg1_1 : Ref sig .tc := ⟨.vmem, 46, rfl⟩
abbrev cc6_stg2_0 : Ref sig .tc := ⟨.vmem, 47, rfl⟩
abbrev cc6_stg2_1 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg4_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg3_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc6_sem0_0 : DmaSem sig := 43
abbrev cc6_sem0_1 : DmaSem sig := 44
abbrev cc6_sem1_0 : DmaSem sig := 45
abbrev cc6_sem1_1 : DmaSem sig := 46
abbrev cc6_sem2_0 : DmaSem sig := 47
abbrev cc6_sem2_1 : DmaSem sig := 48
abbrev cc6_sem3_0 : DmaSem sig := 49
abbrev cc6_sem4_0 : DmaSem sig := 50
abbrev cc6_sem4_1 : DmaSem sig := 51
abbrev cc7_sem0_0 : DmaSem sig := 52
abbrev cc7_sem0_1 : DmaSem sig := 53
abbrev cc7_sem1_0 : DmaSem sig := 54
abbrev cc7_sem2_0 : DmaSem sig := 55
abbrev cc7_sem3_0 : DmaSem sig := 56
abbrev cc7_sem3_1 : DmaSem sig := 57

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S16000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S16000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S16000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S16000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S10000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x7 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x7 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x7 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  shapeCasts_S64_S1x64 : S64.ShapeCasts S1x64
  inb_S16000x16_S16000x16_0_0 : ∀ a, (![0, 0] : Fin 2 → Nat) a + S16000x16.size a ≤ S16000x16.size a
  h_S16000x16 : 0 < S16000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  broadcasts_S1x64_S10000x64 : S1x64.Broadcasts S10000x64
  bcast_S_S100000 : S_.BroadcastsInDim S100000 (![] : Fin 0 → Fin S100000.rank)
  shapeCasts_S1600000_S1600000x1 : S1600000.ShapeCasts S1600000x1
  inb_S16000x1_S16000x1_0_0 : ∀ a, (![0, 0] : Fin 2 → Nat) a + S16000x1.size a ≤ S16000x1.size a
  h_S16000x1 : 0 < S16000x1.numel
  shapeCasts_S16000x1_S16000x1 : S16000x1.ShapeCasts S16000x1
  broadcasts_S16000x1_S16000x64 : S16000x1.Broadcasts S16000x64
  shapeCasts_S100000_S100000x1 : S100000.ShapeCasts S100000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  shapeCasts_S7_S1x7 : S7.ShapeCasts S1x7
  inb_S64x7_S64x7_0_0 : ∀ a, (![0, 0] : Fin 2 → Nat) a + S64x7.size a ≤ S64x7.size a
  h_S64x7 : 0 < S64x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S10000x7 : S1x7.Broadcasts S10000x7
  reduces_S10000x7_S10000 : S10000x7.Reduces [1] S10000
  shapeCasts_S10000_S10000x1 : S10000.ShapeCasts S10000x1
  broadcasts_S10000x1_S10000x7 : S10000x1.Broadcasts S10000x7
  inb_S10000x7_S10000x7_0_0 : ∀ a, (![0, 0] : Fin 2 → Nat) a + S10000x7.size a ≤ S10000x7.size a
  h_S10000x7 : 0 < S10000x7.numel
  gather_S100000x64_S1600000x1_S1600000x64_1_0_n_n_0_1_164_wf : GatherDims.WF S100000x64 S1600000x1 S1600000x64 [1] [0] [] [0] [] 1 ![1, 64]
  dot_S16000x16_S16x64_S16000x64_1_0_0_1_n_n_wf : DotDims.WF S16000x16 S16x64 S16000x64 [1] [0] [0] [1] [] []
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x64_S64x7_S10000x7_1_0_0_1_n_n_wf : DotDims.WF S10000x64 S64x7 S10000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S1600000x64.size a
  hwx0_0 : ∀ i : grid0.Coords, EltTy.bits .f32 = 32 ∨ (Rect.block (s := S1600000x64) S16000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x16.size a ≤ S1600000x16.size a
  hwx0_1 : ∀ i : grid0.Coords, EltTy.bits .f32 = 32 ∨ (Rect.block (s := S1600000x16) S16000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16000x64.size a ≤ S1600000x64.size a
  hwx0_4 : ∀ i : grid0.Coords, EltTy.bits .f32 = 32 ∨ (Rect.block (s := S1600000x64) S16000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x64.size a ≤ S1600000x64.size a
  hwx2_0 : ∀ i : grid2.Coords, EltTy.bits .f32 = 32 ∨ (Rect.block (s := S1600000x64) S16000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16000x16.size a ≤ S1600000x16.size a
  hwx2_1 : ∀ i : grid2.Coords, EltTy.bits .f32 = 32 ∨ (Rect.block (s := S1600000x16) S16000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x64.size a ≤ S16x64.size a
  hwx2_2 : ∀ i : grid2.Coords, EltTy.bits .f32 = 32 ∨ (Rect.block (s := S16x64) S16x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S16000x64.size a ≤ S1600000x64.size a
  hwx2_4 : ∀ i : grid2.Coords, EltTy.bits .f32 = 32 ∨ (Rect.block (s := S1600000x64) S16000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S16000x64.size a ≤ S1600000x64.size a
  hwx5_0 : ∀ i : grid5.Coords, EltTy.bits .f32 = 32 ∨ (Rect.block (s := S1600000x64) S16000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S16000x1.size a ≤ S1600000x1.size a
  hwx5_1 : ∀ i : grid5.Coords, EltTy.bits .f32 = 32 ∨ (Rect.block (s := S1600000x1) S16000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S16000x64.size a ≤ S1600000x64.size a
  hwx5_2 : ∀ i : grid5.Coords, EltTy.bits .f32 = 32 ∨ (Rect.block (s := S1600000x64) S16000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x1.size a ≤ S100000x1.size a
  hwx6_2 : ∀ i : grid6.Coords, EltTy.bits .f32 = 32 ∨ (Rect.block (s := S100000x1) S10000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x64.size a ≤ S100000x64.size a
  hwx6_4 : ∀ i : grid6.Coords, EltTy.bits .f32 = 32 ∨ (Rect.block (s := S100000x64) S10000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x7.size a ≤ S64x7.size a
  hwx7_1 : ∀ i : grid7.Coords, EltTy.bits .f32 = 32 ∨ (Rect.block (s := S64x7) S64x7.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x7.size a ≤ S1x7.size a
  hwx7_2 : ∀ i : grid7.Coords, EltTy.bits .f32 = 32 ∨ (Rect.block (s := S1x7) S1x7.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x7.size a ≤ S100000x7.size a
  hwx7_3 : ∀ i : grid7.Coords, EltTy.bits .f32 = 32 ∨ (Rect.block (s := S100000x7) S10000x7.size (cc7_transform_3 i) (hinb7_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S16000x16_S16x64_S16000x64_1_0_0_1_n_n : DotDims S16000x16 S16x64 S16000x64 where
  lhsContracting := [1]
  rhsContracting := [0]
  lhsNonContracting := [0]
  rhsNonContracting := [1]
  lhsBatch := []
  rhsBatch := []
  wf := dot_S16000x16_S16x64_S16000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x64_S64x7_S10000x7_1_0_0_1_n_n : DotDims S10000x64 S64x7 S10000x7 where
  lhsContracting := [1]
  rhsContracting := [0]
  lhsNonContracting := [0]
  rhsNonContracting := [1]
  lhsBatch := []
  rhsBatch := []
  wf := dot_S10000x64_S64x7_S10000x7_1_0_0_1_n_n_wf

abbrev win0_0 : Pipeline.Window sig grid0 :=
  Pipeline.Window.ofSpec (Memref.whole main_v4) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S16000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v12) S16000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S16000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S16x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S16000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v11) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v18) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v19) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v19) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v20) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v44) S16000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v45) S16000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v46) S16000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v49) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v20) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v51) S10000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v52) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v53) S10000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v53) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg13) S64x7.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v54) S1x7.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v55) S10000x7.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x16 : Shape := ⟨2, ![1600000, 16]⟩
abbrev S16x64 : Shape := ⟨2, ![16, 64]⟩
abbrev S64 : Shape := ⟨1, ![64]⟩
abbrev S64x64 : Shape := ⟨2, ![64, 64]⟩
abbrev S64x7 : Shape := ⟨2, ![64, 7]⟩
abbrev S7 : Shape := ⟨1, ![7]⟩
abbrev S1x1600000 : Shape := ⟨2, ![1, 1600000]⟩
abbrev S1600000 : Shape := ⟨1, ![1600000]⟩
abbrev S1600000x64 : Shape := ⟨2, ![1600000, 64]⟩
abbrev S1x64 : Shape := ⟨2, ![1, 64]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩
abbrev S100000x7 : Shape := ⟨2, ![100000, 7]⟩
abbrev S1x7 : Shape := ⟨2, ![1, 7]⟩

abbrev nBuf : Space → Nat
  | .hbm => 155
  | .vmem => 0
  | .smem => 0
  | _ => 0

abbrev hbmTy0_0 (i : Nat) : BufTy := match i % 128 with
  | 0 => ⟨S100000x64, .f32⟩
  | 1 => ⟨S2x1600000, .i32⟩
  | 2 => ⟨S1600000x16, .f32⟩
  | 3 => ⟨S16x64, .f32⟩
  | 4 => ⟨S64, .f32⟩
  | 5 => ⟨S64x64, .f32⟩
  | 6 => ⟨S64, .f32⟩
  | 7 => ⟨S16x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x7, .f32⟩
  | 14 => ⟨S7, .f32⟩
  | 15 => ⟨S1x1600000, .i32⟩
  | 16 => ⟨S1600000, .i32⟩
  | 17 => ⟨S1x1600000, .i32⟩
  | 18 => ⟨S1600000, .i32⟩
  | 19 => ⟨S1600000x64, .f32⟩
  | 20 => ⟨S1x64, .f32⟩
  | 21 => ⟨S1600000x64, .f32⟩
  | 22 => ⟨S1600000x64, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x64, .f32⟩
  | 32 => ⟨S1600000x64, .f32⟩
  | 33 => ⟨S_, .f32⟩
  | 34 => ⟨S1600000x64, .f32⟩
  | 35 => ⟨S1600000x64, .f32⟩
  | 36 => ⟨S_, .f32⟩
  | 37 => ⟨S100000x64, .f32⟩
  | 38 => ⟨S1600000x1, .i32⟩
  | 39 => ⟨S100000x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S1600000x64, .f32⟩
  | 49 => ⟨S1x64, .f32⟩
  | 50 => ⟨S1600000x64, .f32⟩
  | 51 => ⟨S1600000x64, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S1600000x64, .f32⟩
  | 62 => ⟨S_, .f32⟩
  | 63 => ⟨S1600000x64, .f32⟩
  | 64 => ⟨S1600000x64, .f32⟩
  | 65 => ⟨S_, .f32⟩
  | 66 => ⟨S100000x64, .f32⟩
  | 67 => ⟨S1600000x1, .i32⟩
  | 68 => ⟨S100000x64, .f32⟩
  | 69 => ⟨S100000x64, .f32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S100000x64, .f32⟩
  | 78 => ⟨S_, .f32⟩
  | 79 => ⟨S1600000, .f32⟩
  | 80 => ⟨S_, .f32⟩
  | 81 => ⟨S100000, .f32⟩
  | 82 => ⟨S1600000x1, .i32⟩
  | 83 => ⟨S100000, .f32⟩
  | 84 => ⟨S_, .f32⟩
  | 85 => ⟨S100000, .f32⟩
  | 86 => ⟨S100000, .f32⟩
  | 87 => ⟨S_, .f32⟩
  | 88 => ⟨S100000, .f32⟩
  | 89 => ⟨S100000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000, .f32⟩
  | 108 => ⟨S1600000, .f32⟩
  | 109 => ⟨S1600000x1, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x64, .f32⟩
  | 119 => ⟨S1600000x64, .f32⟩
  | 120 => ⟨S1600000x64, .f32⟩
  | 121 => ⟨S_, .f32⟩
  | 122 => ⟨S100000x64, .f32⟩
  | 123 => ⟨S1600000x1, .i32⟩
  | 124 => ⟨S100000x64, .f32⟩
  | 125 => ⟨S100000, .f32⟩
  | 126 => ⟨S100000x1, .f32⟩
  | 127 => ⟨S100000x64, .f32⟩
  | _ => ⟨S100000x64, .f32⟩

abbrev hbmTy0_1 (i : Nat) : BufTy := match i % 128 with
  | 0 => ⟨S100000x64, .f32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S100000x7, .f32⟩
  | 9 => ⟨S1x7, .f32⟩
  | 10 => ⟨S100000x7, .f32⟩
  | 11 => ⟨S100000x7, .f32⟩
  | 12 => ⟨S_, .f32⟩
  | 13 => ⟨S100000, .f32⟩
  | 14 => ⟨S_, .f32⟩
  | 15 => ⟨S100000, .f32⟩
  | 16 => ⟨S100000, .f32⟩
  | 17 => ⟨S100000x1, .f32⟩
  | 18 => ⟨S100000x7, .f32⟩
  | 19 => ⟨S100000x7, .f32⟩
  | 20 => ⟨S100000x7, .f32⟩
  | 21 => ⟨S_, .f32⟩
  | 22 => ⟨S100000, .f32⟩
  | 23 => ⟨S100000x1, .f32⟩
  | 24 => ⟨S100000x1, .f32⟩
  | 25 => ⟨S100000x7, .f32⟩
  | 26 => ⟨S100000x7, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call0_cst : Ref sig .tc := ⟨.hbm, 33, rfl⟩
abbrev main_call0_v0 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_cst : Ref sig .tc := ⟨.hbm, 45, rfl⟩
abbrev main_call1_v0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_1 : Ref sig .tc := ⟨.hbm, 52, rfl⟩
abbrev main_v30 : Ref sig .tc := ⟨.hbm, 53, rfl⟩
abbrev main_v31 : Ref sig .tc := ⟨.hbm, 54, rfl⟩
abbrev main_c_2 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call2_cst : Ref sig .tc := ⟨.hbm, 62, rfl⟩
abbrev main_call2_v0 : Ref sig .tc := ⟨.hbm, 63, rfl⟩
abbrev main_v38 : Ref sig .tc := ⟨.hbm, 64, rfl⟩
abbrev main_cst_3 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call3_cst : Ref sig .tc := ⟨.hbm, 74, rfl⟩
abbrev main_call3_v0 : Ref sig .tc := ⟨.hbm, 75, rfl⟩
abbrev main_v47 : Ref sig .tc := ⟨.hbm, 76, rfl⟩
abbrev main_v48 : Ref sig .tc := ⟨.hbm, 77, rfl⟩
abbrev main_cst_4 : Ref sig .tc := ⟨.hbm, 78, rfl⟩
abbrev main_v49 : Ref sig .tc := ⟨.hbm, 79, rfl⟩
abbrev main_cst_5 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_6 : Ref sig .tc := ⟨.hbm, 84, rfl⟩
abbrev main_v53 : Ref sig .tc := ⟨.hbm, 85, rfl⟩
abbrev main_v54 : Ref sig .tc := ⟨.hbm, 86, rfl⟩
abbrev main_cst_7 : Ref sig .tc := ⟨.hbm, 87, rfl⟩
abbrev main_v55 : Ref sig .tc := ⟨.hbm, 88, rfl⟩
abbrev main_v56 : Ref sig .tc := ⟨.hbm, 89, rfl⟩
abbrev main_c_8 : Ref sig .tc := ⟨.hbm, 90, rfl⟩
abbrev main_v57 : Ref sig .tc := ⟨.hbm, 91, rfl⟩
abbrev main_v58 : Ref sig .tc := ⟨.hbm, 92, rfl⟩
abbrev main_c_9 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_10 : Ref sig .tc := ⟨.hbm, 99, rfl⟩
abbrev main_v64 : Ref sig .tc := ⟨.hbm, 100, rfl⟩
abbrev main_v65 : Ref sig .tc := ⟨.hbm, 101, rfl⟩
abbrev main_c_11 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_12 : Ref sig .tc := ⟨.hbm, 110, rfl⟩
abbrev main_v73 : Ref sig .tc := ⟨.hbm, 111, rfl⟩
abbrev main_v74 : Ref sig .tc := ⟨.hbm, 112, rfl⟩
abbrev main_c_13 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_14 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_call4_cst : Ref sig .tc := ⟨.hbm, 133, rfl⟩
abbrev main_call4_v0 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_call5_cst : Ref sig .tc := ⟨.hbm, 140, rfl⟩
abbrev main_call5_v0 : Ref sig .tc := ⟨.hbm, 141, rfl⟩
abbrev main_call5_cst_0 : Ref sig .tc := ⟨.hbm, 142, rfl⟩
abbrev main_call5_v1 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_call5_v5 : Ref sig .tc := ⟨.hbm, 147, rfl⟩
abbrev main_call5_v6 : Ref sig .tc := ⟨.hbm, 148, rfl⟩
abbrev main_call5_cst_1 : Ref sig .tc := ⟨.hbm, 149, rfl⟩
abbrev main_call5_v7 : Ref sig .tc := ⟨.hbm, 150, rfl⟩
abbrev main_call5_v8 : Ref sig .tc := ⟨.hbm, 151, rfl⟩
abbrev main_call5_v9 : Ref sig .tc := ⟨.hbm, 152, rfl⟩
abbrev main_call5_v10 : Ref sig .tc := ⟨.hbm, 153, rfl⟩
abbrev main_v98 : Ref sig .tc := ⟨.hbm, 154, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  bcast_S_S100000 : S_.BroadcastsInDim S100000 (![] : Fin 0 → Fin S100000.rank)
  bcast_S1600000x1_S1600000x64_0_1 : S1600000x1.BroadcastsInDim S1600000x64 (![0, 1] : Fin 2 → Fin S1600000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000x1_S100000x7_0_1 : S100000x1.BroadcastsInDim S100000x7 (![0, 1] : Fin 2 → Fin S100000x7.rank)
  dot_S1600000x16_S16x64_S1600000x64_1_0_0_1_n_n_wf : DotDims.WF S1600000x16 S16x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x64_S64x7_S100000x7_1_0_0_1_n_n_wf : DotDims.WF S100000x64 S64x7 S100000x7 [1] [0] [0] [1] [] []

variable [Facts₀]

def dot_S1600000x16_S16x64_S1600000x64_1_0_0_1_n_n : DotDims S1600000x16 S16x64 S1600000x64 where
  lhsContracting := [1]
  rhsContracting := [0]
  lhsNonContracting := [0]
  rhsNonContracting := [1]
  lhsBatch := []
  rhsBatch := []
  wf := dot_S1600000x16_S16x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x64_S64x7_S100000x7_1_0_0_1_n_n : DotDims S100000x64 S64x7 S100000x7 where
  lhsContracting := [1]
  rhsContracting := [0]
  lhsNonContracting := [0]
  rhsNonContracting := [1]
  lhsBatch := []
  rhsBatch := []
  wf := dot_S100000x64_S64x7_S100000x7_1_0_0_1_n_n_wf

class Facts : Prop extends Facts₀ where

variable [Facts]
-- ==== Proof.IndexRange.lean ====
/-
  Words that name a row. A 32-bit word w, read signed, is "in rows" when 0 ≤ w < 100000. For such a word the usual
  negative-index wrap (w + 100000 where w < 0) leaves w alone, and the bounds test 0 ≤ w ≤ 99999 that guards a filling
  gather holds. Also here: a reduction by `and` of an array of ones, from one, is one (the converse of the library's
  reading of `jnp.all`).
-/
import Idealize.ShloMosaic.PureOps
import Idealize.ShloMosaic.PureOps.Reduce
import Idealize.ShloMosaic.Lib.Affine

namespace Cert.IndexRange

open Idealize.ShloMosaic

/-- The word, read signed, is at least 0 and below 100000 (as two printed comparisons that came out true). -/
def InRows (w : BitVec 32) : Prop := IntOp.cmpi .sge w 0#32 = 1#1 ∧ IntOp.cmpi .slt w 100000#32 = 1#1

theorem ofBool_one (b : Bool) : BitVec.ofBool b = 1#1 ↔ b = true := by cases b <;> decide

/-- In numbers: the word's unsigned value is below 100000 (so it is its signed value too). -/
theorem toNat_lt {w : BitVec 32} (h : InRows w) : w.toNat < 100000 := by
  obtain ⟨h0, h1⟩ := h
  unfold IntOp.cmpi at h0 h1
  rw [ofBool_one] at h0 h1
  simp only [BitVec.slt, BitVec.sle, decide_eq_true_eq] at h0 h1
  have e0 : (0#32 : BitVec 32).toInt = 0 := by decide
  have e1 : (100000#32 : BitVec 32).toInt = 100000 := by decide
  rw [e0] at h0; rw [e1] at h1
  have hw := w.isLt
  rw [BitVec.toInt_eq_toNat_cond] at h0 h1
  split at h0 <;> omega

theorem of_toNat_lt {w : BitVec 32} (h : w.toNat < 100000) : InRows w := by
  have hi : w.toInt = (w.toNat : Int) := by
    rw [BitVec.toInt_eq_toNat_cond, if_pos (by omega)]
  have e0 : (0#32 : BitVec 32).toInt = 0 := by decide
  have e1 : (100000#32 : BitVec 32).toInt = 100000 := by decide
  refine ⟨?_, ?_⟩ <;> unfold IntOp.cmpi <;> rw [ofBool_one] <;>
    simp only [BitVec.slt, BitVec.sle, decide_eq_true_eq, hi, e0, e1] <;> omega

/-- The word is not negative: the wrap's test fails. -/
theorem not_neg {w : BitVec 32} (h : InRows w) : IntOp.cmpi .slt w 0#32 = 0#1 := by
  have hw := toNat_lt h
  have hi : w.toInt = (w.toNat : Int) := by
    rw [BitVec.toInt_eq_toNat_cond, if_pos (by omega)]
  have e0 : (0#32 : BitVec 32).toInt = 0 := by decide
  unfold IntOp.cmpi
  have : w.slt 0#32 = false := by
    simp only [BitVec.slt, hi, e0, decide_eq_false_iff_not]; omega
  rw [this]; rfl

/-- So the wrap leaves the word alone. -/
theorem wrap_eq {w : BitVec 32} (h : InRows w) :
    Scalar.select (IntOp.cmpi .slt w 0#32) (IntOp.addi w 100000#32) w = w := by
  rw [not_neg h]; exact if_neg (by decide)

/-- The lower half of the bounds test. -/
theorem ge_zero {w : BitVec 32} (h : InRows w) : IntOp.cmpi .sge w 0#32 = 1#1 := h.1

/-- The upper half of the bounds test: w ≤ 99999. -/
theorem le_last {w : BitVec 32} (h : InRows w) : IntOp.cmpi .sle w 99999#32 = 1#1 := by
  have hw := toNat_lt h
  have hi : w.toInt = (w.toNat : Int) := by
    rw [BitVec.toInt_eq_toNat_cond, if_pos (by omega)]
  have e1 : (99999#32 : BitVec 32).toInt = 99999 := by decide
  unfold IntOp.cmpi
  rw [ofBool_one]
  simp only [BitVec.sle, hi, e1, decide_eq_true_eq]; omega

/-- A left fold by `and` from one over ones is one. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- A reduction by `and`, from one, of an array whose every entry is one, is one everywhere. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ fun n _ => hx n

end Cert.IndexRange
-- ==== Proof.TakeRows.lean ====
/-
  Gathering node rows with a fill. The kernel program's row gather first wraps each index (a negative index s becomes
  s + 100000), then tests every wrapped index for 0 ≤ index ≤ 99999, gathers the rows, and replaces a gathered row by a
  fill word wherever the test failed. Where every index already names a row (0 ≤ s < 100000) the wrap changes nothing
  and the test holds at every entry, so no row is ever replaced: the filled gather is the plain gather of the same rows.
-/
import proofs.«425185_j22127671509526_1_alg».proof.KernelIdeal
import proofs.«425185_j22127671509526_1_alg».proof.Proof.IndexRange
import Idealize.ShloMosaic.Lib.Pipeline.Value
import Idealize.ShloMosaic.Lib.ValueIdx

noncomputable section

namespace Cert.KernelIdeal.TakeRows

open Cert.KernelIdeal Cert.IndexRange Idealize.ShloMosaic Idealize.ShloMosaic.ValueIdx

variable [Cert.KernelIdeal.Facts₀]
open Cert.KernelIdeal.Facts₀

variable {F : FTy → Type} [FloatOps F]

/-- the wrap of negative indices -/
def wrapped (s : IVec S1600000 32) : IVec S1600000 32 :=
  select (cmpi .slt s (broadcastInDim S1600000 ![] bcast_S_S1600000 (constantI S_ 32 0#32))) (addi s (broadcastInDim S1600000 ![] bcast_S_S1600000 (constantI S_ 32 100000#32))) s

/-- the wrapped indices as a column -/
def idxCol (s : IVec S1600000 32) : IVec S1600000x1 32 := broadcastInDim S1600000x1 ![0] bcast_S1600000_S1600000x1_0 (wrapped s)

/-- the bounds test, one bit per index -/
def inBounds (s : IVec S1600000 32) : IVec S1600000 1 :=
  (fun x v => Host.reduce IntOp.andi x v reducesTo_S1600000x1_S1600000_d1 h_S_)
    (andi (cmpi .sge (idxCol s) (broadcastInDim S1600000x1 ![] bcast_S_S1600000x1 (constantI S_ 32 0#32)))
          (cmpi .sle (idxCol s) (broadcastInDim S1600000x1 ![0, 1] bcast_S1x1_S1600000x1_0_1 (broadcastInDim S1x1 ![1] bcast_S1_S1x1_1 (constantI S1 32 99999#32)))))
    (constantI S_ 1 1#1)

/-- the rows the kernel's take gathers, filled where the test fails -/
def takeRows (x : FVec F S100000x64 .f32) (s : IVec S1600000 32) : FVec F S1600000x64 .f32 :=
  select (broadcastInDim S1600000x64 ![0] bcast_S1600000_S1600000x64_0 (inBounds s))
    ((fun x i => Host.gather gather_S100000x64_S1600000x1_S1600000x64_1_0_n_n_0_1_164 x i) x (idxCol s))
    (broadcastInDim S1600000x64 ![] bcast_S_S1600000x64 (constant S_ .f32 0x7FC00000#32))

/-- plain gathered rows (what the reference's `x[s]` computes) -/
def gatherRows (x : FVec F S100000x64 .f32) (s : IVec S1600000 32) : FVec F S1600000x64 .f32 :=
  Host.gather gather_S100000x64_S1600000x1_S1600000x64_1_0_n_n_0_1_164 x (idxCol s)

/-- An index that names a row is not negative, so the wrap keeps it: both scalars it is compared with and added to are
    the same at every entry. -/
theorem wrapped_apply (s : IVec S1600000 32) (hs : ∀ e, InRows (s e)) (e : S1600000.Idx) : wrapped s e = s e := by
  unfold wrapped
  rw [select_apply]
  show Scalar.select (IntOp.cmpi .slt (s e) 0#32) (IntOp.addi (s e) 100000#32) (s e) = s e
  exact wrap_eq (hs e)

/-- Entry (r, 0) of the index column is index r. -/
theorem idxCol_apply (s : IVec S1600000 32) (hs : ∀ e, InRows (s e)) (i : S1600000x1.Idx) : idxCol s i = s (ix1 (i 0)) := by
  unfold idxCol
  rw [broadcastInDim_apply ![0] bcast_S1600000_S1600000x1_0 (wrapped s) i (ix1 (i 0)) (fun a => match a with
    | ⟨0, _⟩ => by show (i 0).val = if (1600000 : Nat) = 1 then 0 else (i 0).val; rw [if_neg (by decide)])]
  exact wrapped_apply s hs _

/-- The bounds test holds at every index: each entry of the column passes both comparisons, and the conjunction over
    the column's one entry per row, started from true, stays true. -/
theorem inBounds_apply (s : IVec S1600000 32) (hs : ∀ e, InRows (s e)) (j : S1600000.Idx) : inBounds s j = 1#1 := by
  unfold inBounds
  refine reduce_andi_one _ _ reducesTo_S1600000x1_S1600000_d1 h_S_ rfl (fun i => ?_) j
  show IntOp.andi (IntOp.cmpi .sge (idxCol s i) 0#32) (IntOp.cmpi .sle (idxCol s i) 99999#32) = 1#1
  rw [idxCol_apply s hs i, ge_zero (hs _), le_last (hs _)]
  decide

/-- Where every index names a row, the fill never happens. -/
theorem takeRows_eq (x : FVec F S100000x64 .f32) (s : IVec S1600000 32) (hs : ∀ e, InRows (s e)) : takeRows x s = gatherRows x s := by
  funext j
  unfold takeRows gatherRows
  rw [select_apply]
  rw [broadcastInDim_apply ![0] bcast_S1600000_S1600000x64_0 (inBounds s) j (ix1 (j 0)) (fun a => match a with
    | ⟨0, _⟩ => by show (j 0).val = if (1600000 : Nat) = 1 then 0 else (j 0).val; rw [if_neg (by decide)])]
  rw [inBounds_apply s hs, select_one]

end Cert.KernelIdeal.TakeRows

end
-- ==== Proof.Spec.lean ====
/-
  The arithmetic of the six kinds of dense stage of the message-passing network, each as ONE function of whole arrays read
  entry by entry on the extended reals. A row index is an edge (the two edge stages) or a node (the four node stages); a
  column index is a feature. Nothing here mentions a program: both the tiled kernels (each tile computes exactly these
  entries for its own rows) and the plain array program (whose operations, read at an entry, are these formulas) are
  compared with these functions.

  * `edgeMsg`   : max (xg[e,f] + ((∑ₖ ea[e,k] · we[k,f]) + be[0,f])) 0        — a GINE message
  * `nodeUpd`   : max ((∑ₖ (x[n,k] + agg[n,k]) · w[k,f]) + b[0,f]) 0          — a GINE node update
  * `nodeLin`   : ∑ₖ h[n,k] · w[k,f]                                           — the GCN's linear map
  * `scaleRows` : xwg[e,f] · nrm[e,0]                                          — a message scaled by its edge's weight
  * `gcnFin`    : max ((aggg[n,f] + sl[n,0] · xw[n,f]) + b[0,f]) 0             — self-loop, bias, relu
  * `logits`, `rowMax`, `shifted`, `logSoftmax`                              — the classifier and its log-softmax
-/
import Idealize.ShloMosaic.PureOps.Ideal
import Idealize.ShloMosaic.Lib.ValueIdx

noncomputable section

namespace Cert.Spec

open Idealize.ShloMosaic Idealize.ShloMosaic.ValueIdx

/-- A two-axis array of extended reals. -/
abbrev Arr (n0 n1 : Nat) : Type := (⟨2, ![n0, n1]⟩ : Shape).Idx → EReal

variable {R : Nat}

/-- Entry (e, f) of a message: the gathered row plus the edge's transformed features and the bias, cut at zero. -/
def edgeMsgAt (xg : Arr R 64) (ea : Arr R 16) (we : Arr 16 64) (be : Arr 1 64) (e : Fin R) (f : Fin 64) : EReal :=
  max (xg (ix2 e f) + ((∑ k : Fin 16, ea (ix2 e k) * we (ix2 k f)) + be (ix2 0 f))) 0

def edgeMsg (xg : Arr R 64) (ea : Arr R 16) (we : Arr 16 64) (be : Arr 1 64) : Arr R 64 :=
  fun i => edgeMsgAt xg ea we be (i 0) (i 1)

/-- Entry (n, f) of a node update: the node's own row plus what its edges sent, through the linear map, plus bias, cut at zero. -/
def nodeUpdAt (x agg : Arr R 64) (w : Arr 64 64) (b : Arr 1 64) (n : Fin R) (f : Fin 64) : EReal :=
  max ((∑ k : Fin 64, (x (ix2 n k) + agg (ix2 n k)) * w (ix2 k f)) + b (ix2 0 f)) 0

def nodeUpd (x agg : Arr R 64) (w : Arr 64 64) (b : Arr 1 64) : Arr R 64 :=
  fun i => nodeUpdAt x agg w b (i 0) (i 1)

/-- Entry (n, f) of the linear map. -/
def nodeLinAt (h : Arr R 64) (w : Arr 64 64) (n : Fin R) (f : Fin 64) : EReal :=
  ∑ k : Fin 64, h (ix2 n k) * w (ix2 k f)

def nodeLin (h : Arr R 64) (w : Arr 64 64) : Arr R 64 := fun i => nodeLinAt h w (i 0) (i 1)

/-- Entry (e, f) of a scaled message: the row times its edge's one weight. -/
def scaleRowsAt (xwg : Arr R 64) (nrm : Arr R 1) (e : Fin R) (f : Fin 64) : EReal :=
  xwg (ix2 e f) * nrm (ix2 e 0)

def scaleRows (xwg : Arr R 64) (nrm : Arr R 1) : Arr R 64 := fun i => scaleRowsAt xwg nrm (i 0) (i 1)

/-- Entry (n, f) of the GCN's last step: aggregated messages plus the self-loop term plus bias, cut at zero. -/
def gcnFinAt (aggg xw : Arr R 64) (sl : Arr R 1) (b : Arr 1 64) (n : Fin R) (f : Fin 64) : EReal :=
  max ((aggg (ix2 n f) + sl (ix2 n 0) * xw (ix2 n f)) + b (ix2 0 f)) 0

def gcnFin (aggg xw : Arr R 64) (sl : Arr R 1) (b : Arr 1 64) : Arr R 64 :=
  fun i => gcnFinAt aggg xw sl b (i 0) (i 1)

/-- Entry (n, j) of the classifier's logits. -/
def logitAt (h : Arr R 64) (wf : Arr 64 7) (bf : Arr 1 7) (n : Fin R) (j : Fin 7) : EReal :=
  (∑ k : Fin 64, h (ix2 n k) * wf (ix2 k j)) + bf (ix2 0 j)

/-- A row's largest logit: the fold of `max` from −∞ over the seven classes. -/
def rowMaxAt (h : Arr R 64) (wf : Arr 64 7) (bf : Arr 1 7) (n : Fin R) : EReal :=
  (Finset.univ : Finset (Fin 7)).fold max ⊥ (fun j => logitAt h wf bf n j)

/-- A logit less its row's largest. -/
def shiftedAt (h : Arr R 64) (wf : Arr 64 7) (bf : Arr 1 7) (n : Fin R) (j : Fin 7) : EReal :=
  logitAt h wf bf n j - rowMaxAt h wf bf n

/-- Entry (n, j) of the log-softmax: the shifted logit less the logarithm of the row's sum of exponentials of shifted logits. -/
def logSoftmaxAt (h : Arr R 64) (wf : Arr 64 7) (bf : Arr 1 7) (n : Fin R) (j : Fin 7) : EReal :=
  shiftedAt h wf bf n j - Ideal.log (∑ j' : Fin 7, Ideal.exp (shiftedAt h wf bf n j'))

def logSoftmax (h : Arr R 64) (wf : Arr 64 7) (bf : Arr 1 7) : Arr R 7 :=
  fun i => logSoftmaxAt h wf bf (i 0) (i 1)

/-- A length-n vector of per-feature biases as the one-row array a stage adds to every row. -/
def biasRow {n : Nat} (b : (⟨1, ![n]⟩ : Shape).Idx → EReal) : Arr 1 n := fun i => b (ix1 (i 1))

/-- A length-n vector of per-row weights as a one-column array. -/
def col {n : Nat} (v : (⟨1, ![n]⟩ : Shape).Idx → EReal) : Arr n 1 := fun i => v (ix1 (i 0))

end Cert.Spec

end
-- ==== Proof.Values.lean ====
/-
  The kernel program's whole-array values, named once. Between its tiled stages the program computes on whole arrays: the
  source and destination index vectors (the two rows of the edge index), sums of messages into their destination nodes, the
  node degrees and their −1/2 powers, the per-edge weights and per-node self-loop weights. With these and the stage
  functions of `Spec`, the array each of the eight tiled stages leaves is one function of the launch contents: `msg0`,
  `hid0`, `msg1`, `hid1`, `lin`, `scaled`, `hid2`, `out`.
-/
import proofs.«425185_j22127671509526_1_alg».proof.KernelIdeal
import proofs.«425185_j22127671509526_1_alg».proof.Proof.Gen.KernelIdeal
import proofs.«425185_j22127671509526_1_alg».proof.Proof.TakeRows
import proofs.«425185_j22127671509526_1_alg».proof.Proof.Spec
import Idealize.ShloMosaic.PureOps.Ideal

noncomputable section

namespace Cert.KernelIdeal.Fold

open Cert.KernelIdeal Cert.KernelIdeal.Gen Cert.KernelIdeal.TakeRows
open Idealize.ShloMosaic Idealize.ShloMosaic.TcCoe Idealize.SL.Sem

variable (m : (ℓ : Loc nD τ sig) → Buf (Elt Ideal) ℓ)

/-- The source indices: row 0 of the edge index, as a vector. -/
def src (c : Dev nD) : IVec S1600000 32 :=
  shapeCast S1600000 (extractStridedSlice S1x1600000 ![0, 0] (m ((c : Thread nD τ).loc main_arg1)) slices_S2x1600000_S1x1600000_0_0) shapeCasts_S1x1600000_S1600000

/-- The destination indices: row 1 of the edge index, as a vector. -/
def dst (c : Dev nD) : IVec S1600000 32 :=
  shapeCast S1600000 (extractStridedSlice S1x1600000 ![1, 0] (m ((c : Thread nD τ).loc main_arg1)) slices_S2x1600000_S1x1600000_1_0) shapeCasts_S1x1600000_S1600000

/-! ## The host computations between the tiled stages, as functions of whole arrays -/

section Values
variable {F : FTy → Type} [FloatOps F]

/-- An index vector as a one-column array. -/
def asCol (d : IVec S1600000 32) : IVec S1600000x1 32 := broadcastInDim S1600000x1 ![0] bcast_S1600000_S1600000x1_0 d

/-- Messages summed into their destination nodes, from zero. -/
def aggOf (d : IVec S1600000 32) (u : FVec F S1600000x64 .f32) : FVec F S100000x64 .f32 :=
  Host.scatterAdd scatter_S100000x64_S1600000x1_S1600000x64_1_0_0_1
    (broadcastInDim S100000x64 ![] bcast_S_S100000x64 (constant S_ .f32 0x00000000#32)) (asCol d) u

/-- A node's degree: one per incoming edge, plus one for its self-loop. -/
def degOf (d : IVec S1600000 32) : FVec F S100000 .f32 :=
  addf (Host.scatterAdd scatter_S100000_S1600000x1_S1600000_n_0_0_1
      (broadcastInDim S100000 ![] bcast_S_S100000 (constant S_ .f32 0x00000000#32)) (asCol d)
      (broadcastInDim S1600000 ![] bcast_S_S1600000 (constant S_ .f32 0x3F800000#32)))
    (broadcastInDim S100000 ![] bcast_S_S100000 (constant S_ .f32 0x3F800000#32))

/-- The degree to the power −1/2. -/
def dinvOf (d : IVec S1600000 32) : FVec F S100000 .f32 :=
  Host.powf (degOf d) (broadcastInDim S100000 ![] bcast_S_S100000 (constant S_ .f32 0xBF000000#32))

/-- An edge's weight: the product of its two endpoints' degree factors. -/
def normOf (s d : IVec S1600000 32) : FVec F S1600000 .f32 :=
  mulf (Host.gather gather_S100000_S1600000x1_S1600000_n_0_n_n_0_1_1 (dinvOf d) (idxCol s))
    (Host.gather gather_S100000_S1600000x1_S1600000_n_0_n_n_0_1_1 (dinvOf d) (idxCol d))

/-- A node's self-loop weight: its degree factor squared. -/
def selfOf (d : IVec S1600000 32) : FVec F S100000 .f32 := mulf (dinvOf d) (dinvOf d)

end Values

/-! ## The eight stage values: what each tiled stage leaves, as a function of the launch contents -/

section Stages
variable (m : (ℓ : Loc nD τ sig) → Buf (Elt Ideal) ℓ) (c : Dev nD)

/-- The k-th argument array as launched. -/
abbrev X0 : FVec Ideal S100000x64 .f32 := m ((c : Thread nD τ).loc main_arg0)
abbrev X2 : FVec Ideal S1600000x16 .f32 := m ((c : Thread nD τ).loc main_arg2)
abbrev X3 : FVec Ideal S16x64 .f32 := m ((c : Thread nD τ).loc main_arg3)
abbrev X4 : FVec Ideal S64 .f32 := m ((c : Thread nD τ).loc main_arg4)
abbrev X5 : FVec Ideal S64x64 .f32 := m ((c : Thread nD τ).loc main_arg5)
abbrev X6 : FVec Ideal S64 .f32 := m ((c : Thread nD τ).loc main_arg6)
abbrev X7 : FVec Ideal S16x64 .f32 := m ((c : Thread nD τ).loc main_arg7)
abbrev X8 : FVec Ideal S64 .f32 := m ((c : Thread nD τ).loc main_arg8)
abbrev X9 : FVec Ideal S64x64 .f32 := m ((c : Thread nD τ).loc main_arg9)
abbrev X10 : FVec Ideal S64 .f32 := m ((c : Thread nD τ).loc main_arg10)
abbrev X11 : FVec Ideal S64x64 .f32 := m ((c : Thread nD τ).loc main_arg11)
abbrev X12 : FVec Ideal S64 .f32 := m ((c : Thread nD τ).loc main_arg12)
abbrev X13 : FVec Ideal S64x7 .f32 := m ((c : Thread nD τ).loc main_arg13)
abbrev X14 : FVec Ideal S7 .f32 := m ((c : Thread nD τ).loc main_arg14)

/-- A bias vector as the one-row array a stage adds to every row. -/
abbrev rowOf (b : FVec Ideal S64 .f32) : FVec Ideal S1x64 .f32 := shapeCast S1x64 b shapeCasts_S64_S1x64

def msg0 : FVec Ideal S1600000x64 .f32 := Spec.edgeMsg (takeRows (X0 m c) (src m c)) (X2 m c) (X3 m c) (rowOf (X4 m c))
def hid0 : FVec Ideal S100000x64 .f32 := Spec.nodeUpd (X0 m c) (aggOf (dst m c) (msg0 m c)) (X5 m c) (rowOf (X6 m c))
def msg1 : FVec Ideal S1600000x64 .f32 := Spec.edgeMsg (takeRows (hid0 m c) (src m c)) (X2 m c) (X7 m c) (rowOf (X8 m c))
def hid1 : FVec Ideal S100000x64 .f32 := Spec.nodeUpd (hid0 m c) (aggOf (dst m c) (msg1 m c)) (X9 m c) (rowOf (X10 m c))
def lin : FVec Ideal S100000x64 .f32 := Spec.nodeLin (hid1 m c) (X11 m c)
def scaled : FVec Ideal S1600000x64 .f32 :=
  Spec.scaleRows (takeRows (lin m c) (src m c)) (shapeCast S1600000x1 (normOf (F := Ideal) (src m c) (dst m c)) shapeCasts_S1600000_S1600000x1)
def hid2 : FVec Ideal S100000x64 .f32 :=
  Spec.gcnFin (aggOf (dst m c) (scaled m c)) (lin m c) (shapeCast S100000x1 (selfOf (F := Ideal) (dst m c)) shapeCasts_S100000_S100000x1) (rowOf (X12 m c))
def out : FVec Ideal S100000x7 .f32 := Spec.logSoftmax (hid2 m c) (X13 m c) (shapeCast S1x7 (X14 m c) shapeCasts_S7_S1x7)

end Stages

end Cert.KernelIdeal.Fold

end
-- ==== Proof.EdgeStage.lean ====
/-
  The edge-message stage of a GINE layer, tile by tile. A grid point t holds rows 16000·t … 16000·t + 15999 of the gathered
  node rows and of the edge features, and with them the whole 16×64 matrix of edge weights and the whole one-row bias. Its
  tile of the result is, entry by entry, the gathered entry plus (the edge's feature row times the weights' column, plus
  the bias entry of that column), cut at zero. An entry of row r reads row r of the two row-tiled arrays and nothing of
  any other row, and the 100 tiles partition the 1,600,000 rows, so the array the stage leaves is `Spec.edgeMsg` of the
  four arrays the stage found.
-/
import proofs.«425185_j22127671509526_1_alg».proof.Proof.Gen.KernelIdeal.Frame
import proofs.«425185_j22127671509526_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.EdgeStage

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The gathered node rows, the edge features, the edge weights and the one-row bias, as the stage finds them. -/
abbrev xg (c : Dev nD) : Vec Ideal S1600000x64 .f32 := V c main_v4
abbrev ea (c : Dev nD) : Vec Ideal S1600000x16 .f32 := V c main_arg2
abbrev we (c : Dev nD) : Vec Ideal S16x64 .f32 := V c main_arg3
abbrev be (c : Dev nD) : Vec Ideal S1x64 .f32 := V c main_v5

theorem origin : (![0, 0] : Fin 2 → Nat) = fun _ => 0 := funext fun a => by fin_cases a <;> rfl

/-! ## The tile's matrix product: rows of 16 features against the 16×64 weights -/

/-- The left operand is read at the output's row … -/
theorem lhs_dot_0 (i : S16000x64.Idx) (k : dot_S16000x16_S16x64_S16000x64_1_0_0_1_n_n.contr.Idx) :
    (dot_S16000x16_S16x64_S16000x64_1_0_0_1_n_n.lhsIdx i k 0).val = (i 0).val := by
  unfold DotDims.lhsIdx
  rw [dif_neg (show ¬(0 : Fin S16000x16.rank) ∈ dot_S16000x16_S16x64_S16000x64_1_0_0_1_n_n.lhsBatch by decide), dif_pos (show (0 : Fin S16000x16.rank) ∈ dot_S16000x16_S16x64_S16000x64_1_0_0_1_n_n.lhsNonContracting by decide)]
  rfl
/-- … and at the summation index as its column; -/
theorem lhs_dot_1 (i : S16000x64.Idx) (k : dot_S16000x16_S16x64_S16000x64_1_0_0_1_n_n.contr.Idx) :
    (dot_S16000x16_S16x64_S16000x64_1_0_0_1_n_n.lhsIdx i k 1).val = (k ⟨0, by decide⟩).val :=
  dot_S16000x16_S16x64_S16000x64_1_0_0_1_n_n.lhsIdx_val_of_single rfl i k
/-- the right operand at the summation index as its row … -/
theorem rhs_dot_0 (i : S16000x64.Idx) (k : dot_S16000x16_S16x64_S16000x64_1_0_0_1_n_n.contr.Idx) :
    (dot_S16000x16_S16x64_S16000x64_1_0_0_1_n_n.rhsIdx i k 0).val = (k ⟨0, by decide⟩).val :=
  dot_S16000x16_S16x64_S16000x64_1_0_0_1_n_n.rhsIdx_val_of_single rfl i k
/-- … and at the output's column. -/
theorem rhs_dot_1 (i : S16000x64.Idx) (k : dot_S16000x16_S16x64_S16000x64_1_0_0_1_n_n.contr.Idx) :
    (dot_S16000x16_S16x64_S16000x64_1_0_0_1_n_n.rhsIdx i k 1).val = (i 1).val := by
  unfold DotDims.rhsIdx
  rw [dif_neg (show ¬(1 : Fin S16x64.rank) ∈ dot_S16000x16_S16x64_S16000x64_1_0_0_1_n_n.rhsBatch by decide), dif_pos (show (1 : Fin S16x64.rank) ∈ dot_S16000x16_S16x64_S16000x64_1_0_0_1_n_n.rhsNonContracting by decide)]
  rfl

/-- The product into a zero accumulator, at entry (p, q): the sum over the 16 features of row p's entry times
    column q's entry. The summation index has one axis, so the sum is re-indexed by that axis's coordinate. -/
theorem prod_apply {φ₁ φ₂ : FTy} (l : FVec Ideal S16000x16 φ₁) (r : FVec Ideal S16x64 φ₂) (p : Fin 16000) (q : Fin 64) :
    matmul dot_S16000x16_S16x64_S16000x64_1_0_0_1_n_n none l r (constant S16000x64 .f32 0x00000000#32) (ix2 p q)
      = ∑ k : Fin 16, l (ix2 p k) * r (ix2 k q) := by
  show FloatOps.matmul dot_S16000x16_S16x64_S16000x64_1_0_0_1_n_n none l r (constant S16000x64 .f32 0x00000000#32) (ix2 p q) = _
  rw [Ideal.matmul_constant_zero_apply, ← Equiv.sum_comp (contrEquiv1 dot_S16000x16_S16x64_S16000x64_1_0_0_1_n_n 16 rfl rfl).symm]
  refine Finset.sum_congr rfl fun k _ => ?_
  have hk := contrEquiv1_symm_val dot_S16000x16_S16x64_S16000x64_1_0_0_1_n_n 16 rfl rfl k
  have el : dot_S16000x16_S16x64_S16000x64_1_0_0_1_n_n.lhsIdx (ix2 p q) ((contrEquiv1 dot_S16000x16_S16x64_S16000x64_1_0_0_1_n_n 16 rfl rfl).symm k) = ix2 p k := funext fun a => Fin.ext (by
    match a with
    | ⟨0, _⟩ => exact lhs_dot_0 _ _
    | ⟨1, _⟩ => exact (lhs_dot_1 _ _).trans hk)
  have er : dot_S16000x16_S16x64_S16000x64_1_0_0_1_n_n.rhsIdx (ix2 p q) ((contrEquiv1 dot_S16000x16_S16x64_S16000x64_1_0_0_1_n_n 16 rfl rfl).symm k) = ix2 k q := funext fun a => Fin.ext (by
    match a with
    | ⟨0, _⟩ => exact (rhs_dot_0 _ _).trans hk
    | ⟨1, _⟩ => exact rhs_dot_1 _ _)
  rw [el, er]

/-! ## A tile -/

/-- A tile's arithmetic at entry (p, q). The two operands of the product are first narrowed to a shorter format, which
    on the extended reals changes nothing; the one-row bias is repeated down the rows, so row p reads its row 0. -/
theorem tile_apply (x1 : Vec Ideal S16000x16 .f32) (x2 : Vec Ideal S16x64 .f32) (x3 : Vec Ideal S1x64 .f32) (x0 : Vec Ideal S16000x64 .f32)
    (p : Fin 16000) (q : Fin 64) :
    k0_pay1 x1 x2 x3 x0 (ix2 p q)
      = max (x0 (ix2 p q) + ((∑ k : Fin 16, x1 (ix2 p k) * x2 (ix2 k q)) + x3 (ix2 (0 : Fin 1) q))) 0 := by
  unfold k0_pay1
  rw [shapeCast_self, shapeCast_self]
  show max (x0 (ix2 p q) + (matmul (F := Ideal) dot_S16000x16_S16x64_S16000x64_1_0_0_1_n_n none (truncf (F := Ideal) .bf16 x1 bitsLt_bf16_f32) (truncf (F := Ideal) .bf16 x2 bitsLt_bf16_f32) (constant S16000x64 .f32 0x00000000#32) (ix2 p q)
      + broadcastTo S16000x64 x3 broadcasts_S1x64_S16000x64 (ix2 p q))) (Ideal.ofBits .f32 0x00000000#32) = _
  rw [prod_apply (truncf (F := Ideal) .bf16 x1 bitsLt_bf16_f32) (truncf (F := Ideal) .bf16 x2 bitsLt_bf16_f32) p q, Ideal.ofBits_zero_f32,
    broadcastTo_apply x3 broadcasts_S1x64_S16000x64 (ix2 p q) (ix2 (0 : Fin 1) q) (fun a => match a with
      | ⟨0, _⟩ => by show (0 : Nat) = if (1 : Nat) = 1 then 0 else p.val; rw [if_pos rfl]
      | ⟨1, _⟩ => by show q.val = if (64 : Nat) = 1 then 0 else q.val; rw [if_neg (by decide)])]
  rfl

/-- The two row-tiled inputs and the output move one tile of rows per grid point and stay at column block 0; the
    weights and the bias are one block each, the same at every point. -/
theorem tiles : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row 16000·t + p of the row-tiled arrays. -/
def row (t : Fin cfg0.N) (p : Fin 16000) : Fin 1600000 :=
  ⟨t.val * 16000 + p.val, by have := t.isLt; have h : cfg0.N = 100 := N_0; have := p.isLt; omega⟩

theorem emb0 (t : Fin cfg0.N) (p : Fin 16000) (q : Fin 64) : ((cfg0.win 0).blk t).view.emb (ix2 p q) = ix2 (row t p) q := by
  obtain ⟨e0, e1, -⟩ := tiles t
  funext a; apply Fin.ext
  match a with
  | ⟨0, _⟩ => show win0_0.index t (0 : Fin 2) * 16000 + 1 * p.val = t.val * 16000 + p.val; rw [e0]; omega
  | ⟨1, _⟩ => show win0_0.index t (1 : Fin 2) * 64 + 1 * q.val = q.val; rw [e1]; omega

theorem emb1 (t : Fin cfg0.N) (p : Fin 16000) (k : Fin 16) : ((cfg0.win 1).blk t).view.emb (ix2 p k) = ix2 (row t p) k := by
  obtain ⟨-, -, e0, e1, -⟩ := tiles t
  funext a; apply Fin.ext
  match a with
  | ⟨0, _⟩ => show win0_1.index t (0 : Fin 2) * 16000 + 1 * p.val = t.val * 16000 + p.val; rw [e0]; omega
  | ⟨1, _⟩ => show win0_1.index t (1 : Fin 2) * 16 + 1 * k.val = k.val; rw [e1]; omega

theorem emb2 (t : Fin cfg0.N) (k : Fin 16) (q : Fin 64) : ((cfg0.win 2).blk t).view.emb (ix2 k q) = ix2 k q := by
  obtain ⟨-, -, -, -, e0, e1, -⟩ := tiles t
  funext a; apply Fin.ext
  match a with
  | ⟨0, _⟩ => show win0_2.index t (0 : Fin 2) * 16 + 1 * k.val = k.val; rw [e0]; omega
  | ⟨1, _⟩ => show win0_2.index t (1 : Fin 2) * 64 + 1 * q.val = q.val; rw [e1]; omega

theorem emb3 (t : Fin cfg0.N) (q : Fin 64) : ((cfg0.win 3).blk t).view.emb (ix2 (0 : Fin 1) q) = ix2 (0 : Fin 1) q := by
  obtain ⟨-, -, -, -, -, -, e0, e1, -⟩ := tiles t
  funext a; apply Fin.ext
  match a with
  | ⟨0, _⟩ => show win0_3.index t (0 : Fin 2) * 1 + 1 * 0 = 0; rw [e0]
  | ⟨1, _⟩ => show win0_3.index t (1 : Fin 2) * 64 + 1 * q.val = q.val; rw [e1]; omega

theorem emb4 (t : Fin cfg0.N) (p : Fin 16000) (q : Fin 64) : ((cfg0.win 4).blk t).view.emb (ix2 p q) = ix2 (row t p) q := by
  obtain ⟨-, -, -, -, -, -, -, -, e0, e1⟩ := tiles t
  funext a; apply Fin.ext
  match a with
  | ⟨0, _⟩ => show win0_4.index t (0 : Fin 2) * 16000 + 1 * p.val = t.val * 16000 + p.val; rw [e0]; omega
  | ⟨1, _⟩ => show win0_4.index t (1 : Fin 2) * 64 + 1 * q.val = q.val; rw [e1]; omega

/-- What point t writes back is tile t of the array of messages. -/
theorem flushed_eq (c : Dev nD) (t : Fin cfg0.N) :
    (dat0 V c).flushed 4 t = ((cfg0.win 4).blk t).view.read (Elt Ideal) (Spec.edgeMsg (xg V c) (ea V c) (we V c) (be V c)) := by
  show (cfg0.win 4).cut (grid0.coords t) ((dat0 V c).after 4 t) = _
  rw [after0_4]
  unfold out0_4
  rw [View.canon_unit_zero origin]
  simp only [View.ld_unit_zero (S := S16000x64) origin, View.ld_unit_zero (S := S16000x16) origin,
    View.ld_unit_zero (S := S16x64) origin, View.ld_unit_zero (S := S1x64) origin]
  funext j
  obtain ⟨p, q, rfl⟩ : ∃ (p : Fin 16000) (q : Fin 64), j = ix2 p q := ⟨j 0, j 1, eq_ix2 j⟩
  refine (tile_apply (iblk0 V c 1 t) (iblk0 V c 2 t) (iblk0 V c 3 t) (iblk0 V c 0 t) p q).trans ?_
  show max (xg V c (((cfg0.win 0).blk t).view.emb (ix2 p q))
      + ((∑ k : Fin 16, ea V c (((cfg0.win 1).blk t).view.emb (ix2 p k)) * we V c (((cfg0.win 2).blk t).view.emb (ix2 k q)))
        + be V c (((cfg0.win 3).blk t).view.emb (ix2 (0 : Fin 1) q)))) 0
    = Spec.edgeMsg (xg V c) (ea V c) (we V c) (be V c) (((cfg0.win 4).blk t).view.emb (ix2 p q))
  have hsum : (∑ k : Fin 16, ea V c (((cfg0.win 1).blk t).view.emb (ix2 p k)) * we V c (((cfg0.win 2).blk t).view.emb (ix2 k q)))
      = ∑ k : Fin 16, ea V c (ix2 (row t p) k) * we V c (ix2 k q) :=
    Finset.sum_congr rfl fun k _ => by rw [emb1, emb2]
  rw [hsum, emb0, emb3, emb4]
  rfl

theorem mem_tile (t : Fin cfg0.N) (i : S1600000x64.Idx) :
    i ∈ ((cfg0.win 4).blk t).view.set ↔ ∀ a : Fin 2, win0_4.index t a * S16000x64.size a ≤ (i a).val ∧ (i a).val < win0_4.index t a * S16000x64.size a + S16000x64.size a := by
  show i ∈ ((View.whole main_v6).slice (win0_4.rect t)).set ↔ _
  rw [View.set_slice_whole, Rect.mem_set_unit]
  exact Iff.rfl

/-- Every entry of the result lies in the tile of the point its row belongs to. -/
theorem covered (i : S1600000x64.Idx) : ∃ t : Fin cfg0.N, (cfg0.win 4).flush t = true ∧ i ∈ ((cfg0.win 4).blk t).view.set := by
  have hi0 : (i 0).val < 1600000 := (i 0).isLt
  have hi1 : (i 1).val < 64 := (i 1).isLt
  have hN : cfg0.N = 100 := N_0
  let t : Fin cfg0.N := ⟨(i 0).val / 16000, by omega⟩
  obtain ⟨-, -, -, -, -, -, -, -, e0, e1⟩ := tiles t
  refine ⟨t, flush0_4 t, ?_⟩
  rw [mem_tile]
  intro a
  match a with
  | ⟨0, _⟩ => show win0_4.index t (0 : Fin 2) * 16000 ≤ (i 0).val ∧ (i 0).val < win0_4.index t (0 : Fin 2) * 16000 + 16000; rw [e0]; show (i 0).val / 16000 * 16000 ≤ _ ∧ _ < (i 0).val / 16000 * 16000 + 16000; omega
  | ⟨1, _⟩ => show win0_4.index t (1 : Fin 2) * 64 ≤ (i 1).val ∧ (i 1).val < win0_4.index t (1 : Fin 2) * 64 + 64; rw [e1]; omega

/-- THE STAGE: the array it leaves is the array of messages of the arrays it found. -/
theorem result (c : Dev nD) : (dat0 V c).arrAt 4 cfg0.N = Spec.edgeMsg (xg V c) (ea V c) (we V c) (be V c) :=
  (dat0 V c).arrAt_eq_of_cover 4 _ (fun t _ => flushed_eq V c t) covered

end Cert.KernelIdeal.EdgeStage

end
-- ==== Proof.Fold.lean ====
/-
  Walking a buffer back through the program, and the first step of the walk. Between two points of the program a buffer
  holds the same contents when no host operation in between writes it and no tiled stage in between owns it; a buffer a
  host operation writes holds that operation's function of its operands' contents just before. Here: the small tactics
  and lemmas that say so (an outlined function's operations move contents to a typed reference's buffer type and back,
  and the round trip is the identity), the three filling gathers as functions of what they find, and the first tiled
  stage: it finds the gathered node rows, the edge features and weights as launched and the bias as a one-row array, so
  it leaves `msg0`.
-/
import proofs.«425185_j22127671509526_1_alg».proof.Proof.Gen.KernelIdeal.Frame
import proofs.«425185_j22127671509526_1_alg».proof.Proof.Values
import proofs.«425185_j22127671509526_1_alg».proof.Proof.EdgeStage
import Idealize.ShloMosaic.Lib.StableHlo.Run

set_option maxRecDepth 16384

noncomputable section

namespace Cert.KernelIdeal.Fold

open Cert.KernelIdeal Cert.KernelIdeal.Gen Cert.KernelIdeal.TakeRows
open Idealize.ShloMosaic Idealize.ShloMosaic.TcCoe Idealize.SL.Sem Idealize.ShloMosaic.StableHlo

/-! ## Tools -/

section Casts
variable {Val : EltTy → Type} {T : BufTy}
/-- Contents moved to a typed reference's buffer type and back are the contents. -/
theorem ofBuf_toBuf (x : TRef sig T) (v : T.Contents Val) : x.ofBuf (x.toBuf v) = v := by
  obtain ⟨r, h, h2, h3⟩ := x
  subst h
  rfl
/-- At a reference's own buffer type the two moves are the identity. -/
theorem ofBuf_own (r : Ref sig .tc) (h2 : r.space ≠ .host) (h3 : r.isScoped = false) (v : r.ty.Contents Val) :
    (TRef.of (T := r.ty) r rfl h2 h3).ofBuf v = v := rfl
theorem toBuf_own (r : Ref sig .tc) (h2 : r.space ≠ .host) (h3 : r.isScoped = false) (v : r.ty.Contents Val) :
    (TRef.of (T := r.ty) r rfl h2 h3).toBuf v = v := rfl
end Casts

/-- A stretch of host operations none of which writes the buffer leaves it as it was. -/
macro "host_keeps" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- What a stretch of host operations leaves in a buffer one of them writes: that operation's function of what its
    operands held; the round trips through an outlined function's typed references are removed. -/
macro "host_writes" : tactic => `(tactic| (after_results_simp <;> (try simp only [ofBuf_toBuf])))

/-! ## The three filling gathers, from any contents before them, at any float family -/

section Takes
variable {F : FTy → Type} [FloatOps F] (V : Valuation τ sig (Elt F))

theorem take0_at : (StableHlo.after hostOps0_1 V (Proc.devRef .tc main_v4) : FVec F S1600000x64 .f32)
    = takeRows (F := F) (V (Proc.devRef .tc main_arg0)) (V (Proc.devRef .tc main_v1)) := by
  unfold takeRows inBounds idxCol wrapped
  host_writes
  rw [ofBuf_own main_v1, ofBuf_own main_arg0, toBuf_own main_v4]

theorem take1_at : (StableHlo.after hostOps2 V (Proc.devRef .tc main_v12) : FVec F S1600000x64 .f32)
    = takeRows (F := F) (V (Proc.devRef .tc main_v11)) (V (Proc.devRef .tc main_v1)) := by
  unfold takeRows inBounds idxCol wrapped
  host_writes
  rw [ofBuf_own main_v1, ofBuf_own main_v11, toBuf_own main_v12]

theorem take2_at : (StableHlo.after hostOps5_1 V (Proc.devRef .tc main_v44) : FVec F S1600000x64 .f32)
    = takeRows (F := F) (V (Proc.devRef .tc main_v20)) (V (Proc.devRef .tc main_v1)) := by
  unfold takeRows inBounds idxCol wrapped
  host_writes
  rw [ofBuf_own main_v1, ofBuf_own main_v20, toBuf_own main_v44]

end Takes

variable (m : (ℓ : Loc nD τ sig) → Buf (Elt Ideal) ℓ) (ρ : Dev nD → PrngReg)

/-! ## After the first host stretch: the two index vectors, and an argument untouched -/

theorem W1_src (c : Dev nD) : W1 m ρ c (Proc.devRef .tc main_v1) = src m c := by
  show StableHlo.after hostOps0 (W0 m ρ c) (Proc.devRef .tc main_v1) = _
  host_writes
  rfl

theorem W1_dst (c : Dev nD) : W1 m ρ c (Proc.devRef .tc main_v3) = dst m c := by
  show StableHlo.after hostOps0 (W0 m ρ c) (Proc.devRef .tc main_v3) = _
  host_writes
  rfl

theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  host_keeps hostOps0

/-! ## What the first tiled stage finds, and leaves -/

/-- The gathered node rows. -/
theorem W3_rows (c : Dev nD) :
    (W3 m ρ c (Proc.devRef .tc main_v4) : FVec Ideal S1600000x64 .f32) = takeRows (F := Ideal) (X0 m c) (src m c) := by
  calc (W3 m ρ c (Proc.devRef .tc main_v4) : FVec Ideal S1600000x64 .f32)
    _ = W2 m ρ c (Proc.devRef .tc main_v4) := by host_keeps hostOps0_2
    _ = takeRows (F := Ideal) (W1 m ρ c (Proc.devRef .tc main_arg0)) (W1 m ρ c (Proc.devRef .tc main_v1)) := take0_at (W1 m ρ c)
    _ = _ := by rw [W1_arg0, W1_src]

/-- The edge features, as launched. -/
theorem W3_feat (c : Dev nD) : (W3 m ρ c (Proc.devRef .tc main_arg2) : FVec Ideal S1600000x16 .f32) = X2 m c := by
  calc (W3 m ρ c (Proc.devRef .tc main_arg2) : FVec Ideal S1600000x16 .f32)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = _ := rfl

/-- The edge weights, as launched. -/
theorem W3_wts (c : Dev nD) : (W3 m ρ c (Proc.devRef .tc main_arg3) : FVec Ideal S16x64 .f32) = X3 m c := by
  calc (W3 m ρ c (Proc.devRef .tc main_arg3) : FVec Ideal S16x64 .f32)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = _ := rfl

/-- The bias as a one-row array. -/
theorem W3_bias (c : Dev nD) : (W3 m ρ c (Proc.devRef .tc main_v5) : FVec Ideal S1x64 .f32) = rowOf (X4 m c) := by
  calc (W3 m ρ c (Proc.devRef .tc main_v5) : FVec Ideal S1x64 .f32)
    _ = rowOf (W2 m ρ c (Proc.devRef .tc main_arg4)) := by
        show StableHlo.after hostOps0_2 (W2 m ρ c) (Proc.devRef .tc main_v5) = _
        host_writes
        rfl
    _ = rowOf (W1 m ρ c (Proc.devRef .tc main_arg4)) := by
        congr 1
    _ = rowOf (W0 m ρ c (Proc.devRef .tc main_arg4)) := by
        congr 1
    _ = _ := rfl

/-- STEP 0: the first edge stage leaves the first messages. -/
theorem step0 (c : Dev nD) : (W4 m ρ c (Proc.devRef .tc main_v6) : FVec Ideal S1600000x64 .f32) = msg0 m c := by
  calc (W4 m ρ c (Proc.devRef .tc main_v6) : FVec Ideal S1600000x64 .f32)
    _ = (dat0 (V3 m ρ) c).arrAt 4 cfg0.N := W4_arr m ρ c 4
    _ = Spec.edgeMsg (EdgeStage.xg (V3 m ρ) c) (EdgeStage.ea (V3 m ρ) c) (EdgeStage.we (V3 m ρ) c) (EdgeStage.be (V3 m ρ) c) :=
        EdgeStage.result (V3 m ρ) c
    _ = Spec.edgeMsg (takeRows (F := Ideal) (X0 m c) (src m c)) (X2 m c) (X3 m c) (rowOf (X4 m c)) := by
        rw [show EdgeStage.xg (V3 m ρ) c = takeRows (F := Ideal) (X0 m c) (src m c) from W3_rows m ρ c,
          show EdgeStage.ea (V3 m ρ) c = X2 m c from W3_feat m ρ c,
          show EdgeStage.we (V3 m ρ) c = X3 m c from W3_wts m ρ c,
          show EdgeStage.be (V3 m ρ) c = rowOf (X4 m c) from W3_bias m ρ c]
    _ = msg0 m c := rfl

end Cert.KernelIdeal.Fold

end
-- ==== Proof.TileProduct64.lean ====
/-
  The matrix product a tile of a 64-feature node stage forms, read one entry at a time. The left factor is a block of
  10000 rows by 64 features, the right factor the whole 64 by 64 weight matrix, and the product is accumulated into an
  array of zeros. The contraction pairs the left factor's second axis with the right factor's first, so entry (p, q) of
  the product is the plain sum over k of left (p, k) times right (k, q): the left index keeps the row p and takes k as
  its column, the right index takes k as its row and keeps the column q, and the zero the sum starts from adds nothing.
-/
import proofs.«425185_j22127671509526_1_alg».proof.KernelIdeal
import Idealize.ShloMosaic.Lib.ValueIdx
import Idealize.ShloMosaic.PureOps.Ideal.Laws

set_option maxRecDepth 16384

noncomputable section

namespace Cert.KernelIdeal.TileProduct64

open Cert.KernelIdeal
open Idealize.ShloMosaic Idealize.ShloMosaic.ValueIdx

variable [Facts₀]

/-- The left factor's row is the product entry's row, whatever the contraction position. -/
theorem lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch from List.not_mem_nil), dif_pos (show (0 : Fin S10000x64.rank) ∈ dot_S10000x64_S64x64_S10000x64_1_0_0_1_n_n.lhsNonContracting from List.mem_singleton.mpr rfl)]
  rfl

/-- The left factor's column is the contraction position. -/
theorem lhs_1 (i : S10000x64.Idx) (q : dot_S10000x64_S64x64_S10000x64_1_0_0_1_n_n.contr.Idx) :
    (dot_S10000x64_S64x64_S10000x64_1_0_0_1_n_n.lhsIdx i q 1).val = (q ⟨0, Nat.one_pos⟩).val :=
  dot_S10000x64_S64x64_S10000x64_1_0_0_1_n_n.lhsIdx_val_of_single rfl i q

/-- The right factor's row is the contraction position. -/
theorem rhs_0 (i : S10000x64.Idx) (q : dot_S10000x64_S64x64_S10000x64_1_0_0_1_n_n.contr.Idx) :
    (dot_S10000x64_S64x64_S10000x64_1_0_0_1_n_n.rhsIdx i q 0).val = (q ⟨0, Nat.one_pos⟩).val :=
  dot_S10000x64_S64x64_S10000x64_1_0_0_1_n_n.rhsIdx_val_of_single rfl i q

/-- The right factor's column is the product entry's column, whatever the contraction position. -/
theorem rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch from List.not_mem_nil), dif_pos (show (1 : Fin S64x64.rank) ∈ dot_S10000x64_S64x64_S10000x64_1_0_0_1_n_n.rhsNonContracting from List.mem_singleton.mpr rfl)]
  rfl

/-- Entry (p, q) of the product into zeros: the sum over the 64 contraction positions k of left (p, k) · right (k, q). -/
theorem product_apply {φ₁ φ₂ : FTy} (l : FVec Ideal S10000x64 φ₁) (r : FVec Ideal S64x64 φ₂) (p : Fin 10000) (q : Fin 64) :
    matmul dot_S10000x64_S64x64_S10000x64_1_0_0_1_n_n none l r (constant S10000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_0 _ _
    | ⟨1, _⟩ => exact (lhs_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

end Cert.KernelIdeal.TileProduct64

end
-- ==== Proof.NodeStage.lean ====
/-
  The node-update stage, tile by tile. A grid point t holds rows 10000·t … 10000·t + 9999 of the node
  features and of the messages aggregated at each node, together with the whole 64 by 64 weight matrix and the one-row
  bias. Entry (p, q) of its tile of the result adds the two rows, takes the inner product of that sum row with column q
  of the weights, adds the bias of feature q and cuts the outcome at zero: it depends on row 10000·t + p of the two row
  arrays only, and on all of the weights and the bias. The 10 tiles partition the 100,000 rows, so the array the stage
  leaves is `Spec.nodeUpd` of the four arrays the stage found.
-/
import proofs.«425185_j22127671509526_1_alg».proof.Proof.Gen.KernelIdeal.Frame
import proofs.«425185_j22127671509526_1_alg».proof.Proof.Spec
import proofs.«425185_j22127671509526_1_alg».proof.Proof.TileProduct64
import Idealize.ShloMosaic.Lib.Pipeline.Value
import Idealize.ShloMosaic.Lib.ValueIdx
import Idealize.ShloMosaic.PureOps.Ideal.Laws

set_option maxRecDepth 16384

noncomputable section

namespace Cert.KernelIdeal.NodeStage

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The node features, the aggregated messages, the weights and the one-row bias, as the stage finds them. -/
abbrev xs (c : Dev nD) : Vec Ideal S100000x64 .f32 := V c main_arg0
abbrev agg (c : Dev nD) : Vec Ideal S100000x64 .f32 := V c main_v9
abbrev wt (c : Dev nD) : Vec Ideal S64x64 .f32 := V c main_arg5
abbrev bs (c : Dev nD) : Vec Ideal S1x64 .f32 := V c main_v10

theorem origin : (![0, 0] : Fin 2 → Nat) = fun _ => 0 := funext fun a => by fin_cases a <;> rfl

/-- A tile's arithmetic at entry (p, q): the sum of the two rows p against column q of the weights, plus the bias of
    feature q, cut at zero. The narrowing of the two factors before the product changes nothing on the extended reals. -/
theorem tile_apply (x0 x1 : Vec Ideal S10000x64 .f32) (x2 : Vec Ideal S64x64 .f32) (x3 : Vec Ideal S1x64 .f32) (p : Fin 10000) (q : Fin 64) :
    k1_pay1 x0 x1 x2 x3 (ix2 p q)
      = max ((∑ k : Fin 64, (x0 (ix2 p k) + x1 (ix2 p k)) * x2 (ix2 k q)) + x3 (ix2 (0 : Fin 1) q)) 0 := by
  unfold k1_pay1
  rw [shapeCast_self, shapeCast_self]
  show max (matmul (F := Ideal) dot_S10000x64_S64x64_S10000x64_1_0_0_1_n_n none (truncf (F := Ideal) .bf16 (addf (F := Ideal) x0 x1) bitsLt_bf16_f32) (truncf (F := Ideal) .bf16 x2 bitsLt_bf16_f32) (constant (F := Ideal) S10000x64 .f32 0x00000000#32) (ix2 p q)
      + broadcastTo S10000x64 x3 broadcasts_S1x64_S10000x64 (ix2 p q)) (Ideal.ofBits .f32 0x00000000#32) = _
  rw [TileProduct64.product_apply (truncf (F := Ideal) .bf16 (addf (F := Ideal) x0 x1) bitsLt_bf16_f32) (truncf (F := Ideal) .bf16 x2 bitsLt_bf16_f32) p q,
    broadcastTo_apply x3 broadcasts_S1x64_S10000x64 (ix2 p q) (ix2 (0 : Fin 1) q) (fun a => match a with
      | ⟨0, _⟩ => by show (0 : Nat) = if (1 : Nat) = 1 then 0 else p.val; rw [if_pos rfl]
      | ⟨1, _⟩ => by show q.val = if (64 : Nat) = 1 then 0 else q.val; rw [if_neg (by decide)]),
    Ideal.ofBits_zero_f32]
  rfl

/-- The three row windows move one tile of rows per grid point and stay at column block 0; the weights' and the bias's
    windows stay at block (0, 0). -/
theorem tiles : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row 10000·t + p of the row arrays. -/
def row (t : Fin cfg1.N) (p : Fin 10000) : Fin 100000 :=
  ⟨t.val * 10000 + p.val, by have := t.isLt; have h : cfg1.N = 10 := N_1; have := p.isLt; omega⟩

theorem emb0 (t : Fin cfg1.N) (p : Fin 10000) (q : Fin 64) : ((cfg1.win 0).blk t).view.emb (ix2 p q) = ix2 (row t p) q := by
  obtain ⟨e0, e1, -⟩ := tiles t
  funext a; apply Fin.ext
  match a with
  | ⟨0, _⟩ => show win1_0.index t (0 : Fin 2) * 10000 + 1 * p.val = t.val * 10000 + p.val; rw [e0]; omega
  | ⟨1, _⟩ => show win1_0.index t (1 : Fin 2) * 64 + 1 * q.val = q.val; rw [e1]; omega

theorem emb1 (t : Fin cfg1.N) (p : Fin 10000) (q : Fin 64) : ((cfg1.win 1).blk t).view.emb (ix2 p q) = ix2 (row t p) q := by
  obtain ⟨-, -, e0, e1, -⟩ := tiles t
  funext a; apply Fin.ext
  match a with
  | ⟨0, _⟩ => show win1_1.index t (0 : Fin 2) * 10000 + 1 * p.val = t.val * 10000 + p.val; rw [e0]; omega
  | ⟨1, _⟩ => show win1_1.index t (1 : Fin 2) * 64 + 1 * q.val = q.val; rw [e1]; omega

/-- Every point sees the whole weight matrix. -/
theorem emb2 (t : Fin cfg1.N) (k : Fin 64) (q : Fin 64) : ((cfg1.win 2).blk t).view.emb (ix2 k q) = ix2 k q := by
  obtain ⟨-, -, -, -, e0, e1, -⟩ := tiles t
  funext a; apply Fin.ext
  match a with
  | ⟨0, _⟩ => show win1_2.index t (0 : Fin 2) * 64 + 1 * k.val = k.val; rw [e0]; omega
  | ⟨1, _⟩ => show win1_2.index t (1 : Fin 2) * 64 + 1 * q.val = q.val; rw [e1]; omega

/-- Every point sees the whole bias row. -/
theorem emb3 (t : Fin cfg1.N) (q : Fin 64) : ((cfg1.win 3).blk t).view.emb (ix2 (0 : Fin 1) q) = ix2 (0 : Fin 1) q := by
  obtain ⟨-, -, -, -, -, -, e0, e1, -⟩ := tiles t
  funext a; apply Fin.ext
  match a with
  | ⟨0, _⟩ => show win1_3.index t (0 : Fin 2) * 1 + 1 * 0 = 0; rw [e0]
  | ⟨1, _⟩ => show win1_3.index t (1 : Fin 2) * 64 + 1 * q.val = q.val; rw [e1]; omega

theorem emb4 (t : Fin cfg1.N) (p : Fin 10000) (q : Fin 64) : ((cfg1.win 4).blk t).view.emb (ix2 p q) = ix2 (row t p) q := by
  obtain ⟨-, -, -, -, -, -, -, -, e0, e1⟩ := tiles t
  funext a; apply Fin.ext
  match a with
  | ⟨0, _⟩ => show win1_4.index t (0 : Fin 2) * 10000 + 1 * p.val = t.val * 10000 + p.val; rw [e0]; omega
  | ⟨1, _⟩ => show win1_4.index t (1 : Fin 2) * 64 + 1 * q.val = q.val; rw [e1]; omega

/-- What point t writes back is tile t of the updated node array. -/
theorem flushed_eq (c : Dev nD) (t : Fin cfg1.N) :
    (dat1 V c).flushed 4 t = ((cfg1.win 4).blk t).view.read (Elt Ideal) (Spec.nodeUpd (xs V c) (agg V c) (wt V c) (bs V c)) := by
  show (cfg1.win 4).cut (grid1.coords t) ((dat1 V c).after 4 t) = _
  rw [after1_4]
  unfold out1_4
  rw [View.canon_unit_zero origin]
  simp only [View.ld_unit_zero (S := S10000x64) origin, View.ld_unit_zero (S := S64x64) origin, View.ld_unit_zero (S := S1x64) origin]
  funext j
  obtain ⟨p, q, rfl⟩ : ∃ (p : Fin 10000) (q : Fin 64), j = ix2 p q := ⟨j 0, j 1, eq_ix2 j⟩
  refine (tile_apply (iblk1 V c 0 t) (iblk1 V c 1 t) (iblk1 V c 2 t) (iblk1 V c 3 t) p q).trans ?_
  show max ((∑ k : Fin 64, (xs V c (((cfg1.win 0).blk t).view.emb (ix2 p k)) + agg V c (((cfg1.win 1).blk t).view.emb (ix2 p k)))
        * wt V c (((cfg1.win 2).blk t).view.emb (ix2 k q)))
      + bs V c (((cfg1.win 3).blk t).view.emb (ix2 (0 : Fin 1) q))) 0
    = Spec.nodeUpd (xs V c) (agg V c) (wt V c) (bs V c) (((cfg1.win 4).blk t).view.emb (ix2 p q))
  rw [emb3, emb4, Finset.sum_congr rfl (fun k _ => by rw [emb0, emb1, emb2] :
    ∀ k ∈ (Finset.univ : Finset (Fin 64)), (xs V c (((cfg1.win 0).blk t).view.emb (ix2 p k)) + agg V c (((cfg1.win 1).blk t).view.emb (ix2 p k)))
        * wt V c (((cfg1.win 2).blk t).view.emb (ix2 k q))
      = (xs V c (ix2 (row t p) k) + agg V c (ix2 (row t p) k)) * wt V c (ix2 k q))]
  rfl

theorem mem_tile (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v11).slice (win1_4.rect t)).set ↔ _
  rw [View.set_slice_whole, Rect.mem_set_unit]
  exact Iff.rfl

/-- Every entry of the result lies in the tile of the point its row belongs to. -/
theorem covered (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := N_1
  let t : Fin cfg1.N := ⟨(i 0).val / 10000, by omega⟩
  obtain ⟨-, -, -, -, -, -, -, -, e0, e1⟩ := tiles t
  refine ⟨t, flush1_4 t, ?_⟩
  rw [mem_tile]
  intro a
  match a with
  | ⟨0, _⟩ => show win1_4.index t (0 : Fin 2) * 10000 ≤ (i 0).val ∧ (i 0).val < win1_4.index t (0 : Fin 2) * 10000 + 10000; rw [e0]; show (i 0).val / 10000 * 10000 ≤ _ ∧ _ < (i 0).val / 10000 * 10000 + 10000; omega
  | ⟨1, _⟩ => show win1_4.index t (1 : Fin 2) * 64 ≤ (i 1).val ∧ (i 1).val < win1_4.index t (1 : Fin 2) * 64 + 64; rw [e1]; omega

/-- THE STAGE: the array it leaves is the node update of the arrays it found. -/
theorem result (c : Dev nD) : (dat1 V c).arrAt 4 cfg1.N = Spec.nodeUpd (xs V c) (agg V c) (wt V c) (bs V c) :=
  (dat1 V c).arrAt_eq_of_cover 4 _ (fun t _ => flushed_eq V c t) covered

end Cert.KernelIdeal.NodeStage

end
-- ==== Proof.EdgeStage2.lean ====
/-
  The edge-message stage of a GINE layer, tile by tile. A grid point t holds rows 16000·t … 16000·t + 15999 of the gathered
  node rows and of the edge features, and with them the whole 16×64 matrix of edge weights and the whole one-row bias. Its
  tile of the result is, entry by entry, the gathered entry plus (the edge's feature row times the weights' column, plus
  the bias entry of that column), cut at zero. An entry of row r reads row r of the two row-tiled arrays and nothing of
  any other row, and the 100 tiles partition the 1,600,000 rows, so the array the stage leaves is `Spec.edgeMsg` of the
  four arrays the stage found.
-/
import proofs.«425185_j22127671509526_1_alg».proof.Proof.Gen.KernelIdeal.Frame
import proofs.«425185_j22127671509526_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.EdgeStage2

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The gathered node rows, the edge features, the edge weights and the one-row bias, as the stage finds them. -/
abbrev xg (c : Dev nD) : Vec Ideal S1600000x64 .f32 := V c main_v12
abbrev ea (c : Dev nD) : Vec Ideal S1600000x16 .f32 := V c main_arg2
abbrev we (c : Dev nD) : Vec Ideal S16x64 .f32 := V c main_arg7
abbrev be (c : Dev nD) : Vec Ideal S1x64 .f32 := V c main_v13

theorem origin : (![0, 0] : Fin 2 → Nat) = fun _ => 0 := funext fun a => by fin_cases a <;> rfl

/-! ## The tile's matrix product: rows of 16 features against the 16×64 weights -/

/-- The left operand is read at the output's row … -/
theorem lhs_dot_0 (i : S16000x64.Idx) (k : dot_S16000x16_S16x64_S16000x64_1_0_0_1_n_n.contr.Idx) :
    (dot_S16000x16_S16x64_S16000x64_1_0_0_1_n_n.lhsIdx i k 0).val = (i 0).val := by
  unfold DotDims.lhsIdx
  rw [dif_neg (show ¬(0 : Fin S16000x16.rank) ∈ dot_S16000x16_S16x64_S16000x64_1_0_0_1_n_n.lhsBatch by decide), dif_pos (show (0 : Fin S16000x16.rank) ∈ dot_S16000x16_S16x64_S16000x64_1_0_0_1_n_n.lhsNonContracting by decide)]
  rfl
/-- … and at the summation index as its column; -/
theorem lhs_dot_1 (i : S16000x64.Idx) (k : dot_S16000x16_S16x64_S16000x64_1_0_0_1_n_n.contr.Idx) :
    (dot_S16000x16_S16x64_S16000x64_1_0_0_1_n_n.lhsIdx i k 1).val = (k ⟨0, by decide⟩).val :=
  dot_S16000x16_S16x64_S16000x64_1_0_0_1_n_n.lhsIdx_val_of_single rfl i k
/-- the right operand at the summation index as its row … -/
theorem rhs_dot_0 (i : S16000x64.Idx) (k : dot_S16000x16_S16x64_S16000x64_1_0_0_1_n_n.contr.Idx) :
    (dot_S16000x16_S16x64_S16000x64_1_0_0_1_n_n.rhsIdx i k 0).val = (k ⟨0, by decide⟩).val :=
  dot_S16000x16_S16x64_S16000x64_1_0_0_1_n_n.rhsIdx_val_of_single rfl i k
/-- … and at the output's column. -/
theorem rhs_dot_1 (i : S16000x64.Idx) (k : dot_S16000x16_S16x64_S16000x64_1_0_0_1_n_n.contr.Idx) :
    (dot_S16000x16_S16x64_S16000x64_1_0_0_1_n_n.rhsIdx i k 1).val = (i 1).val := by
  unfold DotDims.rhsIdx
  rw [dif_neg (show ¬(1 : Fin S16x64.rank) ∈ dot_S16000x16_S16x64_S16000x64_1_0_0_1_n_n.rhsBatch by decide), dif_pos (show (1 : Fin S16x64.rank) ∈ dot_S16000x16_S16x64_S16000x64_1_0_0_1_n_n.rhsNonContracting by decide)]
  rfl

/-- The product into a zero accumulator, at entry (p, q): the sum over the 16 features of row p's entry times
    column q's entry. The summation index has one axis, so the sum is re-indexed by that axis's coordinate. -/
theorem prod_apply {φ₁ φ₂ : FTy} (l : FVec Ideal S16000x16 φ₁) (r : FVec Ideal S16x64 φ₂) (p : Fin 16000) (q : Fin 64) :
    matmul dot_S16000x16_S16x64_S16000x64_1_0_0_1_n_n none l r (constant S16000x64 .f32 0x00000000#32) (ix2 p q)
      = ∑ k : Fin 16, l (ix2 p k) * r (ix2 k q) := by
  show FloatOps.matmul dot_S16000x16_S16x64_S16000x64_1_0_0_1_n_n none l r (constant S16000x64 .f32 0x00000000#32) (ix2 p q) = _
  rw [Ideal.matmul_constant_zero_apply, ← Equiv.sum_comp (contrEquiv1 dot_S16000x16_S16x64_S16000x64_1_0_0_1_n_n 16 rfl rfl).symm]
  refine Finset.sum_congr rfl fun k _ => ?_
  have hk := contrEquiv1_symm_val dot_S16000x16_S16x64_S16000x64_1_0_0_1_n_n 16 rfl rfl k
  have el : dot_S16000x16_S16x64_S16000x64_1_0_0_1_n_n.lhsIdx (ix2 p q) ((contrEquiv1 dot_S16000x16_S16x64_S16000x64_1_0_0_1_n_n 16 rfl rfl).symm k) = ix2 p k := funext fun a => Fin.ext (by
    match a with
    | ⟨0, _⟩ => exact lhs_dot_0 _ _
    | ⟨1, _⟩ => exact (lhs_dot_1 _ _).trans hk)
  have er : dot_S16000x16_S16x64_S16000x64_1_0_0_1_n_n.rhsIdx (ix2 p q) ((contrEquiv1 dot_S16000x16_S16x64_S16000x64_1_0_0_1_n_n 16 rfl rfl).symm k) = ix2 k q := funext fun a => Fin.ext (by
    match a with
    | ⟨0, _⟩ => exact (rhs_dot_0 _ _).trans hk
    | ⟨1, _⟩ => exact rhs_dot_1 _ _)
  rw [el, er]

/-! ## A tile -/

/-- A tile's arithmetic at entry (p, q). The two operands of the product are first narrowed to a shorter format, which
    on the extended reals changes nothing; the one-row bias is repeated down the rows, so row p reads its row 0. -/
theorem tile_apply (x1 : Vec Ideal S16000x16 .f32) (x2 : Vec Ideal S16x64 .f32) (x3 : Vec Ideal S1x64 .f32) (x0 : Vec Ideal S16000x64 .f32)
    (p : Fin 16000) (q : Fin 64) :
    k2_pay1 x1 x2 x3 x0 (ix2 p q)
      = max (x0 (ix2 p q) + ((∑ k : Fin 16, x1 (ix2 p k) * x2 (ix2 k q)) + x3 (ix2 (0 : Fin 1) q))) 0 := by
  unfold k2_pay1
  rw [shapeCast_self, shapeCast_self]
  show max (x0 (ix2 p q) + (matmul (F := Ideal) dot_S16000x16_S16x64_S16000x64_1_0_0_1_n_n none (truncf (F := Ideal) .bf16 x1 bitsLt_bf16_f32) (truncf (F := Ideal) .bf16 x2 bitsLt_bf16_f32) (constant S16000x64 .f32 0x00000000#32) (ix2 p q)
      + broadcastTo S16000x64 x3 broadcasts_S1x64_S16000x64 (ix2 p q))) (Ideal.ofBits .f32 0x00000000#32) = _
  rw [prod_apply (truncf (F := Ideal) .bf16 x1 bitsLt_bf16_f32) (truncf (F := Ideal) .bf16 x2 bitsLt_bf16_f32) p q, Ideal.ofBits_zero_f32,
    broadcastTo_apply x3 broadcasts_S1x64_S16000x64 (ix2 p q) (ix2 (0 : Fin 1) q) (fun a => match a with
      | ⟨0, _⟩ => by show (0 : Nat) = if (1 : Nat) = 1 then 0 else p.val; rw [if_pos rfl]
      | ⟨1, _⟩ => by show q.val = if (64 : Nat) = 1 then 0 else q.val; rw [if_neg (by decide)])]
  rfl

/-- The two row-tiled inputs and the output move one tile of rows per grid point and stay at column block 0; the
    weights and the bias are one block each, the same at every point. -/
theorem tiles : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row 16000·t + p of the row-tiled arrays. -/
def row (t : Fin cfg2.N) (p : Fin 16000) : Fin 1600000 :=
  ⟨t.val * 16000 + p.val, by have := t.isLt; have h : cfg2.N = 100 := N_2; have := p.isLt; omega⟩

theorem emb0 (t : Fin cfg2.N) (p : Fin 16000) (q : Fin 64) : ((cfg2.win 0).blk t).view.emb (ix2 p q) = ix2 (row t p) q := by
  obtain ⟨e0, e1, -⟩ := tiles t
  funext a; apply Fin.ext
  match a with
  | ⟨0, _⟩ => show win2_0.index t (0 : Fin 2) * 16000 + 1 * p.val = t.val * 16000 + p.val; rw [e0]; omega
  | ⟨1, _⟩ => show win2_0.index t (1 : Fin 2) * 64 + 1 * q.val = q.val; rw [e1]; omega

theorem emb1 (t : Fin cfg2.N) (p : Fin 16000) (k : Fin 16) : ((cfg2.win 1).blk t).view.emb (ix2 p k) = ix2 (row t p) k := by
  obtain ⟨-, -, e0, e1, -⟩ := tiles t
  funext a; apply Fin.ext
  match a with
  | ⟨0, _⟩ => show win2_1.index t (0 : Fin 2) * 16000 + 1 * p.val = t.val * 16000 + p.val; rw [e0]; omega
  | ⟨1, _⟩ => show win2_1.index t (1 : Fin 2) * 16 + 1 * k.val = k.val; rw [e1]; omega

theorem emb2 (t : Fin cfg2.N) (k : Fin 16) (q : Fin 64) : ((cfg2.win 2).blk t).view.emb (ix2 k q) = ix2 k q := by
  obtain ⟨-, -, -, -, e0, e1, -⟩ := tiles t
  funext a; apply Fin.ext
  match a with
  | ⟨0, _⟩ => show win2_2.index t (0 : Fin 2) * 16 + 1 * k.val = k.val; rw [e0]; omega
  | ⟨1, _⟩ => show win2_2.index t (1 : Fin 2) * 64 + 1 * q.val = q.val; rw [e1]; omega

theorem emb3 (t : Fin cfg2.N) (q : Fin 64) : ((cfg2.win 3).blk t).view.emb (ix2 (0 : Fin 1) q) = ix2 (0 : Fin 1) q := by
  obtain ⟨-, -, -, -, -, -, e0, e1, -⟩ := tiles t
  funext a; apply Fin.ext
  match a with
  | ⟨0, _⟩ => show win2_3.index t (0 : Fin 2) * 1 + 1 * 0 = 0; rw [e0]
  | ⟨1, _⟩ => show win2_3.index t (1 : Fin 2) * 64 + 1 * q.val = q.val; rw [e1]; omega

theorem emb4 (t : Fin cfg2.N) (p : Fin 16000) (q : Fin 64) : ((cfg2.win 4).blk t).view.emb (ix2 p q) = ix2 (row t p) q := by
  obtain ⟨-, -, -, -, -, -, -, -, e0, e1⟩ := tiles t
  funext a; apply Fin.ext
  match a with
  | ⟨0, _⟩ => show win2_4.index t (0 : Fin 2) * 16000 + 1 * p.val = t.val * 16000 + p.val; rw [e0]; omega
  | ⟨1, _⟩ => show win2_4.index t (1 : Fin 2) * 64 + 1 * q.val = q.val; rw [e1]; omega

/-- What point t writes back is tile t of the array of messages. -/
theorem flushed_eq (c : Dev nD) (t : Fin cfg2.N) :
    (dat2 V c).flushed 4 t = ((cfg2.win 4).blk t).view.read (Elt Ideal) (Spec.edgeMsg (xg V c) (ea V c) (we V c) (be V c)) := by
  show (cfg2.win 4).cut (grid2.coords t) ((dat2 V c).after 4 t) = _
  rw [after2_4]
  unfold out2_4
  rw [View.canon_unit_zero origin]
  simp only [View.ld_unit_zero (S := S16000x64) origin, View.ld_unit_zero (S := S16000x16) origin,
    View.ld_unit_zero (S := S16x64) origin, View.ld_unit_zero (S := S1x64) origin]
  funext j
  obtain ⟨p, q, rfl⟩ : ∃ (p : Fin 16000) (q : Fin 64), j = ix2 p q := ⟨j 0, j 1, eq_ix2 j⟩
  refine (tile_apply (iblk2 V c 1 t) (iblk2 V c 2 t) (iblk2 V c 3 t) (iblk2 V c 0 t) p q).trans ?_
  show max (xg V c (((cfg2.win 0).blk t).view.emb (ix2 p q))
      + ((∑ k : Fin 16, ea V c (((cfg2.win 1).blk t).view.emb (ix2 p k)) * we V c (((cfg2.win 2).blk t).view.emb (ix2 k q)))
        + be V c (((cfg2.win 3).blk t).view.emb (ix2 (0 : Fin 1) q)))) 0
    = Spec.edgeMsg (xg V c) (ea V c) (we V c) (be V c) (((cfg2.win 4).blk t).view.emb (ix2 p q))
  have hsum : (∑ k : Fin 16, ea V c (((cfg2.win 1).blk t).view.emb (ix2 p k)) * we V c (((cfg2.win 2).blk t).view.emb (ix2 k q)))
      = ∑ k : Fin 16, ea V c (ix2 (row t p) k) * we V c (ix2 k q) :=
    Finset.sum_congr rfl fun k _ => by rw [emb1, emb2]
  rw [hsum, emb0, emb3, emb4]
  rfl

theorem mem_tile (t : Fin cfg2.N) (i : S1600000x64.Idx) :
    i ∈ ((cfg2.win 4).blk t).view.set ↔ ∀ a : Fin 2, win2_4.index t a * S16000x64.size a ≤ (i a).val ∧ (i a).val < win2_4.index t a * S16000x64.size a + S16000x64.size a := by
  show i ∈ ((View.whole main_v14).slice (win2_4.rect t)).set ↔ _
  rw [View.set_slice_whole, Rect.mem_set_unit]
  exact Iff.rfl

/-- Every entry of the result lies in the tile of the point its row belongs to. -/
theorem covered (i : S1600000x64.Idx) : ∃ t : Fin cfg2.N, (cfg2.win 4).flush t = true ∧ i ∈ ((cfg2.win 4).blk t).view.set := by
  have hi0 : (i 0).val < 1600000 := (i 0).isLt
  have hi1 : (i 1).val < 64 := (i 1).isLt
  have hN : cfg2.N = 100 := N_2
  let t : Fin cfg2.N := ⟨(i 0).val / 16000, by omega⟩
  obtain ⟨-, -, -, -, -, -, -, -, e0, e1⟩ := tiles t
  refine ⟨t, flush2_4 t, ?_⟩
  rw [mem_tile]
  intro a
  match a with
  | ⟨0, _⟩ => show win2_4.index t (0 : Fin 2) * 16000 ≤ (i 0).val ∧ (i 0).val < win2_4.index t (0 : Fin 2) * 16000 + 16000; rw [e0]; show (i 0).val / 16000 * 16000 ≤ _ ∧ _ < (i 0).val / 16000 * 16000 + 16000; omega
  | ⟨1, _⟩ => show win2_4.index t (1 : Fin 2) * 64 ≤ (i 1).val ∧ (i 1).val < win2_4.index t (1 : Fin 2) * 64 + 64; rw [e1]; omega

/-- THE STAGE: the array it leaves is the array of messages of the arrays it found. -/
theorem result (c : Dev nD) : (dat2 V c).arrAt 4 cfg2.N = Spec.edgeMsg (xg V c) (ea V c) (we V c) (be V c) :=
  (dat2 V c).arrAt_eq_of_cover 4 _ (fun t _ => flushed_eq V c t) covered

end Cert.KernelIdeal.EdgeStage2

end
-- ==== Proof.Step12.lean ====
/-
  Two steps of the walk through the program: the first node update and the second edge stage. A tiled stage leaves the
  stage function of the arrays it finds, so a step names what each of those arrays holds when the stage is entered. An
  array nothing has written since the launch still holds its launch contents; an array a host operation wrote holds that
  operation's function of what its operands held just before; and an array an earlier tiled stage only read comes out of
  that stage as it went in. The first node update finds the node features as launched, the first messages summed into
  their destination nodes, its weights as launched and its bias as a one-row array: it leaves `hid0`. The second edge
  stage finds the rows of `hid0` gathered at the source indices, the edge features and its weights as launched and its
  bias as a one-row array: it leaves `msg1`.
-/
import proofs.«425185_j22127671509526_1_alg».proof.Proof.Fold
import proofs.«425185_j22127671509526_1_alg».proof.Proof.NodeStage
import proofs.«425185_j22127671509526_1_alg».proof.Proof.EdgeStage2

set_option maxRecDepth 16384

noncomputable section

namespace Cert.KernelIdeal.Fold

open Cert.KernelIdeal Cert.KernelIdeal.Gen Cert.KernelIdeal.TakeRows
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the first node update finds -/

/-- The node features: nothing before the stage writes them, and the first edge stage does not hold them. -/
theorem W5_nodes (c : Dev nD) : (W5 m ρ c (Proc.devRef .tc main_arg0) : FVec Ideal S100000x64 .f32) = X0 m c := by
  calc (W5 m ρ c (Proc.devRef .tc main_arg0) : FVec Ideal S100000x64 .f32)
    _ = W4 m ρ c (Proc.devRef .tc main_arg0) := by host_keeps hostOps1
    _ = W3 m ρ c (Proc.devRef .tc main_arg0) := W4_of_ne m ρ c main_arg0 (by decide)
    _ = W2 m ρ c (Proc.devRef .tc main_arg0) := by host_keeps hostOps0_2
    _ = W1 m ρ c (Proc.devRef .tc main_arg0) := by host_keeps hostOps0_1
    _ = _ := W1_arg0 m ρ c

/-- The destination indices when the first edge stage has ended: written once, by the first host stretch. -/
theorem W4_dst (c : Dev nD) : (W4 m ρ c (Proc.devRef .tc main_v3) : IVec S1600000 32) = dst m c := by
  calc (W4 m ρ c (Proc.devRef .tc main_v3) : IVec S1600000 32)
    _ = W3 m ρ c (Proc.devRef .tc main_v3) := W4_of_ne m ρ c main_v3 (by decide)
    _ = W2 m ρ c (Proc.devRef .tc main_v3) := by host_keeps hostOps0_2
    _ = W1 m ρ c (Proc.devRef .tc main_v3) := by host_keeps hostOps0_1
    _ = _ := W1_dst m ρ c

/-- The first messages summed into their destination nodes: the host stretch before the stage scatters the messages,
    added into an array of zeros, at the destination indices laid out as one column. -/
theorem W5_agg (c : Dev nD) (h0 : (W4 m ρ c (Proc.devRef .tc main_v6) : FVec Ideal S1600000x64 .f32) = msg0 m c) :
    (W5 m ρ c (Proc.devRef .tc main_v9) : FVec Ideal S100000x64 .f32) = aggOf (F := Ideal) (dst m c) (msg0 m c) := by
  calc (W5 m ρ c (Proc.devRef .tc main_v9) : FVec Ideal S100000x64 .f32)
    _ = aggOf (F := Ideal) (W4 m ρ c (Proc.devRef .tc main_v3)) (W4 m ρ c (Proc.devRef .tc main_v6)) := by
        show StableHlo.after hostOps1 (W4 m ρ c) (Proc.devRef .tc main_v9) = _
        host_writes
        rfl
    _ = _ := by rw [W4_dst, h0]

/-- The stage's weights, as launched. -/
theorem W5_wts (c : Dev nD) : (W5 m ρ c (Proc.devRef .tc main_arg5) : FVec Ideal S64x64 .f32) = X5 m c := by
  calc (W5 m ρ c (Proc.devRef .tc main_arg5) : FVec Ideal S64x64 .f32)
    _ = W4 m ρ c (Proc.devRef .tc main_arg5) := by host_keeps hostOps1
    _ = W3 m ρ c (Proc.devRef .tc main_arg5) := W4_of_ne m ρ c main_arg5 (by decide)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = _ := rfl

/-- The stage's bias vector when the first edge stage has ended: as launched. -/
theorem W4_bias1 (c : Dev nD) : (W4 m ρ c (Proc.devRef .tc main_arg6) : FVec Ideal S64 .f32) = X6 m c := by
  calc (W4 m ρ c (Proc.devRef .tc main_arg6) : FVec Ideal S64 .f32)
    _ = W3 m ρ c (Proc.devRef .tc main_arg6) := W4_of_ne m ρ c main_arg6 (by decide)
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0
    _ = _ := rfl

/-- The bias as a one-row array: the host stretch before the stage lays the vector out so. -/
theorem W5_bias (c : Dev nD) : (W5 m ρ c (Proc.devRef .tc main_v10) : FVec Ideal S1x64 .f32) = rowOf (X6 m c) := by
  calc (W5 m ρ c (Proc.devRef .tc main_v10) : FVec Ideal S1x64 .f32)
    _ = rowOf (W4 m ρ c (Proc.devRef .tc main_arg6)) := by
        show StableHlo.after hostOps1 (W4 m ρ c) (Proc.devRef .tc main_v10) = _
        host_writes
        rfl
    _ = _ := by rw [W4_bias1]

/-- STEP 1: the first node update leaves the first hidden features. -/
theorem step1 (c : Dev nD) (h0 : (W4 m ρ c (Proc.devRef .tc main_v6) : FVec Ideal S1600000x64 .f32) = msg0 m c) :
    (W6 m ρ c (Proc.devRef .tc main_v11) : FVec Ideal S100000x64 .f32) = hid0 m c := by
  calc (W6 m ρ c (Proc.devRef .tc main_v11) : FVec Ideal S100000x64 .f32)
    _ = (dat1 (V5 m ρ) c).arrAt 4 cfg1.N := W6_arr m ρ c 4
    _ = Spec.nodeUpd (NodeStage.xs (V5 m ρ) c) (NodeStage.agg (V5 m ρ) c) (NodeStage.wt (V5 m ρ) c) (NodeStage.bs (V5 m ρ) c) :=
        NodeStage.result (V5 m ρ) c
    _ = Spec.nodeUpd (X0 m c) (aggOf (F := Ideal) (dst m c) (msg0 m c)) (X5 m c) (rowOf (X6 m c)) := by
        rw [show NodeStage.xs (V5 m ρ) c = X0 m c from W5_nodes m ρ c,
          show NodeStage.agg (V5 m ρ) c = aggOf (F := Ideal) (dst m c) (msg0 m c) from W5_agg m ρ c h0,
          show NodeStage.wt (V5 m ρ) c = X5 m c from W5_wts m ρ c,
          show NodeStage.bs (V5 m ρ) c = rowOf (X6 m c) from W5_bias m ρ c]
    _ = hid0 m c := rfl

/-! ## What the second edge stage finds -/

/-- The source indices when the first node update has ended: written once, by the first host stretch. -/
theorem W6_src (c : Dev nD) : (W6 m ρ c (Proc.devRef .tc main_v1) : IVec S1600000 32) = src m c := by
  calc (W6 m ρ c (Proc.devRef .tc main_v1) : IVec S1600000 32)
    _ = W5 m ρ c (Proc.devRef .tc main_v1) := W6_of_ne m ρ c main_v1 (by decide)
    _ = W4 m ρ c (Proc.devRef .tc main_v1) := by host_keeps hostOps1
    _ = W3 m ρ c (Proc.devRef .tc main_v1) := W4_of_ne m ρ c main_v1 (by decide)
    _ = W2 m ρ c (Proc.devRef .tc main_v1) := by host_keeps hostOps0_2
    _ = W1 m ρ c (Proc.devRef .tc main_v1) := by host_keeps hostOps0_1
    _ = _ := W1_src m ρ c

/-- The gathered rows: the rows of the first hidden features at the source indices. -/
theorem W8_rows (c : Dev nD) (h1 : (W6 m ρ c (Proc.devRef .tc main_v11) : FVec Ideal S100000x64 .f32) = hid0 m c) :
    (W8 m ρ c (Proc.devRef .tc main_v12) : FVec Ideal S1600000x64 .f32) = takeRows (F := Ideal) (hid0 m c) (src m c) := by
  calc (W8 m ρ c (Proc.devRef .tc main_v12) : FVec Ideal S1600000x64 .f32)
    _ = W7 m ρ c (Proc.devRef .tc main_v12) := by host_keeps hostOps2_1
    _ = takeRows (F := Ideal) (W6 m ρ c (Proc.devRef .tc main_v11)) (W6 m ρ c (Proc.devRef .tc main_v1)) := take1_at (W6 m ρ c)
    _ = _ := by rw [h1, W6_src]

/-- The edge features, as launched: the first edge stage read them and gave them back as they were. -/
theorem W8_feat (c : Dev nD) : (W8 m ρ c (Proc.devRef .tc main_arg2) : FVec Ideal S1600000x16 .f32) = X2 m c := by
  calc (W8 m ρ c (Proc.devRef .tc main_arg2) : FVec Ideal S1600000x16 .f32)
    _ = W7 m ρ c (Proc.devRef .tc main_arg2) := by host_keeps hostOps2_1
    _ = W6 m ρ c (Proc.devRef .tc main_arg2) := by host_keeps hostOps2
    _ = W5 m ρ c (Proc.devRef .tc main_arg2) := W6_of_ne m ρ c main_arg2 (by decide)
    _ = W4 m ρ c (Proc.devRef .tc main_arg2) := by host_keeps hostOps1
    _ = W3 m ρ c (Proc.devRef .tc main_arg2) := (W4_arr m ρ c 1).trans (((dat0 (V3 m ρ) c).arrAt_in 1 rfl _).trans (A_eq0 (V3 m ρ) c 1))
    _ = _ := W3_feat m ρ c

/-- The stage's weights, as launched. -/
theorem W8_wts (c : Dev nD) : (W8 m ρ c (Proc.devRef .tc main_arg7) : FVec Ideal S16x64 .f32) = X7 m c := by
  calc (W8 m ρ c (Proc.devRef .tc main_arg7) : FVec Ideal S16x64 .f32)
    _ = W7 m ρ c (Proc.devRef .tc main_arg7) := by host_keeps hostOps2_1
    _ = W6 m ρ c (Proc.devRef .tc main_arg7) := by host_keeps hostOps2
    _ = W5 m ρ c (Proc.devRef .tc main_arg7) := W6_of_ne m ρ c main_arg7 (by decide)
    _ = W4 m ρ c (Proc.devRef .tc main_arg7) := by host_keeps hostOps1
    _ = W3 m ρ c (Proc.devRef .tc main_arg7) := W4_of_ne m ρ c main_arg7 (by decide)
    _ = W2 m ρ c (Proc.devRef .tc main_arg7) := by host_keeps hostOps0_2
    _ = W1 m ρ c (Proc.devRef .tc main_arg7) := by host_keeps hostOps0_1
    _ = W0 m ρ c (Proc.devRef .tc main_arg7) := by host_keeps hostOps0
    _ = _ := rfl

/-- The stage's bias vector after the gather before it: as launched. -/
theorem W7_bias2 (c : Dev nD) : (W7 m ρ c (Proc.devRef .tc main_arg8) : FVec Ideal S64 .f32) = X8 m c := by
  calc (W7 m ρ c (Proc.devRef .tc main_arg8) : FVec Ideal S64 .f32)
    _ = W6 m ρ c (Proc.devRef .tc main_arg8) := by host_keeps hostOps2
    _ = W5 m ρ c (Proc.devRef .tc main_arg8) := W6_of_ne m ρ c main_arg8 (by decide)
    _ = W4 m ρ c (Proc.devRef .tc main_arg8) := by host_keeps hostOps1
    _ = W3 m ρ c (Proc.devRef .tc main_arg8) := W4_of_ne m ρ c main_arg8 (by decide)
    _ = W2 m ρ c (Proc.devRef .tc main_arg8) := by host_keeps hostOps0_2
    _ = W1 m ρ c (Proc.devRef .tc main_arg8) := by host_keeps hostOps0_1
    _ = W0 m ρ c (Proc.devRef .tc main_arg8) := by host_keeps hostOps0
    _ = _ := rfl

/-- The bias as a one-row array: the host stretch before the stage lays the vector out so. -/
theorem W8_bias (c : Dev nD) : (W8 m ρ c (Proc.devRef .tc main_v13) : FVec Ideal S1x64 .f32) = rowOf (X8 m c) := by
  calc (W8 m ρ c (Proc.devRef .tc main_v13) : FVec Ideal S1x64 .f32)
    _ = rowOf (W7 m ρ c (Proc.devRef .tc main_arg8)) := by
        show StableHlo.after hostOps2_1 (W7 m ρ c) (Proc.devRef .tc main_v13) = _
        host_writes
        rfl
    _ = _ := by rw [W7_bias2]

/-- STEP 2: the second edge stage leaves the second messages. -/
theorem step2 (c : Dev nD) (h1 : (W6 m ρ c (Proc.devRef .tc main_v11) : FVec Ideal S100000x64 .f32) = hid0 m c) :
    (W9 m ρ c (Proc.devRef .tc main_v14) : FVec Ideal S1600000x64 .f32) = msg1 m c := by
  calc (W9 m ρ c (Proc.devRef .tc main_v14) : FVec Ideal S1600000x64 .f32)
    _ = (dat2 (V8 m ρ) c).arrAt 4 cfg2.N := W9_arr m ρ c 4
    _ = Spec.edgeMsg (EdgeStage2.xg (V8 m ρ) c) (EdgeStage2.ea (V8 m ρ) c) (EdgeStage2.we (V8 m ρ) c) (EdgeStage2.be (V8 m ρ) c) :=
        EdgeStage2.result (V8 m ρ) c
    _ = Spec.edgeMsg (takeRows (F := Ideal) (hid0 m c) (src m c)) (X2 m c) (X7 m c) (rowOf (X8 m c)) := by
        rw [show EdgeStage2.xg (V8 m ρ) c = takeRows (F := Ideal) (hid0 m c) (src m c) from W8_rows m ρ c h1,
          show EdgeStage2.ea (V8 m ρ) c = X2 m c from W8_feat m ρ c,
          show EdgeStage2.we (V8 m ρ) c = X7 m c from W8_wts m ρ c,
          show EdgeStage2.be (V8 m ρ) c = rowOf (X8 m c) from W8_bias m ρ c]
    _ = msg1 m c := rfl

end Cert.KernelIdeal.Fold

end
-- ==== Proof.NodeStage3.lean ====
/-
  The node-update stage, tile by tile. A grid point t holds rows 10000·t … 10000·t + 9999 of the node
  features and of the messages aggregated at each node, together with the whole 64 by 64 weight matrix and the one-row
  bias. Entry (p, q) of its tile of the result adds the two rows, takes the inner product of that sum row with column q
  of the weights, adds the bias of feature q and cuts the outcome at zero: it depends on row 10000·t + p of the two row
  arrays only, and on all of the weights and the bias. The 10 tiles partition the 100,000 rows, so the array the stage
  leaves is `Spec.nodeUpd` of the four arrays the stage found.
-/
import proofs.«425185_j22127671509526_1_alg».proof.Proof.Gen.KernelIdeal.Frame
import proofs.«425185_j22127671509526_1_alg».proof.Proof.Spec
import proofs.«425185_j22127671509526_1_alg».proof.Proof.TileProduct64
import Idealize.ShloMosaic.Lib.Pipeline.Value
import Idealize.ShloMosaic.Lib.ValueIdx
import Idealize.ShloMosaic.PureOps.Ideal.Laws

set_option maxRecDepth 16384

noncomputable section

namespace Cert.KernelIdeal.NodeStage3

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The node features, the aggregated messages, the weights and the one-row bias, as the stage finds them. -/
abbrev xs (c : Dev nD) : Vec Ideal S100000x64 .f32 := V c main_v11
abbrev agg (c : Dev nD) : Vec Ideal S100000x64 .f32 := V c main_v17
abbrev wt (c : Dev nD) : Vec Ideal S64x64 .f32 := V c main_arg9
abbrev bs (c : Dev nD) : Vec Ideal S1x64 .f32 := V c main_v18

theorem origin : (![0, 0] : Fin 2 → Nat) = fun _ => 0 := funext fun a => by fin_cases a <;> rfl

/-- A tile's arithmetic at entry (p, q): the sum of the two rows p against column q of the weights, plus the bias of
    feature q, cut at zero. Each of the two row blocks and the bias row is first recast to the shape it already has, which
    is the identity, and the narrowing of the two factors before the product changes nothing on the extended reals. -/
theorem tile_apply (x0 x1 : Vec Ideal S10000x64 .f32) (x2 : Vec Ideal S64x64 .f32) (x3 : Vec Ideal S1x64 .f32) (p : Fin 10000) (q : Fin 64) :
    k3_pay1 x0 x1 x2 x3 (ix2 p q)
      = max ((∑ k : Fin 64, (x0 (ix2 p k) + x1 (ix2 p k)) * x2 (ix2 k q)) + x3 (ix2 (0 : Fin 1) q)) 0 := by
  unfold k3_pay1
  rw [shapeCast_self, shapeCast_self, shapeCast_self]
  show max (matmul (F := Ideal) dot_S10000x64_S64x64_S10000x64_1_0_0_1_n_n none (truncf (F := Ideal) .bf16 (addf (F := Ideal) x0 x1) bitsLt_bf16_f32) (truncf (F := Ideal) .bf16 x2 bitsLt_bf16_f32) (constant (F := Ideal) S10000x64 .f32 0x00000000#32) (ix2 p q)
      + broadcastTo S10000x64 x3 broadcasts_S1x64_S10000x64 (ix2 p q)) (Ideal.ofBits .f32 0x00000000#32) = _
  rw [TileProduct64.product_apply (truncf (F := Ideal) .bf16 (addf (F := Ideal) x0 x1) bitsLt_bf16_f32) (truncf (F := Ideal) .bf16 x2 bitsLt_bf16_f32) p q,
    broadcastTo_apply x3 broadcasts_S1x64_S10000x64 (ix2 p q) (ix2 (0 : Fin 1) q) (fun a => match a with
      | ⟨0, _⟩ => by show (0 : Nat) = if (1 : Nat) = 1 then 0 else p.val; rw [if_pos rfl]
      | ⟨1, _⟩ => by show q.val = if (64 : Nat) = 1 then 0 else q.val; rw [if_neg (by decide)]),
    Ideal.ofBits_zero_f32]
  rfl

/-- The three row windows move one tile of rows per grid point and stay at column block 0; the weights' and the bias's
    windows stay at block (0, 0). -/
theorem tiles : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row 10000·t + p of the row arrays. -/
def row (t : Fin cfg3.N) (p : Fin 10000) : Fin 100000 :=
  ⟨t.val * 10000 + p.val, by have := t.isLt; have h : cfg3.N = 10 := N_3; have := p.isLt; omega⟩

theorem emb0 (t : Fin cfg3.N) (p : Fin 10000) (q : Fin 64) : ((cfg3.win 0).blk t).view.emb (ix2 p q) = ix2 (row t p) q := by
  obtain ⟨e0, e1, -⟩ := tiles t
  funext a; apply Fin.ext
  match a with
  | ⟨0, _⟩ => show win3_0.index t (0 : Fin 2) * 10000 + 1 * p.val = t.val * 10000 + p.val; rw [e0]; omega
  | ⟨1, _⟩ => show win3_0.index t (1 : Fin 2) * 64 + 1 * q.val = q.val; rw [e1]; omega

theorem emb1 (t : Fin cfg3.N) (p : Fin 10000) (q : Fin 64) : ((cfg3.win 1).blk t).view.emb (ix2 p q) = ix2 (row t p) q := by
  obtain ⟨-, -, e0, e1, -⟩ := tiles t
  funext a; apply Fin.ext
  match a with
  | ⟨0, _⟩ => show win3_1.index t (0 : Fin 2) * 10000 + 1 * p.val = t.val * 10000 + p.val; rw [e0]; omega
  | ⟨1, _⟩ => show win3_1.index t (1 : Fin 2) * 64 + 1 * q.val = q.val; rw [e1]; omega

/-- Every point sees the whole weight matrix. -/
theorem emb2 (t : Fin cfg3.N) (k : Fin 64) (q : Fin 64) : ((cfg3.win 2).blk t).view.emb (ix2 k q) = ix2 k q := by
  obtain ⟨-, -, -, -, e0, e1, -⟩ := tiles t
  funext a; apply Fin.ext
  match a with
  | ⟨0, _⟩ => show win3_2.index t (0 : Fin 2) * 64 + 1 * k.val = k.val; rw [e0]; omega
  | ⟨1, _⟩ => show win3_2.index t (1 : Fin 2) * 64 + 1 * q.val = q.val; rw [e1]; omega

/-- Every point sees the whole bias row. -/
theorem emb3 (t : Fin cfg3.N) (q : Fin 64) : ((cfg3.win 3).blk t).view.emb (ix2 (0 : Fin 1) q) = ix2 (0 : Fin 1) q := by
  obtain ⟨-, -, -, -, -, -, e0, e1, -⟩ := tiles t
  funext a; apply Fin.ext
  match a with
  | ⟨0, _⟩ => show win3_3.index t (0 : Fin 2) * 1 + 1 * 0 = 0; rw [e0]
  | ⟨1, _⟩ => show win3_3.index t (1 : Fin 2) * 64 + 1 * q.val = q.val; rw [e1]; omega

theorem emb4 (t : Fin cfg3.N) (p : Fin 10000) (q : Fin 64) : ((cfg3.win 4).blk t).view.emb (ix2 p q) = ix2 (row t p) q := by
  obtain ⟨-, -, -, -, -, -, -, -, e0, e1⟩ := tiles t
  funext a; apply Fin.ext
  match a with
  | ⟨0, _⟩ => show win3_4.index t (0 : Fin 2) * 10000 + 1 * p.val = t.val * 10000 + p.val; rw [e0]; omega
  | ⟨1, _⟩ => show win3_4.index t (1 : Fin 2) * 64 + 1 * q.val = q.val; rw [e1]; omega

/-- What point t writes back is tile t of the updated node array. -/
theorem flushed_eq (c : Dev nD) (t : Fin cfg3.N) :
    (dat3 V c).flushed 4 t = ((cfg3.win 4).blk t).view.read (Elt Ideal) (Spec.nodeUpd (xs V c) (agg V c) (wt V c) (bs V c)) := by
  show (cfg3.win 4).cut (grid3.coords t) ((dat3 V c).after 4 t) = _
  rw [after3_4]
  unfold out3_4
  rw [View.canon_unit_zero origin]
  simp only [View.ld_unit_zero (S := S10000x64) origin, View.ld_unit_zero (S := S64x64) origin, View.ld_unit_zero (S := S1x64) origin]
  funext j
  obtain ⟨p, q, rfl⟩ : ∃ (p : Fin 10000) (q : Fin 64), j = ix2 p q := ⟨j 0, j 1, eq_ix2 j⟩
  refine (tile_apply (iblk3 V c 0 t) (iblk3 V c 1 t) (iblk3 V c 2 t) (iblk3 V c 3 t) p q).trans ?_
  show max ((∑ k : Fin 64, (xs V c (((cfg3.win 0).blk t).view.emb (ix2 p k)) + agg V c (((cfg3.win 1).blk t).view.emb (ix2 p k)))
        * wt V c (((cfg3.win 2).blk t).view.emb (ix2 k q)))
      + bs V c (((cfg3.win 3).blk t).view.emb (ix2 (0 : Fin 1) q))) 0
    = Spec.nodeUpd (xs V c) (agg V c) (wt V c) (bs V c) (((cfg3.win 4).blk t).view.emb (ix2 p q))
  rw [emb3, emb4, Finset.sum_congr rfl (fun k _ => by rw [emb0, emb1, emb2] :
    ∀ k ∈ (Finset.univ : Finset (Fin 64)), (xs V c (((cfg3.win 0).blk t).view.emb (ix2 p k)) + agg V c (((cfg3.win 1).blk t).view.emb (ix2 p k)))
        * wt V c (((cfg3.win 2).blk t).view.emb (ix2 k q))
      = (xs V c (ix2 (row t p) k) + agg V c (ix2 (row t p) k)) * wt V c (ix2 k q))]
  rfl

theorem mem_tile (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v19).slice (win3_4.rect t)).set ↔ _
  rw [View.set_slice_whole, Rect.mem_set_unit]
  exact Iff.rfl

/-- Every entry of the result lies in the tile of the point its row belongs to. -/
theorem covered (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 10 := N_3
  let t : Fin cfg3.N := ⟨(i 0).val / 10000, by omega⟩
  obtain ⟨-, -, -, -, -, -, -, -, e0, e1⟩ := tiles t
  refine ⟨t, flush3_4 t, ?_⟩
  rw [mem_tile]
  intro a
  match a with
  | ⟨0, _⟩ => show win3_4.index t (0 : Fin 2) * 10000 ≤ (i 0).val ∧ (i 0).val < win3_4.index t (0 : Fin 2) * 10000 + 10000; rw [e0]; show (i 0).val / 10000 * 10000 ≤ _ ∧ _ < (i 0).val / 10000 * 10000 + 10000; omega
  | ⟨1, _⟩ => show win3_4.index t (1 : Fin 2) * 64 ≤ (i 1).val ∧ (i 1).val < win3_4.index t (1 : Fin 2) * 64 + 64; rw [e1]; omega

/-- THE STAGE: the array it leaves is the node update of the arrays it found. -/
theorem result (c : Dev nD) : (dat3 V c).arrAt 4 cfg3.N = Spec.nodeUpd (xs V c) (agg V c) (wt V c) (bs V c) :=
  (dat3 V c).arrAt_eq_of_cover 4 _ (fun t _ => flushed_eq V c t) covered

end Cert.KernelIdeal.NodeStage3

end
-- ==== Proof.LinStage.lean ====
/-
  The linear-map stage, tile by tile. A grid point t holds rows 10000·t … 10000·t + 9999 of the node
  features together with the whole 64 by 64 weight matrix; entry (p, q) of its tile of the result is the inner product
  of row 10000·t + p of the features with column q of the weights, nothing else. The 10 tiles partition the 100,000
  rows, so the array the stage leaves is `Spec.nodeLin` of the two arrays the stage found.
-/
import proofs.«425185_j22127671509526_1_alg».proof.Proof.Gen.KernelIdeal.Frame
import proofs.«425185_j22127671509526_1_alg».proof.Proof.Spec
import proofs.«425185_j22127671509526_1_alg».proof.Proof.TileProduct64
import Idealize.ShloMosaic.Lib.Pipeline.Value
import Idealize.ShloMosaic.Lib.ValueIdx

set_option maxRecDepth 16384

noncomputable section

namespace Cert.KernelIdeal.LinStage

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The node features and the weights, as the stage finds them. -/
abbrev hs (c : Dev nD) : Vec Ideal S100000x64 .f32 := V c main_v19
abbrev wt (c : Dev nD) : Vec Ideal S64x64 .f32 := V c main_arg11

theorem origin : (![0, 0] : Fin 2 → Nat) = fun _ => 0 := funext fun a => by fin_cases a <;> rfl

/-- A tile's arithmetic at entry (p, q): row p against column q of the weights. The narrowing of the two factors before
    the product changes nothing on the extended reals. -/
theorem tile_apply (x0 : Vec Ideal S10000x64 .f32) (x1 : Vec Ideal S64x64 .f32) (p : Fin 10000) (q : Fin 64) :
    k4_pay1 x0 x1 (ix2 p q) = ∑ k : Fin 64, x0 (ix2 p k) * x1 (ix2 k q) := by
  unfold k4_pay1
  rw [shapeCast_self]
  exact TileProduct64.product_apply (truncf (F := Ideal) .bf16 x0 bitsLt_bf16_f32) (truncf (F := Ideal) .bf16 x1 bitsLt_bf16_f32) p q

/-- The two row windows move one tile of rows per grid point and stay at column block 0; the weights' window stays at
    block (0, 0). -/
theorem tiles : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row 10000·t + p of the row arrays. -/
def row (t : Fin cfg4.N) (p : Fin 10000) : Fin 100000 :=
  ⟨t.val * 10000 + p.val, by have := t.isLt; have h : cfg4.N = 10 := N_4; have := p.isLt; omega⟩

theorem emb0 (t : Fin cfg4.N) (p : Fin 10000) (q : Fin 64) : ((cfg4.win 0).blk t).view.emb (ix2 p q) = ix2 (row t p) q := by
  obtain ⟨e0, e1, -⟩ := tiles t
  funext a; apply Fin.ext
  match a with
  | ⟨0, _⟩ => show win4_0.index t (0 : Fin 2) * 10000 + 1 * p.val = t.val * 10000 + p.val; rw [e0]; omega
  | ⟨1, _⟩ => show win4_0.index t (1 : Fin 2) * 64 + 1 * q.val = q.val; rw [e1]; omega

/-- Every point sees the whole weight matrix. -/
theorem emb1 (t : Fin cfg4.N) (k : Fin 64) (q : Fin 64) : ((cfg4.win 1).blk t).view.emb (ix2 k q) = ix2 k q := by
  obtain ⟨-, -, e0, e1, -⟩ := tiles t
  funext a; apply Fin.ext
  match a with
  | ⟨0, _⟩ => show win4_1.index t (0 : Fin 2) * 64 + 1 * k.val = k.val; rw [e0]; omega
  | ⟨1, _⟩ => show win4_1.index t (1 : Fin 2) * 64 + 1 * q.val = q.val; rw [e1]; omega

theorem emb2 (t : Fin cfg4.N) (p : Fin 10000) (q : Fin 64) : ((cfg4.win 2).blk t).view.emb (ix2 p q) = ix2 (row t p) q := by
  obtain ⟨-, -, -, -, e0, e1⟩ := tiles t
  funext a; apply Fin.ext
  match a with
  | ⟨0, _⟩ => show win4_2.index t (0 : Fin 2) * 10000 + 1 * p.val = t.val * 10000 + p.val; rw [e0]; omega
  | ⟨1, _⟩ => show win4_2.index t (1 : Fin 2) * 64 + 1 * q.val = q.val; rw [e1]; omega

/-- What point t writes back is tile t of the mapped node array. -/
theorem flushed_eq (c : Dev nD) (t : Fin cfg4.N) :
    (dat4 V c).flushed 2 t = ((cfg4.win 2).blk t).view.read (Elt Ideal) (Spec.nodeLin (hs V c) (wt V c)) := by
  show (cfg4.win 2).cut (grid4.coords t) ((dat4 V c).after 2 t) = _
  rw [after4_2]
  unfold out4_2
  rw [View.canon_unit_zero origin]
  simp only [View.ld_unit_zero (S := S10000x64) origin, View.ld_unit_zero (S := S64x64) origin]
  funext j
  obtain ⟨p, q, rfl⟩ : ∃ (p : Fin 10000) (q : Fin 64), j = ix2 p q := ⟨j 0, j 1, eq_ix2 j⟩
  refine (tile_apply (iblk4 V c 0 t) (iblk4 V c 1 t) p q).trans ?_
  show (∑ k : Fin 64, hs V c (((cfg4.win 0).blk t).view.emb (ix2 p k)) * wt V c (((cfg4.win 1).blk t).view.emb (ix2 k q)))
    = Spec.nodeLin (hs V c) (wt V c) (((cfg4.win 2).blk t).view.emb (ix2 p q))
  rw [emb2, Finset.sum_congr rfl (fun k _ => by rw [emb0, emb1] :
    ∀ k ∈ (Finset.univ : Finset (Fin 64)), hs V c (((cfg4.win 0).blk t).view.emb (ix2 p k)) * wt V c (((cfg4.win 1).blk t).view.emb (ix2 k q))
      = hs V c (ix2 (row t p) k) * wt V c (ix2 k q))]
  rfl

theorem mem_tile (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v20).slice (win4_2.rect t)).set ↔ _
  rw [View.set_slice_whole, Rect.mem_set_unit]
  exact Iff.rfl

/-- Every entry of the result lies in the tile of the point its row belongs to. -/
theorem covered (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  let t : Fin cfg4.N := ⟨(i 0).val / 10000, by omega⟩
  obtain ⟨-, -, -, -, e0, e1⟩ := tiles t
  refine ⟨t, flush4_2 t, ?_⟩
  rw [mem_tile]
  intro a
  match a with
  | ⟨0, _⟩ => show win4_2.index t (0 : Fin 2) * 10000 ≤ (i 0).val ∧ (i 0).val < win4_2.index t (0 : Fin 2) * 10000 + 10000; rw [e0]; show (i 0).val / 10000 * 10000 ≤ _ ∧ _ < (i 0).val / 10000 * 10000 + 10000; omega
  | ⟨1, _⟩ => show win4_2.index t (1 : Fin 2) * 64 ≤ (i 1).val ∧ (i 1).val < win4_2.index t (1 : Fin 2) * 64 + 64; rw [e1]; omega

/-- THE STAGE: the array it leaves is the linear map of the arrays it found. -/
theorem result (c : Dev nD) : (dat4 V c).arrAt 2 cfg4.N = Spec.nodeLin (hs V c) (wt V c) :=
  (dat4 V c).arrAt_eq_of_cover 2 _ (fun t _ => flushed_eq V c t) covered

end Cert.KernelIdeal.LinStage

end
-- ==== Proof.Step34.lean ====
/-
  Two steps of the walk through the program: the second node update and the linear map after it. The second node update
  finds the first hidden array where the first node update left it (nothing in between writes that buffer or owns it),
  the second messages summed into their destination nodes (a host scatter-add, from zero, of what the second edge stage
  left, at the destination indices, which nothing has touched since they were cut from the edge index), and its weights
  and bias as launched, the bias recast as a one-row array: so it leaves `hid1`. The linear map finds that array in place
  and its weights as launched: so it leaves `lin`.
-/
import proofs.«425185_j22127671509526_1_alg».proof.Proof.Fold
import proofs.«425185_j22127671509526_1_alg».proof.Proof.NodeStage3
import proofs.«425185_j22127671509526_1_alg».proof.Proof.LinStage

set_option maxRecDepth 16384

noncomputable section

namespace Cert.KernelIdeal.Fold

open Cert.KernelIdeal Cert.KernelIdeal.Gen Cert.KernelIdeal.TakeRows
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the second node update finds -/

/-- The first hidden array, still where the first node update left it. -/
theorem W10_hidden (c : Dev nD) (h1 : (W6 m ρ c (Proc.devRef .tc main_v11) : FVec Ideal S100000x64 .f32) = hid0 m c) :
    (W10 m ρ c (Proc.devRef .tc main_v11) : FVec Ideal S100000x64 .f32) = hid0 m c := by
  calc (W10 m ρ c (Proc.devRef .tc main_v11) : FVec Ideal S100000x64 .f32)
    _ = W9 m ρ c (Proc.devRef .tc main_v11) := by host_keeps hostOps3
    _ = W8 m ρ c (Proc.devRef .tc main_v11) := W9_of_ne m ρ c main_v11 (by decide)
    _ = W7 m ρ c (Proc.devRef .tc main_v11) := by host_keeps hostOps2_1
    _ = W6 m ρ c (Proc.devRef .tc main_v11) := by host_keeps hostOps2
    _ = _ := h1

/-- The destination indices, untouched since the first host stretch cut them from the edge index. -/
theorem W9_dst (c : Dev nD) : (W9 m ρ c (Proc.devRef .tc main_v3) : IVec S1600000 32) = dst m c := by
  calc (W9 m ρ c (Proc.devRef .tc main_v3) : IVec S1600000 32)
    _ = W8 m ρ c (Proc.devRef .tc main_v3) := W9_of_ne m ρ c main_v3 (by decide)
    _ = W7 m ρ c (Proc.devRef .tc main_v3) := by host_keeps hostOps2_1
    _ = W6 m ρ c (Proc.devRef .tc main_v3) := by host_keeps hostOps2
    _ = W5 m ρ c (Proc.devRef .tc main_v3) := W6_of_ne m ρ c main_v3 (by decide)
    _ = W4 m ρ c (Proc.devRef .tc main_v3) := by host_keeps hostOps1
    _ = W3 m ρ c (Proc.devRef .tc main_v3) := W4_of_ne m ρ c main_v3 (by decide)
    _ = W2 m ρ c (Proc.devRef .tc main_v3) := by host_keeps hostOps0_2
    _ = W1 m ρ c (Proc.devRef .tc main_v3) := by host_keeps hostOps0_1
    _ = _ := W1_dst m ρ c

/-- The second messages summed into their destination nodes. -/
theorem W10_agg (c : Dev nD) (h2 : (W9 m ρ c (Proc.devRef .tc main_v14) : FVec Ideal S1600000x64 .f32) = msg1 m c) :
    (W10 m ρ c (Proc.devRef .tc main_v17) : FVec Ideal S100000x64 .f32) = aggOf (F := Ideal) (dst m c) (msg1 m c) := by
  calc (W10 m ρ c (Proc.devRef .tc main_v17) : FVec Ideal S100000x64 .f32)
    _ = aggOf (F := Ideal) (W9 m ρ c (Proc.devRef .tc main_v3)) (W9 m ρ c (Proc.devRef .tc main_v14)) := by
        show StableHlo.after hostOps3 (W9 m ρ c) (Proc.devRef .tc main_v17) = _
        host_writes
        rfl
    _ = _ := by rw [W9_dst, h2]

/-- The second node update's weights, as launched. -/
theorem W10_wts (c : Dev nD) : (W10 m ρ c (Proc.devRef .tc main_arg9) : FVec Ideal S64x64 .f32) = X9 m c := by
  calc (W10 m ρ c (Proc.devRef .tc main_arg9) : FVec Ideal S64x64 .f32)
    _ = W9 m ρ c (Proc.devRef .tc main_arg9) := by host_keeps hostOps3
    _ = W8 m ρ c (Proc.devRef .tc main_arg9) := W9_of_ne m ρ c main_arg9 (by decide)
    _ = W7 m ρ c (Proc.devRef .tc main_arg9) := by host_keeps hostOps2_1
    _ = W6 m ρ c (Proc.devRef .tc main_arg9) := by host_keeps hostOps2
    _ = W5 m ρ c (Proc.devRef .tc main_arg9) := W6_of_ne m ρ c main_arg9 (by decide)
    _ = W4 m ρ c (Proc.devRef .tc main_arg9) := by host_keeps hostOps1
    _ = W3 m ρ c (Proc.devRef .tc main_arg9) := W4_of_ne m ρ c main_arg9 (by decide)
    _ = W2 m ρ c (Proc.devRef .tc main_arg9) := by host_keeps hostOps0_2
    _ = W1 m ρ c (Proc.devRef .tc main_arg9) := by host_keeps hostOps0_1
    _ = W0 m ρ c (Proc.devRef .tc main_arg9) := by host_keeps hostOps0
    _ = _ := rfl

/-- Its bias vector, as launched, just before the host stretch that recasts it. -/
theorem W9_biasvec (c : Dev nD) : (W9 m ρ c (Proc.devRef .tc main_arg10) : FVec Ideal S64 .f32) = X10 m c := by
  calc (W9 m ρ c (Proc.devRef .tc main_arg10) : FVec Ideal S64 .f32)
    _ = W8 m ρ c (Proc.devRef .tc main_arg10) := W9_of_ne m ρ c main_arg10 (by decide)
    _ = W7 m ρ c (Proc.devRef .tc main_arg10) := by host_keeps hostOps2_1
    _ = W6 m ρ c (Proc.devRef .tc main_arg10) := by host_keeps hostOps2
    _ = W5 m ρ c (Proc.devRef .tc main_arg10) := W6_of_ne m ρ c main_arg10 (by decide)
    _ = W4 m ρ c (Proc.devRef .tc main_arg10) := by host_keeps hostOps1
    _ = W3 m ρ c (Proc.devRef .tc main_arg10) := W4_of_ne m ρ c main_arg10 (by decide)
    _ = W2 m ρ c (Proc.devRef .tc main_arg10) := by host_keeps hostOps0_2
    _ = W1 m ρ c (Proc.devRef .tc main_arg10) := by host_keeps hostOps0_1
    _ = W0 m ρ c (Proc.devRef .tc main_arg10) := by host_keeps hostOps0
    _ = _ := rfl

/-- The bias as a one-row array. -/
theorem W10_bias (c : Dev nD) : (W10 m ρ c (Proc.devRef .tc main_v18) : FVec Ideal S1x64 .f32) = rowOf (X10 m c) := by
  calc (W10 m ρ c (Proc.devRef .tc main_v18) : FVec Ideal S1x64 .f32)
    _ = rowOf (W9 m ρ c (Proc.devRef .tc main_arg10)) := by
        show StableHlo.after hostOps3 (W9 m ρ c) (Proc.devRef .tc main_v18) = _
        host_writes
        rfl
    _ = _ := by rw [W9_biasvec]

/-- STEP 3: the second node update leaves the second hidden array. -/
theorem step3 (c : Dev nD) (h1 : (W6 m ρ c (Proc.devRef .tc main_v11) : FVec Ideal S100000x64 .f32) = hid0 m c)
    (h2 : (W9 m ρ c (Proc.devRef .tc main_v14) : FVec Ideal S1600000x64 .f32) = msg1 m c) :
    (W11 m ρ c (Proc.devRef .tc main_v19) : FVec Ideal S100000x64 .f32) = hid1 m c := by
  calc (W11 m ρ c (Proc.devRef .tc main_v19) : FVec Ideal S100000x64 .f32)
    _ = (dat3 (V10 m ρ) c).arrAt 4 cfg3.N := W11_arr m ρ c 4
    _ = Spec.nodeUpd (NodeStage3.xs (V10 m ρ) c) (NodeStage3.agg (V10 m ρ) c) (NodeStage3.wt (V10 m ρ) c) (NodeStage3.bs (V10 m ρ) c) :=
        NodeStage3.result (V10 m ρ) c
    _ = Spec.nodeUpd (hid0 m c) (aggOf (F := Ideal) (dst m c) (msg1 m c)) (X9 m c) (rowOf (X10 m c)) := by
        rw [show NodeStage3.xs (V10 m ρ) c = hid0 m c from W10_hidden m ρ c h1,
          show NodeStage3.agg (V10 m ρ) c = aggOf (F := Ideal) (dst m c) (msg1 m c) from W10_agg m ρ c h2,
          show NodeStage3.wt (V10 m ρ) c = X9 m c from W10_wts m ρ c,
          show NodeStage3.bs (V10 m ρ) c = rowOf (X10 m c) from W10_bias m ρ c]
    _ = hid1 m c := rfl

/-! ## What the linear map finds -/

/-- The linear map's weights, as launched. -/
theorem W11_wts (c : Dev nD) : (W11 m ρ c (Proc.devRef .tc main_arg11) : FVec Ideal S64x64 .f32) = X11 m c := by
  calc (W11 m ρ c (Proc.devRef .tc main_arg11) : FVec Ideal S64x64 .f32)
    _ = W10 m ρ c (Proc.devRef .tc main_arg11) := W11_of_ne m ρ c main_arg11 (by decide)
    _ = W9 m ρ c (Proc.devRef .tc main_arg11) := by host_keeps hostOps3
    _ = W8 m ρ c (Proc.devRef .tc main_arg11) := W9_of_ne m ρ c main_arg11 (by decide)
    _ = W7 m ρ c (Proc.devRef .tc main_arg11) := by host_keeps hostOps2_1
    _ = W6 m ρ c (Proc.devRef .tc main_arg11) := by host_keeps hostOps2
    _ = W5 m ρ c (Proc.devRef .tc main_arg11) := W6_of_ne m ρ c main_arg11 (by decide)
    _ = W4 m ρ c (Proc.devRef .tc main_arg11) := by host_keeps hostOps1
    _ = W3 m ρ c (Proc.devRef .tc main_arg11) := W4_of_ne m ρ c main_arg11 (by decide)
    _ = W2 m ρ c (Proc.devRef .tc main_arg11) := by host_keeps hostOps0_2
    _ = W1 m ρ c (Proc.devRef .tc main_arg11) := by host_keeps hostOps0_1
    _ = W0 m ρ c (Proc.devRef .tc main_arg11) := by host_keeps hostOps0
    _ = _ := rfl

/-- STEP 4: the linear map leaves the mapped array. -/
theorem step4 (c : Dev nD) (h3 : (W11 m ρ c (Proc.devRef .tc main_v19) : FVec Ideal S100000x64 .f32) = hid1 m c) :
    (W12 m ρ c (Proc.devRef .tc main_v20) : FVec Ideal S100000x64 .f32) = lin m c := by
  calc (W12 m ρ c (Proc.devRef .tc main_v20) : FVec Ideal S100000x64 .f32)
    _ = (dat4 (V11 m ρ) c).arrAt 2 cfg4.N := W12_arr m ρ c 2
    _ = Spec.nodeLin (LinStage.hs (V11 m ρ) c) (LinStage.wt (V11 m ρ) c) := LinStage.result (V11 m ρ) c
    _ = Spec.nodeLin (hid1 m c) (X11 m c) := by
        rw [show LinStage.hs (V11 m ρ) c = hid1 m c from h3,
          show LinStage.wt (V11 m ρ) c = X11 m c from W11_wts m ρ c]
    _ = lin m c := rfl

end Cert.KernelIdeal.Fold

end
-- ==== Proof.ScaleStage.lean ====
/-
  The row-scaling stage of the GCN layer, tile by tile. A grid point t holds rows 16000·t … 16000·t + 15999 of the gathered
  features and of the one-column array of edge weights; its tile of the result is, entry by entry, the feature times its
  row's weight. The 100 tiles partition the 1,600,000 rows, so the array the stage leaves is `Spec.scaleRows` of the two
  arrays the stage found.
-/
import proofs.«425185_j22127671509526_1_alg».proof.Proof.Gen.KernelIdeal.Frame
import proofs.«425185_j22127671509526_1_alg».proof.Proof.Spec
import Idealize.ShloMosaic.Lib.Pipeline.Value
import Idealize.ShloMosaic.Lib.ValueIdx

set_option maxRecDepth 16384

noncomputable section

namespace Cert.KernelIdeal.ScaleStage

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The gathered features and the one-column array of edge weights, as the stage finds them. -/
abbrev feat (c : Dev nD) : Vec Ideal S1600000x64 .f32 := V c main_v44
abbrev wt (c : Dev nD) : Vec Ideal S1600000x1 .f32 := V c main_v45

theorem origin : (![0, 0] : Fin 2 → Nat) = fun _ => 0 := funext fun a => by fin_cases a <;> rfl

/-- A tile's arithmetic at entry (p, q): the feature times the weight of row p. -/
theorem tile_apply (x0 : Vec Ideal S16000x64 .f32) (x1 : Vec Ideal S16000x1 .f32) (p : Fin 16000) (q : Fin 64) :
    k5_pay1 x0 x1 (ix2 p q) = x0 (ix2 p q) * x1 (ix2 p 0) := by
  unfold k5_pay1
  rw [shapeCast_self, shapeCast_self]
  show x0 (ix2 p q) * broadcastTo S16000x64 x1 broadcasts_S16000x1_S16000x64 (ix2 p q) = _
  rw [broadcastTo_apply x1 broadcasts_S16000x1_S16000x64 (ix2 p q) (ix2 p 0) (fun a => match a with
    | ⟨0, _⟩ => by show p.val = if (16000 : Nat) = 1 then 0 else p.val; rw [if_neg (by decide)]
    | ⟨1, _⟩ => by show (0 : Nat) = if (1 : Nat) = 1 then 0 else q.val; rw [if_pos rfl])]

/-- Every window of the stage moves one tile of rows per grid point and stays at column block 0. -/
theorem tiles : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- Row 16000·t + p of the arrays. -/
def row (t : Fin cfg5.N) (p : Fin 16000) : Fin 1600000 :=
  ⟨t.val * 16000 + p.val, by have := t.isLt; have h : cfg5.N = 100 := N_5; have := p.isLt; omega⟩

theorem emb0 (t : Fin cfg5.N) (p : Fin 16000) (q : Fin 64) : ((cfg5.win 0).blk t).view.emb (ix2 p q) = ix2 (row t p) q := by
  obtain ⟨e0, e1, -⟩ := tiles t
  funext a; apply Fin.ext
  match a with
  | ⟨0, _⟩ => show win5_0.index t (0 : Fin 2) * 16000 + 1 * p.val = t.val * 16000 + p.val; rw [e0]; omega
  | ⟨1, _⟩ => show win5_0.index t (1 : Fin 2) * 64 + 1 * q.val = q.val; rw [e1]; omega

theorem emb1 (t : Fin cfg5.N) (p : Fin 16000) : ((cfg5.win 1).blk t).view.emb (ix2 p (0 : Fin 1)) = ix2 (row t p) (0 : Fin 1) := by
  obtain ⟨-, -, e0, e1, -⟩ := tiles t
  funext a; apply Fin.ext
  match a with
  | ⟨0, _⟩ => show win5_1.index t (0 : Fin 2) * 16000 + 1 * p.val = t.val * 16000 + p.val; rw [e0]; omega
  | ⟨1, _⟩ => show win5_1.index t (1 : Fin 2) * 1 + 1 * 0 = 0; rw [e1]

theorem emb2 (t : Fin cfg5.N) (p : Fin 16000) (q : Fin 64) : ((cfg5.win 2).blk t).view.emb (ix2 p q) = ix2 (row t p) q := by
  obtain ⟨-, -, -, -, e0, e1⟩ := tiles t
  funext a; apply Fin.ext
  match a with
  | ⟨0, _⟩ => show win5_2.index t (0 : Fin 2) * 16000 + 1 * p.val = t.val * 16000 + p.val; rw [e0]; omega
  | ⟨1, _⟩ => show win5_2.index t (1 : Fin 2) * 64 + 1 * q.val = q.val; rw [e1]; omega

/-- What point t writes back is tile t of the scaled array. -/
theorem flushed_eq (c : Dev nD) (t : Fin cfg5.N) :
    (dat5 V c).flushed 2 t = ((cfg5.win 2).blk t).view.read (Elt Ideal) (Spec.scaleRows (feat V c) (wt V c)) := by
  show (cfg5.win 2).cut (grid5.coords t) ((dat5 V c).after 2 t) = _
  rw [after5_2]
  unfold out5_2
  rw [View.canon_unit_zero origin]
  simp only [View.ld_unit_zero (S := S16000x64) origin, View.ld_unit_zero (S := S16000x1) origin]
  funext j
  obtain ⟨p, q, rfl⟩ : ∃ (p : Fin 16000) (q : Fin 64), j = ix2 p q := ⟨j 0, j 1, eq_ix2 j⟩
  refine (tile_apply (iblk5 V c 0 t) (iblk5 V c 1 t) p q).trans ?_
  show feat V c (((cfg5.win 0).blk t).view.emb (ix2 p q)) * wt V c (((cfg5.win 1).blk t).view.emb (ix2 p (0 : Fin 1)))
    = Spec.scaleRows (feat V c) (wt V c) (((cfg5.win 2).blk t).view.emb (ix2 p q))
  rw [emb0, emb1, emb2]
  rfl

theorem mem_tile (t : Fin cfg5.N) (i : S1600000x64.Idx) :
    i ∈ ((cfg5.win 2).blk t).view.set ↔ ∀ a : Fin 2, win5_2.index t a * S16000x64.size a ≤ (i a).val ∧ (i a).val < win5_2.index t a * S16000x64.size a + S16000x64.size a := by
  show i ∈ ((View.whole main_v46).slice (win5_2.rect t)).set ↔ _
  rw [View.set_slice_whole, Rect.mem_set_unit]
  exact Iff.rfl

/-- Every entry of the result lies in the tile of the point its row belongs to. -/
theorem covered (i : S1600000x64.Idx) : ∃ t : Fin cfg5.N, (cfg5.win 2).flush t = true ∧ i ∈ ((cfg5.win 2).blk t).view.set := by
  have hi0 : (i 0).val < 1600000 := (i 0).isLt
  have hi1 : (i 1).val < 64 := (i 1).isLt
  have hN : cfg5.N = 100 := N_5
  let t : Fin cfg5.N := ⟨(i 0).val / 16000, by omega⟩
  obtain ⟨-, -, -, -, e0, e1⟩ := tiles t
  refine ⟨t, flush5_2 t, ?_⟩
  rw [mem_tile]
  intro a
  match a with
  | ⟨0, _⟩ => show win5_2.index t (0 : Fin 2) * 16000 ≤ (i 0).val ∧ (i 0).val < win5_2.index t (0 : Fin 2) * 16000 + 16000; rw [e0]; show (i 0).val / 16000 * 16000 ≤ _ ∧ _ < (i 0).val / 16000 * 16000 + 16000; omega
  | ⟨1, _⟩ => show win5_2.index t (1 : Fin 2) * 64 ≤ (i 1).val ∧ (i 1).val < win5_2.index t (1 : Fin 2) * 64 + 64; rw [e1]; omega

/-- THE STAGE: the array it leaves is the scaled array of the arrays it found. -/
theorem result (c : Dev nD) : (dat5 V c).arrAt 2 cfg5.N = Spec.scaleRows (feat V c) (wt V c) :=
  (dat5 V c).arrAt_eq_of_cover 2 _ (fun t _ => flushed_eq V c t) covered

end Cert.KernelIdeal.ScaleStage

end
-- ==== Proof.Step5.lean ====
/-
  The row-scaling stage in the walk through the program. When it starts, the stage finds two arrays. One is the rows of
  the linear map's result gathered at the source index of every edge; the gather is computed from the linear map's result
  and the source indices as they stand just before it, and neither has been written since it was made. The other is the
  one-column array of edge weights: for each edge the product of its two endpoints' degree factors, the degree of a node
  being one per incoming edge plus one, and the factor its power −1/2; it is computed from the two index vectors, which
  are still what the first host operations made of the edge index. So the stage leaves `scaled`.
-/
import proofs.«425185_j22127671509526_1_alg».proof.Proof.Fold
import proofs.«425185_j22127671509526_1_alg».proof.Proof.ScaleStage

set_option maxRecDepth 16384

noncomputable section

namespace Cert.KernelIdeal.Fold

open Cert.KernelIdeal Cert.KernelIdeal.Gen Cert.KernelIdeal.TakeRows
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The two index vectors are never written again -/

/-- The source indices, when the fifth stage has ended. -/
theorem s5_src_W12 (c : Dev nD) : (W12 m ρ c (Proc.devRef .tc main_v1) : IVec S1600000 32) = src m c := by
  calc (W12 m ρ c (Proc.devRef .tc main_v1) : IVec S1600000 32)
    _ = W11 m ρ c (Proc.devRef .tc main_v1) := W12_of_ne m ρ c main_v1 (by decide)
    _ = W10 m ρ c (Proc.devRef .tc main_v1) := W11_of_ne m ρ c main_v1 (by decide)
    _ = W9 m ρ c (Proc.devRef .tc main_v1) := by host_keeps hostOps3
    _ = W8 m ρ c (Proc.devRef .tc main_v1) := W9_of_ne m ρ c main_v1 (by decide)
    _ = W7 m ρ c (Proc.devRef .tc main_v1) := by host_keeps hostOps2_1
    _ = W6 m ρ c (Proc.devRef .tc main_v1) := by host_keeps hostOps2
    _ = W5 m ρ c (Proc.devRef .tc main_v1) := W6_of_ne m ρ c main_v1 (by decide)
    _ = W4 m ρ c (Proc.devRef .tc main_v1) := by host_keeps hostOps1
    _ = W3 m ρ c (Proc.devRef .tc main_v1) := W4_of_ne m ρ c main_v1 (by decide)
    _ = W2 m ρ c (Proc.devRef .tc main_v1) := by host_keeps hostOps0_2
    _ = W1 m ρ c (Proc.devRef .tc main_v1) := by host_keeps hostOps0_1
    _ = src m c := W1_src m ρ c

/-- The destination indices, when the fifth stage has ended. -/
theorem s5_dst_W12 (c : Dev nD) : (W12 m ρ c (Proc.devRef .tc main_v3) : IVec S1600000 32) = dst m c := by
  calc (W12 m ρ c (Proc.devRef .tc main_v3) : IVec S1600000 32)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := by host_keeps hostOps3
    _ = W8 m ρ c (Proc.devRef .tc main_v3) := W9_of_ne m ρ c main_v3 (by decide)
    _ = W7 m ρ c (Proc.devRef .tc main_v3) := by host_keeps hostOps2_1
    _ = W6 m ρ c (Proc.devRef .tc main_v3) := by host_keeps hostOps2
    _ = W5 m ρ c (Proc.devRef .tc main_v3) := W6_of_ne m ρ c main_v3 (by decide)
    _ = W4 m ρ c (Proc.devRef .tc main_v3) := by host_keeps hostOps1
    _ = W3 m ρ c (Proc.devRef .tc main_v3) := W4_of_ne m ρ c main_v3 (by decide)
    _ = W2 m ρ c (Proc.devRef .tc main_v3) := by host_keeps hostOps0_2
    _ = W1 m ρ c (Proc.devRef .tc main_v3) := by host_keeps hostOps0_1
    _ = dst m c := W1_dst m ρ c

/-! ## What the gather before the stage reads -/

/-- The source indices just before the gather: the degree computations only read them. -/
theorem s5_src_W13 (c : Dev nD) : (W13 m ρ c (Proc.devRef .tc main_v1) : IVec S1600000 32) = src m c := by
  calc (W13 m ρ c (Proc.devRef .tc main_v1) : IVec S1600000 32)
    _ = W12 m ρ c (Proc.devRef .tc main_v1) := by host_keeps hostOps5
    _ = src m c := s5_src_W12 m ρ c

/-- The linear map's result just before the gather: the degree computations do not touch it. -/
theorem s5_lin_W13 (c : Dev nD) (h4 : (W12 m ρ c (Proc.devRef .tc main_v20) : FVec Ideal S100000x64 .f32) = lin m c) :
    (W13 m ρ c (Proc.devRef .tc main_v20) : FVec Ideal S100000x64 .f32) = lin m c := by
  calc (W13 m ρ c (Proc.devRef .tc main_v20) : FVec Ideal S100000x64 .f32)
    _ = W12 m ρ c (Proc.devRef .tc main_v20) := by host_keeps hostOps5
    _ = lin m c := h4

/-! ## What the stage finds -/

/-- The gathered rows of the linear map's result. -/
theorem s5_rows (c : Dev nD) (h4 : (W12 m ρ c (Proc.devRef .tc main_v20) : FVec Ideal S100000x64 .f32) = lin m c) :
    (W15 m ρ c (Proc.devRef .tc main_v44) : FVec Ideal S1600000x64 .f32) = takeRows (F := Ideal) (lin m c) (src m c) := by
  calc (W15 m ρ c (Proc.devRef .tc main_v44) : FVec Ideal S1600000x64 .f32)
    _ = W14 m ρ c (Proc.devRef .tc main_v44) := by host_keeps hostOps5_2
    _ = takeRows (F := Ideal) (W13 m ρ c (Proc.devRef .tc main_v20)) (W13 m ρ c (Proc.devRef .tc main_v1)) := take2_at (W13 m ρ c)
    _ = _ := by rw [s5_lin_W13 m ρ c h4, s5_src_W13 m ρ c]

/-- The edge weights as the degree computations leave them: the product, edge by edge, of the two endpoints' degree
    factors, from the index vectors as they stand. -/
theorem s5_norm_W13 (c : Dev nD) :
    (W13 m ρ c (Proc.devRef .tc main_v43) : FVec Ideal S1600000 .f32)
      = normOf (F := Ideal) (W12 m ρ c (Proc.devRef .tc main_v1)) (W12 m ρ c (Proc.devRef .tc main_v3)) := by
  show StableHlo.after hostOps5 (W12 m ρ c) (Proc.devRef .tc main_v43) = _
  unfold normOf dinvOf degOf asCol idxCol wrapped
  host_writes

/-- The edge weights just before the stage's entry: the gather in between does not write them. -/
theorem s5_norm_W14 (c : Dev nD) :
    (W14 m ρ c (Proc.devRef .tc main_v43) : FVec Ideal S1600000 .f32) = normOf (F := Ideal) (src m c) (dst m c) := by
  calc (W14 m ρ c (Proc.devRef .tc main_v43) : FVec Ideal S1600000 .f32)
    _ = W13 m ρ c (Proc.devRef .tc main_v43) := by host_keeps hostOps5_1
    _ = normOf (F := Ideal) (W12 m ρ c (Proc.devRef .tc main_v1)) (W12 m ρ c (Proc.devRef .tc main_v3)) := s5_norm_W13 m ρ c
    _ = _ := by rw [s5_src_W12 m ρ c, s5_dst_W12 m ρ c]

/-- The edge weights as a one-column array. -/
theorem s5_wts (c : Dev nD) :
    (W15 m ρ c (Proc.devRef .tc main_v45) : FVec Ideal S1600000x1 .f32)
      = shapeCast S1600000x1 (normOf (F := Ideal) (src m c) (dst m c)) shapeCasts_S1600000_S1600000x1 := by
  calc (W15 m ρ c (Proc.devRef .tc main_v45) : FVec Ideal S1600000x1 .f32)
    _ = shapeCast S1600000x1 (W14 m ρ c (Proc.devRef .tc main_v43) : FVec Ideal S1600000 .f32) shapeCasts_S1600000_S1600000x1 := by
        show StableHlo.after hostOps5_2 (W14 m ρ c) (Proc.devRef .tc main_v45) = _
        host_writes
        rfl
    _ = _ := by rw [s5_norm_W14 m ρ c]

/-- STEP 5: the row-scaling stage leaves the scaled messages. -/
theorem step5 (c : Dev nD) (h4 : (W12 m ρ c (Proc.devRef .tc main_v20) : FVec Ideal S100000x64 .f32) = lin m c) :
    (W16 m ρ c (Proc.devRef .tc main_v46) : FVec Ideal S1600000x64 .f32) = scaled m c := by
  calc (W16 m ρ c (Proc.devRef .tc main_v46) : FVec Ideal S1600000x64 .f32)
    _ = (dat5 (V15 m ρ) c).arrAt 2 cfg5.N := W16_arr m ρ c 2
    _ = Spec.scaleRows (ScaleStage.feat (V15 m ρ) c) (ScaleStage.wt (V15 m ρ) c) := ScaleStage.result (V15 m ρ) c
    _ = Spec.scaleRows (takeRows (F := Ideal) (lin m c) (src m c))
          (shapeCast S1600000x1 (normOf (F := Ideal) (src m c) (dst m c)) shapeCasts_S1600000_S1600000x1) := by
        rw [show ScaleStage.feat (V15 m ρ) c = takeRows (F := Ideal) (lin m c) (src m c) from s5_rows m ρ c h4,
          show ScaleStage.wt (V15 m ρ) c
            = shapeCast S1600000x1 (normOf (F := Ideal) (src m c) (dst m c)) shapeCasts_S1600000_S1600000x1 from s5_wts m ρ c]
    _ = scaled m c := rfl

end Cert.KernelIdeal.Fold

end
-- ==== Proof.GcnStage.lean ====
/-
  The last stage of the GCN layer, tile by tile. A grid point t holds rows 10000·t … 10000·t + 9999 of three arrays: the
  sums of the scaled messages each node received, the node's own linearly mapped features, and the one-column array of
  self-loop weights; it also holds the whole one-row array of biases. Its tile of the result is, entry by entry, the
  received sum plus the self-loop weight of the row times the node's own feature, plus the bias of the column, cut at zero.
  The 10 tiles partition the 100,000 rows, so the array the stage leaves is `Spec.gcnFin` of the four arrays it found.
-/
import proofs.«425185_j22127671509526_1_alg».proof.Proof.Gen.KernelIdeal.Frame
import proofs.«425185_j22127671509526_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.GcnStage

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The four arrays the stage finds: the received sums, the nodes' own mapped features, the one-column array of
    self-loop weights, and the one-row array of biases. -/
abbrev ag (c : Dev nD) : Vec Ideal S100000x64 .f32 := V c main_v49
abbrev xw (c : Dev nD) : Vec Ideal S100000x64 .f32 := V c main_v20
abbrev sl (c : Dev nD) : Vec Ideal S100000x1 .f32 := V c main_v51
abbrev bs (c : Dev nD) : Vec Ideal S1x64 .f32 := V c main_v52

theorem origin : (![0, 0] : Fin 2 → Nat) = fun _ => 0 := funext fun a => by fin_cases a <;> rfl

/-- A tile's arithmetic at entry (p, q): the received sum, plus row p's weight times the node's own feature, plus
    column q's bias, cut at zero. The weight is read at column 0 of its row and the bias at row 0 of its column. -/
theorem tile_apply (x0 : Vec Ideal S10000x64 .f32) (x2 : Vec Ideal S10000x1 .f32) (x1 : Vec Ideal S10000x64 .f32)
    (x3 : Vec Ideal S1x64 .f32) (p : Fin 10000) (q : Fin 64) :
    k6_pay1 x0 x2 x1 x3 (ix2 p q)
      = max ((x0 (ix2 p q) + x2 (ix2 p 0) * x1 (ix2 p q)) + x3 (ix2 0 q)) 0 := by
  unfold k6_pay1
  rw [shapeCast_self, shapeCast_self, shapeCast_self, shapeCast_self]
  show max ((x0 (ix2 p q) + broadcastTo S10000x64 x2 broadcasts_S10000x1_S10000x64 (ix2 p q) * x1 (ix2 p q))
      + broadcastTo S10000x64 x3 broadcasts_S1x64_S10000x64 (ix2 p q)) (Ideal.ofBits .f32 0x00000000#32) = _
  rw [Ideal.ofBits_zero_f32]
  rw [broadcastTo_apply x2 broadcasts_S10000x1_S10000x64 (ix2 p q) (ix2 p 0) (fun a => match a with
    | ⟨0, _⟩ => by show p.val = if (10000 : Nat) = 1 then 0 else p.val; rw [if_neg (by decide)]
    | ⟨1, _⟩ => by show (0 : Nat) = if (1 : Nat) = 1 then 0 else q.val; rw [if_pos rfl])]
  rw [broadcastTo_apply x3 broadcasts_S1x64_S10000x64 (ix2 p q) (ix2 0 q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])]

/-- The three row-tiled inputs and the output move one tile of rows per grid point and stay at column block 0; the bias
    row's window is the whole array at every point. -/
theorem tiles : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- Row 10000·t + p of the arrays. -/
def row (t : Fin cfg6.N) (p : Fin 10000) : Fin 100000 :=
  ⟨t.val * 10000 + p.val, by have := t.isLt; have h : cfg6.N = 10 := N_6; have := p.isLt; omega⟩

theorem emb0 (t : Fin cfg6.N) (p : Fin 10000) (q : Fin 64) : ((cfg6.win 0).blk t).view.emb (ix2 p q) = ix2 (row t p) q := by
  obtain ⟨e0, e1, -⟩ := tiles t
  funext a; apply Fin.ext
  match a with
  | ⟨0, _⟩ => show win6_0.index t (0 : Fin 2) * 10000 + 1 * p.val = t.val * 10000 + p.val; rw [e0]; omega
  | ⟨1, _⟩ => show win6_0.index t (1 : Fin 2) * 64 + 1 * q.val = q.val; rw [e1]; omega

theorem emb1 (t : Fin cfg6.N) (p : Fin 10000) (q : Fin 64) : ((cfg6.win 1).blk t).view.emb (ix2 p q) = ix2 (row t p) q := by
  obtain ⟨-, -, e0, e1, -⟩ := tiles t
  funext a; apply Fin.ext
  match a with
  | ⟨0, _⟩ => show win6_1.index t (0 : Fin 2) * 10000 + 1 * p.val = t.val * 10000 + p.val; rw [e0]; omega
  | ⟨1, _⟩ => show win6_1.index t (1 : Fin 2) * 64 + 1 * q.val = q.val; rw [e1]; omega

theorem emb2 (t : Fin cfg6.N) (p : Fin 10000) : ((cfg6.win 2).blk t).view.emb (ix2 p (0 : Fin 1)) = ix2 (row t p) (0 : Fin 1) := by
  obtain ⟨-, -, -, -, e0, e1, -⟩ := tiles t
  funext a; apply Fin.ext
  match a with
  | ⟨0, _⟩ => show win6_2.index t (0 : Fin 2) * 10000 + 1 * p.val = t.val * 10000 + p.val; rw [e0]; omega
  | ⟨1, _⟩ => show win6_2.index t (1 : Fin 2) * 1 + 1 * 0 = 0; rw [e1]

theorem emb3 (t : Fin cfg6.N) (q : Fin 64) : ((cfg6.win 3).blk t).view.emb (ix2 (0 : Fin 1) q) = ix2 (0 : Fin 1) q := by
  obtain ⟨-, -, -, -, -, -, e0, e1, -⟩ := tiles t
  funext a; apply Fin.ext
  match a with
  | ⟨0, _⟩ => show win6_3.index t (0 : Fin 2) * 1 + 1 * 0 = 0; rw [e0]
  | ⟨1, _⟩ => show win6_3.index t (1 : Fin 2) * 64 + 1 * q.val = q.val; rw [e1]; omega

theorem emb4 (t : Fin cfg6.N) (p : Fin 10000) (q : Fin 64) : ((cfg6.win 4).blk t).view.emb (ix2 p q) = ix2 (row t p) q := by
  obtain ⟨-, -, -, -, -, -, -, -, e0, e1⟩ := tiles t
  funext a; apply Fin.ext
  match a with
  | ⟨0, _⟩ => show win6_4.index t (0 : Fin 2) * 10000 + 1 * p.val = t.val * 10000 + p.val; rw [e0]; omega
  | ⟨1, _⟩ => show win6_4.index t (1 : Fin 2) * 64 + 1 * q.val = q.val; rw [e1]; omega

/-- What point t writes back is tile t of the finished array. -/
theorem flushed_eq (c : Dev nD) (t : Fin cfg6.N) :
    (dat6 V c).flushed 4 t
      = ((cfg6.win 4).blk t).view.read (Elt Ideal) (Spec.gcnFin (ag V c) (xw V c) (sl V c) (bs V c)) := by
  show (cfg6.win 4).cut (grid6.coords t) ((dat6 V c).after 4 t) = _
  rw [after6_4]
  unfold out6_4
  rw [View.canon_unit_zero origin]
  simp only [View.ld_unit_zero (S := S10000x64) origin, View.ld_unit_zero (S := S10000x1) origin,
    View.ld_unit_zero (S := S1x64) origin]
  funext j
  obtain ⟨p, q, rfl⟩ : ∃ (p : Fin 10000) (q : Fin 64), j = ix2 p q := ⟨j 0, j 1, eq_ix2 j⟩
  refine (tile_apply (iblk6 V c 0 t) (iblk6 V c 2 t) (iblk6 V c 1 t) (iblk6 V c 3 t) p q).trans ?_
  show max ((ag V c (((cfg6.win 0).blk t).view.emb (ix2 p q))
        + sl V c (((cfg6.win 2).blk t).view.emb (ix2 p (0 : Fin 1))) * xw V c (((cfg6.win 1).blk t).view.emb (ix2 p q)))
        + bs V c (((cfg6.win 3).blk t).view.emb (ix2 (0 : Fin 1) q))) 0
    = Spec.gcnFin (ag V c) (xw V c) (sl V c) (bs V c) (((cfg6.win 4).blk t).view.emb (ix2 p q))
  rw [emb0, emb1, emb2, emb3, emb4]
  rfl

theorem mem_tile (t : Fin cfg6.N) (i : S100000x64.Idx) :
    i ∈ ((cfg6.win 4).blk t).view.set ↔ ∀ a : Fin 2, win6_4.index t a * S10000x64.size a ≤ (i a).val ∧ (i a).val < win6_4.index t a * S10000x64.size a + S10000x64.size a := by
  show i ∈ ((View.whole main_v53).slice (win6_4.rect t)).set ↔ _
  rw [View.set_slice_whole, Rect.mem_set_unit]
  exact Iff.rfl

/-- Every entry of the result lies in the tile of the point its row belongs to. -/
theorem covered (i : S100000x64.Idx) : ∃ t : Fin cfg6.N, (cfg6.win 4).flush t = true ∧ i ∈ ((cfg6.win 4).blk t).view.set := by
  have hi0 : (i 0).val < 100000 := (i 0).isLt
  have hi1 : (i 1).val < 64 := (i 1).isLt
  have hN : cfg6.N = 10 := N_6
  let t : Fin cfg6.N := ⟨(i 0).val / 10000, by omega⟩
  obtain ⟨-, -, -, -, -, -, -, -, e0, e1⟩ := tiles t
  refine ⟨t, flush6_4 t, ?_⟩
  rw [mem_tile]
  intro a
  match a with
  | ⟨0, _⟩ => show win6_4.index t (0 : Fin 2) * 10000 ≤ (i 0).val ∧ (i 0).val < win6_4.index t (0 : Fin 2) * 10000 + 10000; rw [e0]; show (i 0).val / 10000 * 10000 ≤ _ ∧ _ < (i 0).val / 10000 * 10000 + 10000; omega
  | ⟨1, _⟩ => show win6_4.index t (1 : Fin 2) * 64 ≤ (i 1).val ∧ (i 1).val < win6_4.index t (1 : Fin 2) * 64 + 64; rw [e1]; omega

/-- THE STAGE: the array it leaves is the finished layer of the four arrays it found. -/
theorem result (c : Dev nD) : (dat6 V c).arrAt 4 cfg6.N = Spec.gcnFin (ag V c) (xw V c) (sl V c) (bs V c) :=
  (dat6 V c).arrAt_eq_of_cover 4 _ (fun t _ => flushed_eq V c t) covered

end Cert.KernelIdeal.GcnStage

end
-- ==== Proof.ClassStage.lean ====
/-
  The classifier stage with its log-softmax, tile by tile. A grid point t holds rows 10000·t … 10000·t + 9999 of the node
  features together with the whole 64 × 7 weight matrix and the whole one-row bias. For each of its rows the tile forms
  the seven logits (the row times the weights, plus the bias), takes their largest, subtracts it from each, and then
  subtracts the logarithm of the sum of the seven exponentials of those differences. Every quantity of a row is made from
  that row of the features alone, so tile t of the result is rows 10000·t … of `Spec.logSoftmax` of the whole arrays;
  the 10 tiles partition the 100,000 rows, so the array the stage leaves is that function of the arrays it found.
-/
import proofs.«425185_j22127671509526_1_alg».proof.Proof.Gen.KernelIdeal.Frame
import proofs.«425185_j22127671509526_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.ClassStage

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The node features, the classifier's weights and the one-row bias, as the stage finds them. -/
abbrev hs (c : Dev nD) : Vec Ideal S100000x64 .f32 := V c main_v53
abbrev wf (c : Dev nD) : Vec Ideal S64x7 .f32 := V c main_arg13
abbrev bf (c : Dev nD) : Vec Ideal S1x7 .f32 := V c main_v54

theorem origin : (![0, 0] : Fin 2 → Nat) = fun _ => 0 := funext fun a => by fin_cases a <;> rfl

/-! ## The product of a tile of rows with the weights -/

/-- The left operand of the product at output index i and contraction index q is read at row i₀ … -/
theorem lhs_0 (i : S10000x7.Idx) (q : dot_S10000x64_S64x7_S10000x7_1_0_0_1_n_n.contr.Idx) :
    (dot_S10000x64_S64x7_S10000x7_1_0_0_1_n_n.lhsIdx i q 0).val = (i 0).val := by
  unfold DotDims.lhsIdx
  rw [dif_neg (show ¬(0 : Fin S10000x64.rank) ∈ dot_S10000x64_S64x7_S10000x7_1_0_0_1_n_n.lhsBatch by decide), dif_pos (show (0 : Fin S10000x64.rank) ∈ dot_S10000x64_S64x7_S10000x7_1_0_0_1_n_n.lhsNonContracting by decide)]
  rfl
/-- … and column q; -/
theorem lhs_1 (i : S10000x7.Idx) (q : dot_S10000x64_S64x7_S10000x7_1_0_0_1_n_n.contr.Idx) :
    (dot_S10000x64_S64x7_S10000x7_1_0_0_1_n_n.lhsIdx i q 1).val = (q ⟨0, by decide⟩).val :=
  dot_S10000x64_S64x7_S10000x7_1_0_0_1_n_n.lhsIdx_val_of_single rfl i q
/-- the right operand at row q … -/
theorem rhs_0 (i : S10000x7.Idx) (q : dot_S10000x64_S64x7_S10000x7_1_0_0_1_n_n.contr.Idx) :
    (dot_S10000x64_S64x7_S10000x7_1_0_0_1_n_n.rhsIdx i q 0).val = (q ⟨0, by decide⟩).val :=
  dot_S10000x64_S64x7_S10000x7_1_0_0_1_n_n.rhsIdx_val_of_single rfl i q
/-- … and column i₁. -/
theorem rhs_1 (i : S10000x7.Idx) (q : dot_S10000x64_S64x7_S10000x7_1_0_0_1_n_n.contr.Idx) :
    (dot_S10000x64_S64x7_S10000x7_1_0_0_1_n_n.rhsIdx i q 1).val = (i 1).val := by
  unfold DotDims.rhsIdx
  rw [dif_neg (show ¬(1 : Fin S64x7.rank) ∈ dot_S10000x64_S64x7_S10000x7_1_0_0_1_n_n.rhsBatch by decide), dif_pos (show (1 : Fin S64x7.rank) ∈ dot_S10000x64_S64x7_S10000x7_1_0_0_1_n_n.rhsNonContracting by decide)]
  rfl

/-- Entry (p, j) of the product into a zero accumulator: the sum over the 64 features of row p's feature times the
    weight from that feature to class j. -/
theorem prod_apply {φ₁ φ₂ : FTy} (l : FVec Ideal S10000x64 φ₁) (r : FVec Ideal S64x7 φ₂) (p : Fin 10000) (j : Fin 7) :
    matmul dot_S10000x64_S64x7_S10000x7_1_0_0_1_n_n none l r (constant S10000x7 .f32 0x00000000#32) (ix2 p j)
      = ∑ k : Fin 64, l (ix2 p k) * r (ix2 k j) := by
  simp only [matmul]
  rw [Ideal.matmul_constant_zero_apply, ← Equiv.sum_comp (ValueIdx.contrEquiv1 dot_S10000x64_S64x7_S10000x7_1_0_0_1_n_n 64 rfl rfl).symm]
  refine Finset.sum_congr rfl fun k _ => ?_
  have hk := ValueIdx.contrEquiv1_symm_val dot_S10000x64_S64x7_S10000x7_1_0_0_1_n_n 64 rfl rfl k
  have el : dot_S10000x64_S64x7_S10000x7_1_0_0_1_n_n.lhsIdx (ix2 p j) ((ValueIdx.contrEquiv1 dot_S10000x64_S64x7_S10000x7_1_0_0_1_n_n 64 rfl rfl).symm k) = ix2 p k := funext fun a => Fin.ext (by
    match a with
    | ⟨0, _⟩ => exact lhs_0 _ _
    | ⟨1, _⟩ => exact (lhs_1 _ _).trans hk)
  have er : dot_S10000x64_S64x7_S10000x7_1_0_0_1_n_n.rhsIdx (ix2 p j) ((ValueIdx.contrEquiv1 dot_S10000x64_S64x7_S10000x7_1_0_0_1_n_n 64 rfl rfl).symm k) = ix2 k j := funext fun a => Fin.ext (by
    match a with
    | ⟨0, _⟩ => exact (rhs_0 _ _).trans hk
    | ⟨1, _⟩ => exact rhs_1 _ _)
  rw [el, er]

/-! ## The arithmetic of a tile, stretch by stretch -/

/-- The logits of a tile: the product plus the bias row repeated down the rows. -/
def lg (x0 : Vec Ideal S10000x64 .f32) (x1 : Vec Ideal S64x7 .f32) (x2 : Vec Ideal S1x7 .f32) : FVec Ideal S10000x7 .f32 :=
  addf (matmul dot_S10000x64_S64x7_S10000x7_1_0_0_1_n_n none
      (truncf .bf16 (shapeCast S10000x64 x0 shapeCasts_S10000x64_S10000x64) bitsLt_bf16_f32) (truncf .bf16 x1 bitsLt_bf16_f32)
      (constant S10000x7 .f32 0x00000000#32))
    (broadcastTo S10000x7 (shapeCast S1x7 x2 shapeCasts_S1x7_S1x7) broadcasts_S1x7_S10000x7)

/-- A row's largest entry, repeated along the row. -/
def mx (v : FVec Ideal S10000x7 .f32) : FVec Ideal S10000x7 .f32 :=
  broadcastTo S10000x7 (shapeCast S10000x1
    (multiReduction .maximumf [1] S10000 v 0xFF800000#32 reduces_S10000x7_S10000 (.inl rfl) rfl) shapeCasts_S10000_S10000x1)
    broadcasts_S10000x1_S10000x7

/-- The logarithm of a row's sum of exponentials, repeated along the row. -/
def ls (v : FVec Ideal S10000x7 .f32) : FVec Ideal S10000x7 .f32 :=
  broadcastTo S10000x7 (log (shapeCast S10000x1
    (multiReduction .add [1] S10000 (exp v) 0x00000000#32 reduces_S10000x7_S10000 (.inl rfl) rfl) shapeCasts_S10000_S10000x1))
    broadcasts_S10000x1_S10000x7

/-- The tile's result is the logits less their row maxima, less the logarithm of the row sums of exponentials of that. -/
theorem pay_eq (x0 : Vec Ideal S10000x64 .f32) (x1 : Vec Ideal S64x7 .f32) (x2 : Vec Ideal S1x7 .f32) :
    k7_pay1 x0 x1 x2 = subf (subf (lg x0 x1 x2) (mx (lg x0 x1 x2))) (ls (subf (lg x0 x1 x2) (mx (lg x0 x1 x2)))) := rfl

/-- Entry (p, j) of the logits is the Spec's logit of row p and class j. -/
theorem lg_apply (x0 : Vec Ideal S10000x64 .f32) (x1 : Vec Ideal S64x7 .f32) (x2 : Vec Ideal S1x7 .f32) (p : Fin 10000) (j : Fin 7) :
    lg x0 x1 x2 (ix2 p j) = Spec.logitAt x0 x1 x2 p j := by
  unfold lg
  rw [shapeCast_self, shapeCast_self]
  show (matmul dot_S10000x64_S64x7_S10000x7_1_0_0_1_n_n none (truncf (F := Ideal) .bf16 x0 bitsLt_bf16_f32) (truncf (F := Ideal) .bf16 x1 bitsLt_bf16_f32)
      (constant S10000x7 .f32 0x00000000#32) : FVec Ideal S10000x7 .f32) (ix2 p j) + broadcastTo S10000x7 x2 broadcasts_S1x7_S10000x7 (ix2 p j) = _
  rw [prod_apply, broadcastTo_apply x2 broadcasts_S1x7_S10000x7 (ix2 p j) (ix2 0 j) (fun a => match a with
    | ⟨0, _⟩ => by show (0 : Nat) = if (1 : Nat) = 1 then 0 else p.val; rw [if_pos rfl]
    | ⟨1, _⟩ => by show j.val = if (7 : Nat) = 1 then 0 else j.val; rw [if_neg (by decide)])]
  rfl

/-- Row p with the class coordinate k put back in. -/
theorem lift_eq (p : Fin 10000) (k : Fin 7) : reduces_S10000x7_S10000.lift (ix1 p) k = ix2 p k := by
  funext a; apply Fin.ext
  match a with
  | ⟨0, _⟩ => rfl
  | ⟨1, _⟩ => rfl

/-- A one-entry-per-row vector, stood up as a column and repeated along the rows, reads its row's entry everywhere. -/
theorem col_apply (w : FVec Ideal S10000 .f32) (p : Fin 10000) (j : Fin 7) :
    broadcastTo S10000x7 (shapeCast S10000x1 w shapeCasts_S10000_S10000x1) broadcasts_S10000x1_S10000x7 (ix2 p j) = w (ix1 p) := by
  rw [broadcastTo_apply (shapeCast S10000x1 w shapeCasts_S10000_S10000x1) broadcasts_S10000x1_S10000x7 (ix2 p j) (ix2 p 0) (fun a => match a with
    | ⟨0, _⟩ => by show p.val = if (10000 : Nat) = 1 then 0 else p.val; rw [if_neg (by decide)]
    | ⟨1, _⟩ => by show (0 : Nat) = if (1 : Nat) = 1 then 0 else j.val; rw [if_pos rfl])]
  exact shapeCast_apply w shapeCasts_S10000_S10000x1 (ix2 p 0) (ix1 p)
    (by rewrite [Shape.rowMajor_val_two, Shape.rowMajor_val_one]; show p.val = p.val * 1 + 0; omega)

/-- Entry (p, j) of the repeated row maximum: the fold of `max` from −∞ over row p's seven entries. -/
theorem mx_apply (v : FVec Ideal S10000x7 .f32) (p : Fin 10000) (j : Fin 7) :
    mx v (ix2 p j) = (Finset.univ : Finset (Fin 7)).fold max ⊥ (fun j' => v (ix2 p j')) := by
  unfold mx
  rw [col_apply]
  refine (Ideal.multiReduction_maximumf_single v 0xFF800000#32 reduces_S10000x7_S10000 (.inl rfl) rfl (ix1 p)).trans ?_
  have hb : (FloatOps.ofBits (F := Ideal) .f32 0xFF800000#32) = (⊥ : EReal) := by
    show Ideal.ofBits .f32 0xFF800000#32 = ⊥
    simp [Ideal.ofBits, Ideal.ieee]
  rw [hb]
  exact congrArg (fun f : Fin 7 → EReal => (Finset.univ : Finset (Fin 7)).fold max ⊥ f) (funext fun k => congrArg v (lift_eq p k))

/-- Entry (p, j) of the repeated logarithm: the logarithm of the sum over row p of the exponentials. -/
theorem ls_apply (v : FVec Ideal S10000x7 .f32) (p : Fin 10000) (j : Fin 7) :
    ls v (ix2 p j) = Ideal.log (∑ j' : Fin 7, Ideal.exp (v (ix2 p j'))) := by
  unfold ls
  show broadcastTo S10000x7 (shapeCast S10000x1 (log (multiReduction .add [1] S10000 (exp v) 0x00000000#32 reduces_S10000x7_S10000 (.inl rfl) rfl)) shapeCasts_S10000_S10000x1)
    broadcasts_S10000x1_S10000x7 (ix2 p j) = _
  rw [col_apply]
  show Ideal.log (multiReduction .add [1] S10000 (exp v) 0x00000000#32 reduces_S10000x7_S10000 (.inl rfl) rfl (ix1 p)) = _
  rw [Ideal.multiReduction_add_single (exp v) 0x00000000#32 reduces_S10000x7_S10000 (.inl rfl) rfl (ix1 p)]
  exact congrArg Ideal.log (Finset.sum_congr rfl fun k _ => congrArg (fun i => Ideal.exp (v i)) (lift_eq p k))

/-- A tile's arithmetic at entry (p, j): the Spec's log-softmax of row p at class j, of the tile's own arrays. -/
theorem tile_apply (x0 : Vec Ideal S10000x64 .f32) (x1 : Vec Ideal S64x7 .f32) (x2 : Vec Ideal S1x7 .f32) (p : Fin 10000) (j : Fin 7) :
    k7_pay1 x0 x1 x2 (ix2 p j) = Spec.logSoftmaxAt x0 x1 x2 p j := by
  rw [pay_eq]
  have hsh : ∀ j' : Fin 7, subf (lg x0 x1 x2) (mx (lg x0 x1 x2)) (ix2 p j') = Spec.shiftedAt x0 x1 x2 p j' := fun j' => by
    show lg x0 x1 x2 (ix2 p j') - mx (lg x0 x1 x2) (ix2 p j') = _
    rw [mx_apply]
    simp only [lg_apply]
    rfl
  show subf (lg x0 x1 x2) (mx (lg x0 x1 x2)) (ix2 p j) - ls (subf (lg x0 x1 x2) (mx (lg x0 x1 x2))) (ix2 p j) = _
  rw [ls_apply]
  simp only [hsh]
  rfl

/-! ## The tiles in the arrays -/

/-- The features' and the result's windows move one tile of rows per grid point and stay at column block 0; the windows
    of the weights and of the bias row hold the whole array at every point. -/
theorem tiles : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Row 10000·t + p of the arrays. -/
def row (t : Fin cfg7.N) (p : Fin 10000) : Fin 100000 :=
  ⟨t.val * 10000 + p.val, by have := t.isLt; have h : cfg7.N = 10 := N_7; have := p.isLt; omega⟩

theorem emb0 (t : Fin cfg7.N) (p : Fin 10000) (k : Fin 64) : ((cfg7.win 0).blk t).view.emb (ix2 p k) = ix2 (row t p) k := by
  obtain ⟨e0, e1, -⟩ := tiles t
  funext a; apply Fin.ext
  match a with
  | ⟨0, _⟩ => show win7_0.index t (0 : Fin 2) * 10000 + 1 * p.val = t.val * 10000 + p.val; rw [e0]; omega
  | ⟨1, _⟩ => show win7_0.index t (1 : Fin 2) * 64 + 1 * k.val = k.val; rw [e1]; omega

theorem emb1 (t : Fin cfg7.N) (k : Fin 64) (j : Fin 7) : ((cfg7.win 1).blk t).view.emb (ix2 k j) = ix2 k j := by
  obtain ⟨-, -, e0, e1, -⟩ := tiles t
  funext a; apply Fin.ext
  match a with
  | ⟨0, _⟩ => show win7_1.index t (0 : Fin 2) * 64 + 1 * k.val = k.val; rw [e0]; omega
  | ⟨1, _⟩ => show win7_1.index t (1 : Fin 2) * 7 + 1 * j.val = j.val; rw [e1]; omega

theorem emb2 (t : Fin cfg7.N) (j : Fin 7) : ((cfg7.win 2).blk t).view.emb (ix2 (0 : Fin 1) j) = ix2 (0 : Fin 1) j := by
  obtain ⟨-, -, -, -, e0, e1, -⟩ := tiles t
  funext a; apply Fin.ext
  match a with
  | ⟨0, _⟩ => show win7_2.index t (0 : Fin 2) * 1 + 1 * 0 = 0; rw [e0]
  | ⟨1, _⟩ => show win7_2.index t (1 : Fin 2) * 7 + 1 * j.val = j.val; rw [e1]; omega

theorem emb3 (t : Fin cfg7.N) (p : Fin 10000) (j : Fin 7) : ((cfg7.win 3).blk t).view.emb (ix2 p j) = ix2 (row t p) j := by
  obtain ⟨-, -, -, -, -, -, e0, e1⟩ := tiles t
  funext a; apply Fin.ext
  match a with
  | ⟨0, _⟩ => show win7_3.index t (0 : Fin 2) * 10000 + 1 * p.val = t.val * 10000 + p.val; rw [e0]; omega
  | ⟨1, _⟩ => show win7_3.index t (1 : Fin 2) * 7 + 1 * j.val = j.val; rw [e1]; omega

/-- Tile t of the features holds rows 10000·t … of the feature array; -/
theorem blk0_apply (c : Dev nD) (t : Fin cfg7.N) (p : Fin 10000) (k : Fin 64) :
    iblk7 V c 0 t (ix2 p k) = hs V c (ix2 (row t p) k) := by
  show hs V c (((cfg7.win 0).blk t).view.emb (ix2 p k)) = _
  rw [emb0]
/-- every point's block of the weights is the weight matrix; -/
theorem blk1_apply (c : Dev nD) (t : Fin cfg7.N) (k : Fin 64) (j : Fin 7) :
    iblk7 V c 1 t (ix2 k j) = wf V c (ix2 k j) := by
  show wf V c (((cfg7.win 1).blk t).view.emb (ix2 k j)) = _
  rw [emb1]
/-- and every point's block of the bias is the bias row. -/
theorem blk2_apply (c : Dev nD) (t : Fin cfg7.N) (j : Fin 7) :
    iblk7 V c 2 t (ix2 (0 : Fin 1) j) = bf V c (ix2 (0 : Fin 1) j) := by
  show bf V c (((cfg7.win 2).blk t).view.emb (ix2 (0 : Fin 1) j)) = _
  rw [emb2]

/-- The log-softmax of a row is made from that row of the features, the weights and the bias alone: arrays that agree
    there, entry by entry, give the same value, whatever their numbers of rows. -/
theorem logSoftmaxAt_congr {R R' : Nat} (h : Spec.Arr R 64) (h' : Spec.Arr R' 64) (w w' : Spec.Arr 64 7) (b b' : Spec.Arr 1 7)
    (n : Fin R) (n' : Fin R') (hh : ∀ k, h (ix2 n k) = h' (ix2 n' k)) (hw : ∀ k j, w (ix2 k j) = w' (ix2 k j))
    (hb : ∀ j, b (ix2 0 j) = b' (ix2 0 j)) (j : Fin 7) :
    Spec.logSoftmaxAt h w b n j = Spec.logSoftmaxAt h' w' b' n' j := by
  have hl : ∀ j, Spec.logitAt h w b n j = Spec.logitAt h' w' b' n' j := fun j => by
    unfold Spec.logitAt; simp only [hh, hw, hb]
  have hm : Spec.rowMaxAt h w b n = Spec.rowMaxAt h' w' b' n' := by
    unfold Spec.rowMaxAt; simp only [hl]
  have hsft : ∀ j, Spec.shiftedAt h w b n j = Spec.shiftedAt h' w' b' n' j := fun j => by
    unfold Spec.shiftedAt; rw [hl, hm]
  unfold Spec.logSoftmaxAt
  simp only [hsft]

/-- What point t writes back is tile t of the log-softmax of the whole arrays. -/
theorem flushed_eq (c : Dev nD) (t : Fin cfg7.N) :
    (dat7 V c).flushed 3 t = ((cfg7.win 3).blk t).view.read (Elt Ideal) (Spec.logSoftmax (hs V c) (wf V c) (bf V c)) := by
  show (cfg7.win 3).cut (grid7.coords t) ((dat7 V c).after 3 t) = _
  rw [after7_3]
  unfold out7_3
  rw [View.canon_unit_zero origin]
  simp only [View.ld_unit_zero (S := S10000x64) origin, View.ld_unit_zero (S := S64x7) origin, View.ld_unit_zero (S := S1x7) origin]
  funext i
  obtain ⟨p, j, rfl⟩ : ∃ (p : Fin 10000) (j : Fin 7), i = ix2 p j := ⟨i 0, i 1, eq_ix2 i⟩
  refine (tile_apply (iblk7 V c 0 t) (iblk7 V c 1 t) (iblk7 V c 2 t) p j).trans ?_
  show Spec.logSoftmaxAt (iblk7 V c 0 t) (iblk7 V c 1 t) (iblk7 V c 2 t) p j
    = Spec.logSoftmax (hs V c) (wf V c) (bf V c) (((cfg7.win 3).blk t).view.emb (ix2 p j))
  rw [emb3]
  exact logSoftmaxAt_congr _ _ _ _ _ _ p (row t p) (blk0_apply V c t p) (blk1_apply V c t) (blk2_apply V c t) j

theorem mem_tile (t : Fin cfg7.N) (i : S100000x7.Idx) :
    i ∈ ((cfg7.win 3).blk t).view.set ↔ ∀ a : Fin 2, win7_3.index t a * S10000x7.size a ≤ (i a).val ∧ (i a).val < win7_3.index t a * S10000x7.size a + S10000x7.size a := by
  show i ∈ ((View.whole main_v55).slice (win7_3.rect t)).set ↔ _
  rw [View.set_slice_whole, Rect.mem_set_unit]
  exact Iff.rfl

/-- Every entry of the result lies in the tile of the point its row belongs to. -/
theorem covered (i : S100000x7.Idx) : ∃ t : Fin cfg7.N, (cfg7.win 3).flush t = true ∧ i ∈ ((cfg7.win 3).blk t).view.set := by
  have hi0 : (i 0).val < 100000 := (i 0).isLt
  have hi1 : (i 1).val < 7 := (i 1).isLt
  have hN : cfg7.N = 10 := N_7
  let t : Fin cfg7.N := ⟨(i 0).val / 10000, by omega⟩
  obtain ⟨-, -, -, -, -, -, e0, e1⟩ := tiles t
  refine ⟨t, flush7_3 t, ?_⟩
  rw [mem_tile]
  intro a
  match a with
  | ⟨0, _⟩ => show win7_3.index t (0 : Fin 2) * 10000 ≤ (i 0).val ∧ (i 0).val < win7_3.index t (0 : Fin 2) * 10000 + 10000; rw [e0]; show (i 0).val / 10000 * 10000 ≤ _ ∧ _ < (i 0).val / 10000 * 10000 + 10000; omega
  | ⟨1, _⟩ => show win7_3.index t (1 : Fin 2) * 7 ≤ (i 1).val ∧ (i 1).val < win7_3.index t (1 : Fin 2) * 7 + 7; rw [e1]; omega

/-- THE STAGE: the array it leaves is the log-softmax of the classifier's logits, of the arrays it found. -/
theorem result (c : Dev nD) : (dat7 V c).arrAt 3 cfg7.N = Spec.logSoftmax (hs V c) (wf V c) (bf V c) :=
  (dat7 V c).arrAt_eq_of_cover 3 _ (fun t _ => flushed_eq V c t) covered

end Cert.KernelIdeal.ClassStage

end
-- ==== Proof.Step67.lean ====
/-
  The last two tiled stages in the walk through the program. The GCN's closing stage finds the scaled messages summed
  into their destination nodes, the linear map's output (untouched since the stage that made it), the nodes' self-loop
  weights (the degree factor squared, stood up as a column) and the bias as a one-row array; so it leaves `hid2`. The
  classifier stage finds that array, the classifier's weights as launched and its bias as a one-row array; so it leaves
  `out`. Each array a stage finds is walked back, boundary by boundary, to the operation that wrote it or to the launch.
-/
import proofs.«425185_j22127671509526_1_alg».proof.Proof.Fold
import proofs.«425185_j22127671509526_1_alg».proof.Proof.GcnStage
import proofs.«425185_j22127671509526_1_alg».proof.Proof.ClassStage

set_option maxRecDepth 16384

noncomputable section

namespace Cert.KernelIdeal.Fold

open Cert.KernelIdeal Cert.KernelIdeal.Gen Cert.KernelIdeal.TakeRows
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the GCN's closing stage finds, and leaves -/

/-- The destination indices sit untouched from the first host stretch to the end of the linear stage … -/
private theorem W12_dst (c : Dev nD) : (W12 m ρ c (Proc.devRef .tc main_v3) : IVec S1600000 32) = dst m c := by
  calc (W12 m ρ c (Proc.devRef .tc main_v3) : IVec S1600000 32)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := by host_keeps hostOps3
    _ = W8 m ρ c (Proc.devRef .tc main_v3) := W9_of_ne m ρ c main_v3 (by decide)
    _ = W7 m ρ c (Proc.devRef .tc main_v3) := by host_keeps hostOps2_1
    _ = W6 m ρ c (Proc.devRef .tc main_v3) := by host_keeps hostOps2
    _ = W5 m ρ c (Proc.devRef .tc main_v3) := W6_of_ne m ρ c main_v3 (by decide)
    _ = W4 m ρ c (Proc.devRef .tc main_v3) := by host_keeps hostOps1
    _ = W3 m ρ c (Proc.devRef .tc main_v3) := W4_of_ne m ρ c main_v3 (by decide)
    _ = W2 m ρ c (Proc.devRef .tc main_v3) := by host_keeps hostOps0_2
    _ = W1 m ρ c (Proc.devRef .tc main_v3) := by host_keeps hostOps0_1
    _ = dst m c := W1_dst m ρ c

/-- … and on to the end of the scaling stage. -/
private theorem W16_dst (c : Dev nD) : (W16 m ρ c (Proc.devRef .tc main_v3) : IVec S1600000 32) = dst m c := by
  calc (W16 m ρ c (Proc.devRef .tc main_v3) : IVec S1600000 32)
    _ = W15 m ρ c (Proc.devRef .tc main_v3) := W16_of_ne m ρ c main_v3 (by decide)
    _ = W14 m ρ c (Proc.devRef .tc main_v3) := by host_keeps hostOps5_2
    _ = W13 m ρ c (Proc.devRef .tc main_v3) := by host_keeps hostOps5_1
    _ = W12 m ρ c (Proc.devRef .tc main_v3) := by host_keeps hostOps5
    _ = dst m c := W12_dst m ρ c

/-- The scaled messages summed into their destination nodes. -/
private theorem W17_agg (c : Dev nD) (h5 : (W16 m ρ c (Proc.devRef .tc main_v46) : FVec Ideal S1600000x64 .f32) = scaled m c) :
    (W17 m ρ c (Proc.devRef .tc main_v49) : FVec Ideal S100000x64 .f32) = aggOf (dst m c) (scaled m c) := by
  calc (W17 m ρ c (Proc.devRef .tc main_v49) : FVec Ideal S100000x64 .f32)
    _ = aggOf (F := Ideal) (W16 m ρ c (Proc.devRef .tc main_v3)) (W16 m ρ c (Proc.devRef .tc main_v46)) := by
        show StableHlo.after hostOps6 (W16 m ρ c) (Proc.devRef .tc main_v49) = _
        host_writes
        rfl
    _ = _ := by rw [W16_dst, h5]

/-- The linear map's output: nothing between the stage that made it and this one writes it. -/
private theorem W17_lin (c : Dev nD) (h4 : (W12 m ρ c (Proc.devRef .tc main_v20) : FVec Ideal S100000x64 .f32) = lin m c) :
    (W17 m ρ c (Proc.devRef .tc main_v20) : FVec Ideal S100000x64 .f32) = lin m c := by
  calc (W17 m ρ c (Proc.devRef .tc main_v20) : FVec Ideal S100000x64 .f32)
    _ = W16 m ρ c (Proc.devRef .tc main_v20) := by host_keeps hostOps6
    _ = W15 m ρ c (Proc.devRef .tc main_v20) := W16_of_ne m ρ c main_v20 (by decide)
    _ = W14 m ρ c (Proc.devRef .tc main_v20) := by host_keeps hostOps5_2
    _ = W13 m ρ c (Proc.devRef .tc main_v20) := by host_keeps hostOps5_1
    _ = W12 m ρ c (Proc.devRef .tc main_v20) := by host_keeps hostOps5
    _ = lin m c := h4

/-- The nodes' degree factors, made right after the linear stage and untouched through the scaling stage. -/
private theorem W16_dinv (c : Dev nD) : (W16 m ρ c (Proc.devRef .tc main_v28) : FVec Ideal S100000 .f32) = dinvOf (F := Ideal) (dst m c) := by
  calc (W16 m ρ c (Proc.devRef .tc main_v28) : FVec Ideal S100000 .f32)
    _ = W15 m ρ c (Proc.devRef .tc main_v28) := W16_of_ne m ρ c main_v28 (by decide)
    _ = W14 m ρ c (Proc.devRef .tc main_v28) := by host_keeps hostOps5_2
    _ = W13 m ρ c (Proc.devRef .tc main_v28) := by host_keeps hostOps5_1
    _ = dinvOf (F := Ideal) (W12 m ρ c (Proc.devRef .tc main_v3)) := by
        show StableHlo.after hostOps5 (W12 m ρ c) (Proc.devRef .tc main_v28) = _
        host_writes
        rfl
    _ = _ := by rw [W12_dst]

/-- The self-loop weights as a one-column array. -/
private theorem W17_self (c : Dev nD) : (W17 m ρ c (Proc.devRef .tc main_v51) : FVec Ideal S100000x1 .f32)
    = shapeCast S100000x1 (selfOf (F := Ideal) (dst m c)) shapeCasts_S100000_S100000x1 := by
  calc (W17 m ρ c (Proc.devRef .tc main_v51) : FVec Ideal S100000x1 .f32)
    _ = (shapeCast S100000x1 (mulf (F := Ideal) (s := S100000) (φ := .f32) (W16 m ρ c (Proc.devRef .tc main_v28)) (W16 m ρ c (Proc.devRef .tc main_v28)))
          shapeCasts_S100000_S100000x1 : FVec Ideal S100000x1 .f32) := by
        show StableHlo.after hostOps6 (W16 m ρ c) (Proc.devRef .tc main_v51) = _
        host_writes
        rfl
    _ = _ := by rw [W16_dinv]; rfl

/-- The GCN's bias vector, as launched, just before its reshape. -/
private theorem W16_gbias (c : Dev nD) : (W16 m ρ c (Proc.devRef .tc main_arg12) : FVec Ideal S64 .f32) = X12 m c := by
  have e : W20 m ρ c (Proc.devRef .tc main_arg12) = W16 m ρ c (Proc.devRef .tc main_arg12) := by
    calc W20 m ρ c (Proc.devRef .tc main_arg12)
      _ = W19 m ρ c (Proc.devRef .tc main_arg12) := W20_of_ne m ρ c main_arg12 (by decide)
      _ = W18 m ρ c (Proc.devRef .tc main_arg12) := by host_keeps hostOps7
      _ = W17 m ρ c (Proc.devRef .tc main_arg12) := W18_of_ne m ρ c main_arg12 (by decide)
      _ = W16 m ρ c (Proc.devRef .tc main_arg12) := by host_keeps hostOps6
  exact e.symm.trans (W20_main_arg12 m ρ c)

/-- The GCN's bias as a one-row array. -/
private theorem W17_gbias (c : Dev nD) : (W17 m ρ c (Proc.devRef .tc main_v52) : FVec Ideal S1x64 .f32) = rowOf (X12 m c) := by
  calc (W17 m ρ c (Proc.devRef .tc main_v52) : FVec Ideal S1x64 .f32)
    _ = rowOf (W16 m ρ c (Proc.devRef .tc main_arg12)) := by
        show StableHlo.after hostOps6 (W16 m ρ c) (Proc.devRef .tc main_v52) = _
        host_writes
        rfl
    _ = _ := by rw [W16_gbias]

/-- STEP 6: the GCN's closing stage leaves the layer's output. -/
theorem step6 (c : Dev nD) (h4 : (W12 m ρ c (Proc.devRef .tc main_v20) : FVec Ideal S100000x64 .f32) = lin m c)
    (h5 : (W16 m ρ c (Proc.devRef .tc main_v46) : FVec Ideal S1600000x64 .f32) = scaled m c) :
    (W18 m ρ c (Proc.devRef .tc main_v53) : FVec Ideal S100000x64 .f32) = hid2 m c := by
  calc (W18 m ρ c (Proc.devRef .tc main_v53) : FVec Ideal S100000x64 .f32)
    _ = (dat6 (V17 m ρ) c).arrAt 4 cfg6.N := W18_arr m ρ c 4
    _ = Spec.gcnFin (GcnStage.ag (V17 m ρ) c) (GcnStage.xw (V17 m ρ) c) (GcnStage.sl (V17 m ρ) c) (GcnStage.bs (V17 m ρ) c) :=
        GcnStage.result (V17 m ρ) c
    _ = Spec.gcnFin (aggOf (dst m c) (scaled m c)) (lin m c)
          (shapeCast S100000x1 (selfOf (F := Ideal) (dst m c)) shapeCasts_S100000_S100000x1) (rowOf (X12 m c)) := by
        rw [show GcnStage.ag (V17 m ρ) c = aggOf (dst m c) (scaled m c) from W17_agg m ρ c h5,
          show GcnStage.xw (V17 m ρ) c = lin m c from W17_lin m ρ c h4,
          show GcnStage.sl (V17 m ρ) c = shapeCast S100000x1 (selfOf (F := Ideal) (dst m c)) shapeCasts_S100000_S100000x1 from W17_self m ρ c,
          show GcnStage.bs (V17 m ρ) c = rowOf (X12 m c) from W17_gbias m ρ c]
    _ = hid2 m c := rfl

/-! ## What the classifier stage finds, and leaves -/

/-- The GCN layer's output: the one host operation before the stage does not write it. -/
private theorem W19_hid (c : Dev nD) (h6 : (W18 m ρ c (Proc.devRef .tc main_v53) : FVec Ideal S100000x64 .f32) = hid2 m c) :
    (W19 m ρ c (Proc.devRef .tc main_v53) : FVec Ideal S100000x64 .f32) = hid2 m c := by
  calc (W19 m ρ c (Proc.devRef .tc main_v53) : FVec Ideal S100000x64 .f32)
    _ = W18 m ρ c (Proc.devRef .tc main_v53) := by host_keeps hostOps7
    _ = hid2 m c := h6

/-- The classifier's weights, as launched: the stage only reads them, and nothing after it writes them. -/
private theorem W19_cls (c : Dev nD) : (W19 m ρ c (Proc.devRef .tc main_arg13) : FVec Ideal S64x7 .f32) = X13 m c := by
  have e : W20 m ρ c (Proc.devRef .tc main_arg13) = W19 m ρ c (Proc.devRef .tc main_arg13) :=
    (W20_arr m ρ c 1).trans (((dat7 (V19 m ρ) c).arrAt_in 1 rfl _).trans (A_eq7 (V19 m ρ) c 1))
  exact e.symm.trans (W20_main_arg13 m ρ c)

/-- The classifier's bias vector, as launched, just before its reshape. -/
private theorem W18_cbias (c : Dev nD) : (W18 m ρ c (Proc.devRef .tc main_arg14) : FVec Ideal S7 .f32) = X14 m c := by
  have e : W20 m ρ c (Proc.devRef .tc main_arg14) = W18 m ρ c (Proc.devRef .tc main_arg14) := by
    calc W20 m ρ c (Proc.devRef .tc main_arg14)
      _ = W19 m ρ c (Proc.devRef .tc main_arg14) := W20_of_ne m ρ c main_arg14 (by decide)
      _ = W18 m ρ c (Proc.devRef .tc main_arg14) := by host_keeps hostOps7
  exact e.symm.trans (W20_main_arg14 m ρ c)

/-- The classifier's bias as a one-row array. -/
private theorem W19_cbias (c : Dev nD) :
    (W19 m ρ c (Proc.devRef .tc main_v54) : FVec Ideal S1x7 .f32) = shapeCast S1x7 (X14 m c) shapeCasts_S7_S1x7 := by
  calc (W19 m ρ c (Proc.devRef .tc main_v54) : FVec Ideal S1x7 .f32)
    _ = shapeCast S1x7 (W18 m ρ c (Proc.devRef .tc main_arg14) : FVec Ideal S7 .f32) shapeCasts_S7_S1x7 := by
        show StableHlo.after hostOps7 (W18 m ρ c) (Proc.devRef .tc main_v54) = _
        host_writes
        rfl
    _ = _ := by rw [W18_cbias]

/-- STEP 7: the classifier stage leaves the log-softmax of the logits of the GCN layer's output. -/
theorem step7 (c : Dev nD) (h6 : (W18 m ρ c (Proc.devRef .tc main_v53) : FVec Ideal S100000x64 .f32) = hid2 m c) :
    (W20 m ρ c (Proc.devRef .tc main_v55) : FVec Ideal S100000x7 .f32) = out m c := by
  calc (W20 m ρ c (Proc.devRef .tc main_v55) : FVec Ideal S100000x7 .f32)
    _ = (dat7 (V19 m ρ) c).arrAt 3 cfg7.N := W20_arr m ρ c 3
    _ = Spec.logSoftmax (ClassStage.hs (V19 m ρ) c) (ClassStage.wf (V19 m ρ) c) (ClassStage.bf (V19 m ρ) c) :=
        ClassStage.result (V19 m ρ) c
    _ = Spec.logSoftmax (hid2 m c) (X13 m c) (shapeCast S1x7 (X14 m c) shapeCasts_S7_S1x7) := by
        rw [show ClassStage.hs (V19 m ρ) c = hid2 m c from W19_hid m ρ c h6,
          show ClassStage.wf (V19 m ρ) c = X13 m c from W19_cls m ρ c,
          show ClassStage.bf (V19 m ρ) c = shapeCast S1x7 (X14 m c) shapeCasts_S7_S1x7 from W19_cbias m ρ c]
    _ = out m c := rfl

end Cert.KernelIdeal.Fold

end
-- ==== Proof.SourceRange.lean ====
/-
  Reading the range condition on the source indices back out of the precondition. The precondition is one chain of
  conjunctions: fourteen "every entry is finite" tests and, last, "every source index s has 0 ≤ s < 100000", where the
  source indices are row 0 of the 2 × 1,600,000 edge index laid out as one row of 1,600,000 words. The whole chain being
  true makes its last conjunct true; that conjunct is a reduction by `and` over all 1,600,000 positions into one bit, and
  such a reduction is true only if every position is; a position's bit is the `and` of the two signed comparisons of its
  word with 0 and with 100000. So every source index is a word that names a row. Nothing is computed over the array:
  each step is one law applied once, at an arbitrary position.
-/
import proofs.«425185_j22127671509526_1_alg».proof.Pre_finite_inputs
import proofs.«425185_j22127671509526_1_alg».proof.Proof.IndexRange
import Idealize.ShloMosaic.Lib.ReduceAll
import Idealize.ShloMosaic.Lib.ValueIdx

noncomputable section

namespace Cert.SourceRange

open Idealize.ShloMosaic
open Cert.Pre_finite_inputs

variable [Cert.Pre_finite_inputs.Facts]
open Cert.Pre_finite_inputs.Facts

/-- The result of the chain has no axes, hence one position only. -/
instance : Subsingleton S_.Idx := ⟨fun a b => funext fun d => d.elim0⟩

variable {F : FTy → Type} [FloatOps F]

/-- The last stretch of the chain ends in (everything before) ∧ (all source indices in range). If it is true at the one
    position, the second conjunct is; the reduction by `and` then gives the bit of position e; and that bit is the `and`
    of the two comparisons of the word at e with the constants 0 and 100000, each constant being the same at every
    position. -/
theorem part4_src (v1 : IVec S1600000 32) (v65 : IVec S_ 1) (v68 : IVec S7 1)
    (h : fn_part4 (F := F) v1 v65 v68 ValueIdx.ix0 = 1#1) (e : S1600000.Idx) : Cert.IndexRange.InRows (v1 e) := by
  unfold fn_part4 at h
  dsimp only at h
  have hall := (IntOp.andi_eq_one.1 h).2
  have hat := Host.reduce_andi_all _ _ reducesTo_S1600000_S_d0 h_S_ ValueIdx.ix0 hall e
  obtain ⟨hge, hlt⟩ := IntOp.andi_eq_one.1 hat
  exact ⟨hge, hlt⟩

/-- The three stretches before it add tests of other arrays and hand the source indices on untouched. -/
theorem part3_src (a12 : FVec F S64 .f32) (a13 : FVec F S64x7 .f32) (a14 : FVec F S7 .f32) (v1 : IVec S1600000 32) (v50 : IVec S_ 1) (v51 : FVec F S64x64 .f32)
    (h : fn_part3 (F := F) a12 a13 a14 v1 v50 v51 ValueIdx.ix0 = 1#1) (e : S1600000.Idx) : Cert.IndexRange.InRows (v1 e) := by
  unfold fn_part3 at h
  exact part4_src v1 _ _ h e

theorem part2_src (a8 : FVec F S64 .f32) (a9 : FVec F S64x64 .f32) (a10 : FVec F S64 .f32) (a11 : FVec F S64x64 .f32) (a12 : FVec F S64 .f32) (a13 : FVec F S64x7 .f32) (a14 : FVec F S7 .f32)
    (v1 : IVec S1600000 32) (v30 : IVec S_ 1) (v33 : IVec S16x64 1) (c11 : IVec S_ 1)
    (h : fn_part2 (F := F) a8 a9 a10 a11 a12 a13 a14 v1 v30 v33 c11 ValueIdx.ix0 = 1#1) (e : S1600000.Idx) : Cert.IndexRange.InRows (v1 e) := by
  unfold fn_part2 at h
  exact part3_src a12 a13 a14 v1 _ _ h e

theorem part1_src (a5 : FVec F S64x64 .f32) (a6 : FVec F S64 .f32) (a7 : FVec F S16x64 .f32) (a8 : FVec F S64 .f32) (a9 : FVec F S64x64 .f32) (a10 : FVec F S64 .f32) (a11 : FVec F S64x64 .f32) (a12 : FVec F S64 .f32) (a13 : FVec F S64x7 .f32) (a14 : FVec F S7 .f32)
    (v1 : IVec S1600000 32) (v15 : IVec S_ 1) (v16 : FVec F S64 .f32) (cst4 : FVec F S_ .f32)
    (h : fn_part1 (F := F) a5 a6 a7 a8 a9 a10 a11 a12 a13 a14 v1 v15 v16 cst4 ValueIdx.ix0 = 1#1) (e : S1600000.Idx) : Cert.IndexRange.InRows (v1 e) := by
  unfold fn_part1 at h
  exact part2_src a8 a9 a10 a11 a12 a13 a14 v1 _ _ _ h e

/-- THE READING: under the precondition every source index, the word at position e of row 0 of the edge index, names a row. -/
theorem src_inRows (a0 : FVec F S100000x64 .f32) (a1 : IVec S2x1600000 32) (a2 : FVec F S1600000x16 .f32) (a3 : FVec F S16x64 .f32) (a4 : FVec F S64 .f32) (a5 : FVec F S64x64 .f32) (a6 : FVec F S64 .f32) (a7 : FVec F S16x64 .f32) (a8 : FVec F S64 .f32) (a9 : FVec F S64x64 .f32) (a10 : FVec F S64 .f32) (a11 : FVec F S64x64 .f32) (a12 : FVec F S64 .f32) (a13 : FVec F S64x7 .f32) (a14 : FVec F S7 .f32)
    (h : fn (F := F) a0 a1 a2 a3 a4 a5 a6 a7 a8 a9 a10 a11 a12 a13 a14 = fun _ => 1#1) (e : S1600000.Idx) :
    Cert.IndexRange.InRows (shapeCast S1600000 (extractStridedSlice S1x1600000 ![0, 0] a1 slices_S2x1600000_S1x1600000_0_0) shapeCasts_S1x1600000_S1600000 e) := by
  have e0 := congrFun h ValueIdx.ix0
  unfold fn at e0
  dsimp only at e0
  exact part1_src a5 a6 a7 a8 a9 a10 a11 a12 a13 a14 _ _ _ _ e0 e

end Cert.SourceRange

end
-- ==== Proof.RefStagesA.lean ====
/-
  The reference program's first five dense stages, each read at one entry and matched with the whole-array formula it
  computes. Two of them are edge stages (a row is an edge): the entry (e, f) of a message is the gathered node row at
  (e, f) plus the edge's 16 features contracted against column f of a 16×64 matrix plus the bias of column f, cut at zero.
  Two are node stages (a row is a node): the entry (n, f) of an update is the sum over k of (the node's own feature k plus
  what its edges sent at k) times entry (k, f) of a 64×64 matrix, plus the bias of column f, cut at zero. The last is the
  bare linear map, entry (n, f) = sum over k of the row's feature k times entry (k, f) of the matrix.

  In each stage the bias reaches an entry through two broadcasts (a length-64 vector to one row, the row to every row), so
  the entry (r, f) of the broadcast array is entry f of the vector whatever r is; the cut at zero is the maximum with an
  array that is 0 everywhere. The gathered rows and the aggregated sums the stages take in are kept as they are: each
  stage is a statement about ANY such array, entry by entry.
-/
import proofs.«425185_j22127671509526_1_alg».proof.Proof.RefRead
import proofs.«425185_j22127671509526_1_alg».proof.Proof.Spec
import Idealize.ShloMosaic.Lib.ValueIdx
import Idealize.ShloMosaic.PureOps.Ideal.Laws

noncomputable section

namespace Cert.ReferenceIdeal.StagesA

open Cert.ReferenceIdeal Cert.ReferenceIdeal.ReadCopy Idealize.ShloMosaic Idealize.ShloMosaic.ValueIdx

variable (x0 : (⟨S100000x64, .f32⟩ : BufTy).Contents (Elt Ideal)) (x1 : (⟨S2x1600000, .i32⟩ : BufTy).Contents (Elt Ideal))
  (x2 : (⟨S1600000x16, .f32⟩ : BufTy).Contents (Elt Ideal)) (x3 : (⟨S16x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S16x64, .f32⟩ : BufTy).Contents (Elt Ideal))
  (x8 : (⟨S64, .f32⟩ : BufTy).Contents (Elt Ideal)) (x9 : (⟨S64x64, .f32⟩ : BufTy).Contents (Elt Ideal))
  (x10 : (⟨S64, .f32⟩ : BufTy).Contents (Elt Ideal)) (x11 : (⟨S64x64, .f32⟩ : BufTy).Contents (Elt Ideal))

/-! ## Where each operand is read

  A contraction reads its left operand at (row, k) and its right operand at (k, column); a bias broadcast twice is read
  at the column alone. -/

theorem lhs4 (e : Fin 1600000) (f : Fin 64) (k : Fin 16) : lidx_main_v4 (ix2 e f) k = ix2 e k :=
  funext fun a => Fin.ext (by match a with | ⟨0, _⟩ => rfl | ⟨1, _⟩ => rfl)
theorem rhs4 (e : Fin 1600000) (f : Fin 64) (k : Fin 16) : ridx_main_v4 (ix2 e f) k = ix2 k f :=
  funext fun a => Fin.ext (by match a with | ⟨0, _⟩ => rfl | ⟨1, _⟩ => rfl)
theorem bias4 (e : Fin 1600000) (f : Fin 64) : idx_main_v5 (idx_main_v6 (ix2 e f)) = ix1 f :=
  funext fun a => Fin.ext (by match a with | ⟨0, _⟩ => rfl)

theorem lhs21 (n : Fin 100000) (f : Fin 64) (k : Fin 64) : lidx_main_v21 (ix2 n f) k = ix2 n k :=
  funext fun a => Fin.ext (by match a with | ⟨0, _⟩ => rfl | ⟨1, _⟩ => rfl)
theorem rhs21 (n : Fin 100000) (f : Fin 64) (k : Fin 64) : ridx_main_v21 (ix2 n f) k = ix2 k f :=
  funext fun a => Fin.ext (by match a with | ⟨0, _⟩ => rfl | ⟨1, _⟩ => rfl)
theorem bias21 (n : Fin 100000) (f : Fin 64) : idx_main_v22 (idx_main_v23 (ix2 n f)) = ix1 f :=
  funext fun a => Fin.ext (by match a with | ⟨0, _⟩ => rfl)

theorem lhs26 (e : Fin 1600000) (f : Fin 64) (k : Fin 16) : lidx_main_v26 (ix2 e f) k = ix2 e k :=
  funext fun a => Fin.ext (by match a with | ⟨0, _⟩ => rfl | ⟨1, _⟩ => rfl)
theorem rhs26 (e : Fin 1600000) (f : Fin 64) (k : Fin 16) : ridx_main_v26 (ix2 e f) k = ix2 k f :=
  funext fun a => Fin.ext (by match a with | ⟨0, _⟩ => rfl | ⟨1, _⟩ => rfl)
theorem bias26 (e : Fin 1600000) (f : Fin 64) : idx_main_v27 (idx_main_v28 (ix2 e f)) = ix1 f :=
  funext fun a => Fin.ext (by match a with | ⟨0, _⟩ => rfl)

theorem lhs43 (n : Fin 100000) (f : Fin 64) (k : Fin 64) : lidx_main_v43 (ix2 n f) k = ix2 n k :=
  funext fun a => Fin.ext (by match a with | ⟨0, _⟩ => rfl | ⟨1, _⟩ => rfl)
theorem rhs43 (n : Fin 100000) (f : Fin 64) (k : Fin 64) : ridx_main_v43 (ix2 n f) k = ix2 k f :=
  funext fun a => Fin.ext (by match a with | ⟨0, _⟩ => rfl | ⟨1, _⟩ => rfl)
theorem bias43 (n : Fin 100000) (f : Fin 64) : idx_main_v44 (idx_main_v45 (ix2 n f)) = ix1 f :=
  funext fun a => Fin.ext (by match a with | ⟨0, _⟩ => rfl)

theorem lhs48 (n : Fin 100000) (f : Fin 64) (k : Fin 64) : lidx_main_v48 (ix2 n f) k = ix2 n k :=
  funext fun a => Fin.ext (by match a with | ⟨0, _⟩ => rfl | ⟨1, _⟩ => rfl)
theorem rhs48 (n : Fin 100000) (f : Fin 64) (k : Fin 64) : ridx_main_v48 (ix2 n f) k = ix2 k f :=
  funext fun a => Fin.ext (by match a with | ⟨0, _⟩ => rfl | ⟨1, _⟩ => rfl)

/-! ## The stages -/

/-- The first edge layer's message: gathered row + (edge features · weights + bias), cut at zero. -/
theorem msg0 : val_main_v16 (F := Ideal) x0 x1 x2 x3 x4
    = Spec.edgeMsg (val_main_v14 (F := Ideal) x0 x1) x2 x3 (Spec.biasRow x4) := by
  funext i
  obtain ⟨e, f, rfl⟩ : ∃ (e : Fin 1600000) (f : Fin 64), i = ix2 e f := ⟨i 0, i 1, eq_ix2 i⟩
  rw [val_main_v16_apply, val_main_v15_apply, val_main_v7_apply, val_main_v4_apply, val_main_v6_apply,
    val_main_v5_apply, val_main_call0_v0_apply, val_main_call0_cst_apply]
  generalize val_main_v14 (F := Ideal) x0 x1 = g
  simp only [lhs4, rhs4, bias4, Ideal.ofBits_def, Ideal.ofBits_zero_f32, Ideal.addf_def, Ideal.maximumf_def]
  rfl

/-- The first node layer's update: ((own row + aggregated messages) · weights + bias), cut at zero. -/
theorem upd0 : val_main_v25 (F := Ideal) x0 x1 x2 x3 x4 x5 x6
    = Spec.nodeUpd x0 (val_main_v19 (F := Ideal) x0 x1 x2 x3 x4) x5 (Spec.biasRow x6) := by
  funext i
  obtain ⟨n, f, rfl⟩ : ∃ (n : Fin 100000) (f : Fin 64), i = ix2 n f := ⟨i 0, i 1, eq_ix2 i⟩
  rw [val_main_v25_apply, val_main_v24_apply, val_main_v21_apply, val_main_v23_apply, val_main_v22_apply,
    val_main_call1_v0_apply, val_main_call1_cst_apply]
  simp only [val_main_v20_apply]
  generalize val_main_v19 (F := Ideal) x0 x1 x2 x3 x4 = agg
  simp only [lhs21, rhs21, bias21, Ideal.ofBits_def, Ideal.ofBits_zero_f32, Ideal.addf_def, Ideal.maximumf_def]
  rfl

/-- The second edge layer's message, over the first layer's node rows gathered per edge. -/
theorem msg1 : val_main_v38 (F := Ideal) x0 x1 x2 x3 x4 x5 x6 x7 x8
    = Spec.edgeMsg (val_main_v36 (F := Ideal) x0 x1 x2 x3 x4 x5 x6) x2 x7 (Spec.biasRow x8) := by
  funext i
  obtain ⟨e, f, rfl⟩ : ∃ (e : Fin 1600000) (f : Fin 64), i = ix2 e f := ⟨i 0, i 1, eq_ix2 i⟩
  rw [val_main_v38_apply, val_main_v37_apply, val_main_v29_apply, val_main_v26_apply, val_main_v28_apply,
    val_main_v27_apply, val_main_call2_v0_apply, val_main_call2_cst_apply]
  generalize val_main_v36 (F := Ideal) x0 x1 x2 x3 x4 x5 x6 = g
  simp only [lhs26, rhs26, bias26, Ideal.ofBits_def, Ideal.ofBits_zero_f32, Ideal.addf_def, Ideal.maximumf_def]
  rfl

/-- The second node layer's update, over the first layer's result and the second layer's aggregated messages. -/
theorem upd1 : val_main_v47 (F := Ideal) x0 x1 x2 x3 x4 x5 x6 x7 x8 x9 x10
    = Spec.nodeUpd (val_main_v25 (F := Ideal) x0 x1 x2 x3 x4 x5 x6) (val_main_v41 (F := Ideal) x0 x1 x2 x3 x4 x5 x6 x7 x8)
        x9 (Spec.biasRow x10) := by
  funext i
  obtain ⟨n, f, rfl⟩ : ∃ (n : Fin 100000) (f : Fin 64), i = ix2 n f := ⟨i 0, i 1, eq_ix2 i⟩
  rw [val_main_v47_apply, val_main_v46_apply, val_main_v43_apply, val_main_v45_apply, val_main_v44_apply,
    val_main_call3_v0_apply, val_main_call3_cst_apply]
  simp only [val_main_v42_apply]
  generalize val_main_v25 (F := Ideal) x0 x1 x2 x3 x4 x5 x6 = h
  generalize val_main_v41 (F := Ideal) x0 x1 x2 x3 x4 x5 x6 x7 x8 = agg
  simp only [lhs43, rhs43, bias43, Ideal.ofBits_def, Ideal.ofBits_zero_f32, Ideal.addf_def, Ideal.maximumf_def]
  rfl

/-- The linear map that opens the last layer: the second update's rows against a 64×64 matrix. -/
theorem lin : val_main_v48 (F := Ideal) x0 x1 x2 x3 x4 x5 x6 x7 x8 x9 x10 x11
    = Spec.nodeLin (val_main_v47 (F := Ideal) x0 x1 x2 x3 x4 x5 x6 x7 x8 x9 x10) x11 := by
  funext i
  obtain ⟨n, f, rfl⟩ : ∃ (n : Fin 100000) (f : Fin 64), i = ix2 n f := ⟨i 0, i 1, eq_ix2 i⟩
  rw [val_main_v48_apply]
  generalize val_main_v47 (F := Ideal) x0 x1 x2 x3 x4 x5 x6 x7 x8 x9 x10 = h
  simp only [lhs48, rhs48]
  rfl

end Cert.ReferenceIdeal.StagesA

end
-- ==== Proof.RefStagesB.lean ====
/-
  Three stages of the plain array program, read entry by entry on the extended reals, each identified with the
  whole-array function that states its arithmetic once.

  * The scaled messages. Entry (e, f) is edge e's weight, copied across the 64 features, times the gathered feature at
    (e, f). The whole-array function multiplies the other way round; multiplication of extended reals commutes.
  * The layer's last step. Entry (n, f) is the aggregated messages at (n, f), plus node n's own weight (copied across the
    features) times the linear image at (n, f), plus the bias of feature f (copied down the rows), cut at zero.
  * The classifier and its log-softmax. The logit at (n, j) is the sum over the 64 features of row n of the hidden array
    times column j of the weights, plus the bias of class j. A row's largest logit is the fold of `max` from −∞ over its
    seven entries, and the maximum of −∞ with it is itself. Each logit less its row's largest is exponentiated, the seven
    exponentials are summed from zero, and the logarithm of that sum is taken off the shifted logit.

  The gathers, the scatter-adds and the earlier layers' results that these stages consume are never opened: they stand
  as the same terms on both sides of each equation.
-/
import proofs.«425185_j22127671509526_1_alg».proof.Proof.RefRead
import proofs.«425185_j22127671509526_1_alg».proof.Proof.Spec
import Idealize.ShloMosaic.Lib.ValueIdx
import Idealize.ShloMosaic.PureOps.Ideal.Laws

noncomputable section

namespace Cert.ReferenceIdeal.StagesB

open Cert.ReferenceIdeal Cert.ReferenceIdeal.Gen Cert.ReferenceIdeal.ReadCopy Idealize.ShloMosaic Idealize.ShloMosaic.ValueIdx

/-! ## A constant, an index, and the reduction over the classes -/

/-- The word of all-ones exponent, zero fraction and negative sign denotes −∞. -/
theorem negInf : Ideal.ofBits .f32 0xFF800000#32 = (⊥ : EReal) := by simp [Ideal.ofBits, Ideal.ieee]

/-- Node n's index in the reduced array, with class k put back on the dropped axis, is the entry (n, k). -/
theorem lift_row (h : S100000x7.Reduces [1] S100000) (n : Fin 100000) (k : Fin (S100000x7.size 1)) :
    h.lift (ix1 n) k = ix2 n (⟨k.val, k.isLt⟩ : Fin 7) := by
  funext c; apply Fin.ext
  match c with
  | ⟨0, _⟩ => rfl
  | ⟨1, _⟩ => rfl

/-- A reduction of a [100000, 7] array over its classes with a maximum body, started from −∞, is at node n the fold of
    `max` from −∞ over the seven entries of row n: the body commutes and associates, so the order of the fold is free. -/
theorem hostRowMax (y : (⟨S100000x7, .f32⟩ : BufTy).Contents (Elt Ideal)) (n : Fin 100000) :
    Host.reduce (FloatOps.maximumf (F := Ideal) (φ := .f32)) y (val_main_call5_cst (F := Ideal)) reducesTo_S100000x7_S100000_d1 h_S_ (ix1 n)
      = (Finset.univ : Finset (Fin 7)).fold (max : EReal → EReal → EReal) ⊥ (fun j => y (ix2 n j)) := by
  have hred : S100000x7.Reduces [1] S100000 := by decide
  rw [Host.reduce_eq_fold_single (FloatOps.maximumf (F := Ideal) (φ := .f32)) y _ reducesTo_S100000x7_S100000_d1 hred h_S_ (ix1 n)]
  have hf : (y ∘ hred.lift (ix1 n)) = fun j : Fin 7 => y (ix2 n j) := funext fun j => congrArg y (lift_row hred n j)
  have hb : val_main_call5_cst (F := Ideal) (Shape.Idx.first h_S_) = (⊥ : EReal) := negInf
  exact congrArg₂ (fun (b : EReal) (f : Fin 7 → EReal) => Finset.fold (max : EReal → EReal → EReal) b f (Finset.univ : Finset (Fin 7))) hb hf

/-! ## The operands: @main's arguments, in its order -/

variable (x0 : (⟨S100000x64, .f32⟩ : BufTy).Contents (Elt Ideal))
variable (x1 : (⟨S2x1600000, .i32⟩ : BufTy).Contents (Elt Ideal))
variable (x2 : (⟨S1600000x16, .f32⟩ : BufTy).Contents (Elt Ideal))
variable (x3 : (⟨S16x64, .f32⟩ : BufTy).Contents (Elt Ideal))
variable (x4 : (⟨S64, .f32⟩ : BufTy).Contents (Elt Ideal))
variable (x5 : (⟨S64x64, .f32⟩ : BufTy).Contents (Elt Ideal))
variable (x6 : (⟨S64, .f32⟩ : BufTy).Contents (Elt Ideal))
variable (x7 : (⟨S16x64, .f32⟩ : BufTy).Contents (Elt Ideal))
variable (x8 : (⟨S64, .f32⟩ : BufTy).Contents (Elt Ideal))
variable (x9 : (⟨S64x64, .f32⟩ : BufTy).Contents (Elt Ideal))
variable (x10 : (⟨S64, .f32⟩ : BufTy).Contents (Elt Ideal))
variable (x11 : (⟨S64x64, .f32⟩ : BufTy).Contents (Elt Ideal))
variable (x12 : (⟨S64, .f32⟩ : BufTy).Contents (Elt Ideal))
variable (x13 : (⟨S64x7, .f32⟩ : BufTy).Contents (Elt Ideal))
variable (x14 : (⟨S7, .f32⟩ : BufTy).Contents (Elt Ideal))

/-! ## The scaled messages -/

/-- The reference's scaled messages are the gathered rows, each times its edge's weight. -/
theorem scaled :
    val_main_v81 (F := Ideal) x0 x1 x2 x3 x4 x5 x6 x7 x8 x9 x10 x11
      = Spec.scaleRows (val_main_v79 (F := Ideal) x0 x1 x2 x3 x4 x5 x6 x7 x8 x9 x10 x11) (Spec.col (val_main_v71 (F := Ideal) x1)) := by
  funext i
  obtain ⟨e, f, rfl⟩ : ∃ (e : Fin 1600000) (f : Fin 64), i = ix2 e f := ⟨i 0, i 1, eq_ix2 i⟩
  rw [val_main_v81_apply, val_main_v80_apply, val_main_v72_apply]
  generalize val_main_v79 (F := Ideal) x0 x1 x2 x3 x4 x5 x6 x7 x8 x9 x10 x11 = g
  generalize val_main_v71 (F := Ideal) x1 = w
  -- the weight's index: (e, f) ↦ (e, 0) ↦ e
  have hw : idx_main_v72 (idx_main_v80 (ix2 e f)) = ix1 e := funext fun a => Fin.ext (by match a with | ⟨0, _⟩ => rfl)
  rw [hw]
  show w (ix1 e) * g (ix2 e f) = g (ix2 e f) * w (ix1 e)
  exact mul_comm _ _

/-! ## The layer's last step -/

/-- The reference's last step of the layer: aggregated messages, self-loop term, bias, cut at zero. -/
theorem fin :
    val_main_v93 (F := Ideal) x0 x1 x2 x3 x4 x5 x6 x7 x8 x9 x10 x11 x12
      = Spec.gcnFin (val_main_v84 (F := Ideal) x0 x1 x2 x3 x4 x5 x6 x7 x8 x9 x10 x11) (val_main_v48 (F := Ideal) x0 x1 x2 x3 x4 x5 x6 x7 x8 x9 x10 x11)
          (Spec.col (val_main_v85 (F := Ideal) x1)) (Spec.biasRow x12) := by
  funext i
  obtain ⟨n, f, rfl⟩ : ∃ (n : Fin 100000) (f : Fin 64), i = ix2 n f := ⟨i 0, i 1, eq_ix2 i⟩
  rw [val_main_v93_apply, val_main_v92_apply, val_main_v89_apply, val_main_v88_apply, val_main_v87_apply, val_main_v86_apply,
    val_main_v91_apply, val_main_v90_apply, val_main_call4_v0_apply, val_main_call4_cst_apply]
  generalize val_main_v84 (F := Ideal) x0 x1 x2 x3 x4 x5 x6 x7 x8 x9 x10 x11 = s
  generalize val_main_v48 (F := Ideal) x0 x1 x2 x3 x4 x5 x6 x7 x8 x9 x10 x11 = l
  generalize val_main_v85 (F := Ideal) x1 = w
  -- the node weight's index: (n, f) ↦ (n, 0) ↦ n; the bias's: (n, f) ↦ (0, f) ↦ f
  have hw : idx_main_v86 (idx_main_v87 (ix2 n f)) = ix1 n := funext fun a => Fin.ext (by match a with | ⟨0, _⟩ => rfl)
  have hb : idx_main_v90 (idx_main_v91 (ix2 n f)) = ix1 f := funext fun a => Fin.ext (by match a with | ⟨0, _⟩ => rfl)
  rw [hw, hb]
  show max ((s (ix2 n f) + w (ix1 n) * l (ix2 n f)) + x12 (ix1 f)) (Ideal.ofBits .f32 0x00000000#32)
    = max ((s (ix2 n f) + w (ix1 n) * l (ix2 n f)) + x12 (ix1 f)) 0
  rw [Ideal.ofBits_zero_f32]

/-! ## The classifier and its log-softmax -/

/-- The logit at (n, j). -/
theorem logit_apply (n : Fin 100000) (j : Fin 7) :
    val_main_v97 (F := Ideal) x0 x1 x2 x3 x4 x5 x6 x7 x8 x9 x10 x11 x12 x13 x14 (ix2 n j) = Spec.logitAt (val_main_v93 (F := Ideal) x0 x1 x2 x3 x4 x5 x6 x7 x8 x9 x10 x11 x12) x13 (Spec.biasRow x14) n j := by
  rw [val_main_v97_apply, val_main_v94_apply, val_main_v96_apply, val_main_v95_apply]
  generalize val_main_v93 (F := Ideal) x0 x1 x2 x3 x4 x5 x6 x7 x8 x9 x10 x11 x12 = h
  -- the product's operands at term k: row n of the hidden array at k, column j of the weights at k; the bias's index: (n, j) ↦ (0, j) ↦ j
  have hl : ∀ k : Fin 64, lidx_main_v94 (ix2 n j) k = ix2 n k := fun k =>
    funext fun a => Fin.ext (by match a with | ⟨0, _⟩ => rfl | ⟨1, _⟩ => rfl)
  have hr : ∀ k : Fin 64, ridx_main_v94 (ix2 n j) k = ix2 k j := fun k =>
    funext fun a => Fin.ext (by match a with | ⟨0, _⟩ => rfl | ⟨1, _⟩ => rfl)
  have hb : idx_main_v95 (idx_main_v96 (ix2 n j)) = ix1 j := funext fun a => Fin.ext (by match a with | ⟨0, _⟩ => rfl)
  have hs : ∑ k : Fin 64, h (lidx_main_v94 (ix2 n j) k) * x13 (ridx_main_v94 (ix2 n j) k)
      = ∑ k : Fin 64, h (ix2 n k) * x13 (ix2 k j) := Finset.sum_congr rfl fun k _ => by rw [hl k, hr k]
  rw [hb, hs]
  rfl

/-- A row's largest logit: the reduction over the classes, then the maximum with −∞ once more. -/
theorem rowMax_apply (n : Fin 100000) :
    val_main_call5_v2 (F := Ideal) x0 x1 x2 x3 x4 x5 x6 x7 x8 x9 x10 x11 x12 x13 x14 (ix1 n) = Spec.rowMaxAt (val_main_v93 (F := Ideal) x0 x1 x2 x3 x4 x5 x6 x7 x8 x9 x10 x11 x12) x13 (Spec.biasRow x14) n := by
  rw [val_main_call5_v2_apply, val_main_call5_v1_apply, val_main_call5_cst_0_apply]
  have hm : val_main_call5_v0 (F := Ideal) x0 x1 x2 x3 x4 x5 x6 x7 x8 x9 x10 x11 x12 x13 x14 (ix1 n) = Spec.rowMaxAt (val_main_v93 (F := Ideal) x0 x1 x2 x3 x4 x5 x6 x7 x8 x9 x10 x11 x12) x13 (Spec.biasRow x14) n := by
    refine (hostRowMax (val_main_v97 (F := Ideal) x0 x1 x2 x3 x4 x5 x6 x7 x8 x9 x10 x11 x12 x13 x14) n).trans ?_
    exact congrArg (fun f : Fin 7 → EReal => Finset.fold (max : EReal → EReal → EReal) ⊥ f (Finset.univ : Finset (Fin 7)))
      (funext fun j => logit_apply x0 x1 x2 x3 x4 x5 x6 x7 x8 x9 x10 x11 x12 x13 x14 n j)
  rw [hm]
  show max (Ideal.ofBits .f32 0xFF800000#32) _ = _
  rw [negInf]
  exact max_eq_right bot_le

/-- The row's largest logit, copied across the seven classes. -/
theorem rowMaxBcast_apply (n : Fin 100000) (j : Fin 7) :
    val_main_call5_v4 (F := Ideal) x0 x1 x2 x3 x4 x5 x6 x7 x8 x9 x10 x11 x12 x13 x14 (ix2 n j) = Spec.rowMaxAt (val_main_v93 (F := Ideal) x0 x1 x2 x3 x4 x5 x6 x7 x8 x9 x10 x11 x12) x13 (Spec.biasRow x14) n := by
  rw [val_main_call5_v4_apply, val_main_call5_v3_apply]
  have hi : idx_main_call5_v3 (idx_main_call5_v4 (ix2 n j)) = ix1 n := funext fun a => Fin.ext (by match a with | ⟨0, _⟩ => rfl)
  rw [hi]
  exact rowMax_apply x0 x1 x2 x3 x4 x5 x6 x7 x8 x9 x10 x11 x12 x13 x14 n

/-- The shifted logit at (n, j). -/
theorem shifted_apply (n : Fin 100000) (j : Fin 7) :
    val_main_call5_v5 (F := Ideal) x0 x1 x2 x3 x4 x5 x6 x7 x8 x9 x10 x11 x12 x13 x14 (ix2 n j) = Spec.shiftedAt (val_main_v93 (F := Ideal) x0 x1 x2 x3 x4 x5 x6 x7 x8 x9 x10 x11 x12) x13 (Spec.biasRow x14) n j := by
  rw [val_main_call5_v5_apply, logit_apply, rowMaxBcast_apply]
  rfl

/-- The row's sum of exponentials of shifted logits. -/
theorem sumExp_apply (n : Fin 100000) :
    val_main_call5_v7 (F := Ideal) x0 x1 x2 x3 x4 x5 x6 x7 x8 x9 x10 x11 x12 x13 x14 (ix1 n) = ∑ j' : Fin 7, Ideal.exp (Spec.shiftedAt (val_main_v93 (F := Ideal) x0 x1 x2 x3 x4 x5 x6 x7 x8 x9 x10 x11 x12) x13 (Spec.biasRow x14) n j') := by
  rw [val_main_call5_v7_apply, val_main_call5_cst_1_apply]
  have ht : ∀ k : Fin 7, val_main_call5_v6 (F := Ideal) x0 x1 x2 x3 x4 x5 x6 x7 x8 x9 x10 x11 x12 x13 x14 (idx_main_call5_v7 (ix1 n) k)
      = Ideal.exp (Spec.shiftedAt (val_main_v93 (F := Ideal) x0 x1 x2 x3 x4 x5 x6 x7 x8 x9 x10 x11 x12) x13 (Spec.biasRow x14) n k) := fun k => by
    have hk : idx_main_call5_v7 (ix1 n) k = ix2 n k := funext fun a => Fin.ext (by match a with | ⟨0, _⟩ => rfl | ⟨1, _⟩ => rfl)
    rw [hk, val_main_call5_v6_apply, shifted_apply]
    exact Ideal.hostUnary_exp_def _
  have hs : ∑ k : Fin 7, val_main_call5_v6 (F := Ideal) x0 x1 x2 x3 x4 x5 x6 x7 x8 x9 x10 x11 x12 x13 x14 (idx_main_call5_v7 (ix1 n) k)
      = ∑ k : Fin 7, Ideal.exp (Spec.shiftedAt (val_main_v93 (F := Ideal) x0 x1 x2 x3 x4 x5 x6 x7 x8 x9 x10 x11 x12) x13 (Spec.biasRow x14) n k) :=
    Finset.sum_congr rfl fun k _ => ht k
  rw [hs]
  show Ideal.ofBits .f32 0x00000000#32 + _ = _
  rw [Ideal.ofBits_zero_f32, zero_add]

/-- The logarithm of that sum, copied across the seven classes. -/
theorem logSum_apply (n : Fin 100000) (j : Fin 7) :
    val_main_call5_v10 (F := Ideal) x0 x1 x2 x3 x4 x5 x6 x7 x8 x9 x10 x11 x12 x13 x14 (ix2 n j) = Ideal.log (∑ j' : Fin 7, Ideal.exp (Spec.shiftedAt (val_main_v93 (F := Ideal) x0 x1 x2 x3 x4 x5 x6 x7 x8 x9 x10 x11 x12) x13 (Spec.biasRow x14) n j')) := by
  rw [val_main_call5_v10_apply, val_main_call5_v9_apply, val_main_call5_v8_apply]
  have hi : idx_main_call5_v8 (idx_main_call5_v10 (ix2 n j)) = ix1 n := funext fun a => Fin.ext (by match a with | ⟨0, _⟩ => rfl)
  rw [hi, sumExp_apply]
  exact Ideal.hostUnary_log_def _

/-- The reference's output is the log-softmax of the classifier's logits of the layer's result. -/
theorem out :
    val_main_v98 (F := Ideal) x0 x1 x2 x3 x4 x5 x6 x7 x8 x9 x10 x11 x12 x13 x14 = Spec.logSoftmax (val_main_v93 (F := Ideal) x0 x1 x2 x3 x4 x5 x6 x7 x8 x9 x10 x11 x12) x13 (Spec.biasRow x14) := by
  funext i
  obtain ⟨n, j, rfl⟩ : ∃ (n : Fin 100000) (j : Fin 7), i = ix2 n j := ⟨i 0, i 1, eq_ix2 i⟩
  rw [val_main_v98_apply, shifted_apply, logSum_apply]
  rfl

end Cert.ReferenceIdeal.StagesB

end
-- ==== Proof.AgreeA.lean ====
/-
  The kernel program's first five whole-array stage values are the reference program's. Both programs slice the same two
  rows out of the edge index, wrap the source indices the same way, gather node rows at them, and sum messages into the
  destination nodes from an all-zero array; between those whole-array steps each applies the same entrywise stage formula.
  So, going down the chain one stage at a time: once the array a stage takes in is known to be the reference's, the array
  it leaves is the reference's too. The one hypothesis is that every source index names a node row (0 ≤ index < 100000):
  then the kernel's filling gather replaces nothing and is the plain gather of the same rows.

  The small facts first: the index columns of the two programs are the same array; a gather at the source column and a
  sum into the destination column are the same operation in both; a length-64 bias vector laid out as one row is the
  bias read at its column.
-/
import proofs.«425185_j22127671509526_1_alg».proof.Proof.Values
import proofs.«425185_j22127671509526_1_alg».proof.Proof.TakeRows
import proofs.«425185_j22127671509526_1_alg».proof.Proof.IndexRange
import proofs.«425185_j22127671509526_1_alg».proof.Proof.RefRead
import proofs.«425185_j22127671509526_1_alg».proof.Proof.RefStagesA
import proofs.«425185_j22127671509526_1_alg».proof.Proof.RefStagesB
import Idealize.ShloMosaic.Lib.Pipeline.Value
import Idealize.ShloMosaic.Lib.ValueIdx

set_option maxRecDepth 16384

noncomputable section

namespace Cert.Agree

open Cert.KernelIdeal Cert.KernelIdeal.Fold Cert.KernelIdeal.TakeRows Cert.IndexRange Cert.ReferenceIdeal.ReadCopy
  Idealize.ShloMosaic Idealize.ShloMosaic.ValueIdx Idealize.ShloMosaic.TcCoe Idealize.SL.Sem

namespace BridgeA

variable (m : (ℓ : Loc Cert.KernelIdeal.nD Cert.KernelIdeal.τ Cert.KernelIdeal.sig) → Buf (Elt Ideal) ℓ)
  (c : Dev Cert.KernelIdeal.nD)

/-- The wrapped source column is the reference's first copy of it: the same slice, reshape, compare, add, select and
    broadcast of the edge index. -/
theorem srcCol_v13 : idxCol (src m c) = val_main_v13 (F := Ideal) (m ((c : Thread Cert.KernelIdeal.nD Cert.KernelIdeal.τ).loc Cert.KernelIdeal.main_arg1)) := by
  unfold idxCol wrapped src val_main_v13 val_main_v12 val_main_v9 val_main_v11 val_main_v8 val_main_v10 val_main_c
    val_main_c_0 val_main_v1 val_main_v0
  rfl

/-- The wrapped source column is the reference's second copy of it. -/
theorem srcCol_v35 : idxCol (src m c) = val_main_v35 (F := Ideal) (m ((c : Thread Cert.KernelIdeal.nD Cert.KernelIdeal.τ).loc Cert.KernelIdeal.main_arg1)) := by
  unfold idxCol wrapped src val_main_v35 val_main_v34 val_main_v31 val_main_v33 val_main_v30 val_main_v32 val_main_c_1
    val_main_c_2 val_main_v1 val_main_v0
  rfl

/-- The destination column (not wrapped) is the reference's first copy of it. -/
theorem dstCol_v18 : asCol (dst m c) = val_main_v18 (F := Ideal) (m ((c : Thread Cert.KernelIdeal.nD Cert.KernelIdeal.τ).loc Cert.KernelIdeal.main_arg1)) := by
  unfold asCol dst val_main_v18 val_main_v3 val_main_v2
  rfl

/-- The destination column (not wrapped) is the reference's second copy of it. -/
theorem dstCol_v40 : asCol (dst m c) = val_main_v40 (F := Ideal) (m ((c : Thread Cert.KernelIdeal.nD Cert.KernelIdeal.τ).loc Cert.KernelIdeal.main_arg1)) := by
  unfold asCol dst val_main_v40 val_main_v3 val_main_v2
  rfl

/-- Node rows of any array gathered at the source indices: the reference's first gather, of that array. -/
theorem gather_v14 (x : FVec Ideal Cert.KernelIdeal.S100000x64 .f32) :
    gatherRows x (src m c) = val_main_v14 (F := Ideal) x (m ((c : Thread Cert.KernelIdeal.nD Cert.KernelIdeal.τ).loc Cert.KernelIdeal.main_arg1)) := by
  unfold gatherRows val_main_v14
  rw [srcCol_v13]
  rfl

/-- Node rows of the first hidden layer gathered at the source indices: the reference's second gather. -/
theorem gather_v36 (x0 : FVec Ideal Cert.KernelIdeal.S100000x64 .f32) (x2 : FVec Ideal Cert.KernelIdeal.S1600000x16 .f32)
    (x3 : FVec Ideal Cert.KernelIdeal.S16x64 .f32) (x4 : FVec Ideal Cert.KernelIdeal.S64 .f32)
    (x5 : FVec Ideal Cert.KernelIdeal.S64x64 .f32) (x6 : FVec Ideal Cert.KernelIdeal.S64 .f32) :
    gatherRows (F := Ideal) (val_main_v25 (F := Ideal) x0 (m ((c : Thread Cert.KernelIdeal.nD Cert.KernelIdeal.τ).loc Cert.KernelIdeal.main_arg1)) x2 x3 x4 x5 x6) (src m c)
      = val_main_v36 (F := Ideal) x0 (m ((c : Thread Cert.KernelIdeal.nD Cert.KernelIdeal.τ).loc Cert.KernelIdeal.main_arg1)) x2 x3 x4 x5 x6 := by
  unfold gatherRows val_main_v36
  rw [srcCol_v35]
  generalize val_main_v25 (F := Ideal) x0 (m ((c : Thread Cert.KernelIdeal.nD Cert.KernelIdeal.τ).loc Cert.KernelIdeal.main_arg1)) x2 x3 x4 x5 x6 = h
  rfl

/-- Any messages summed into their destination nodes from zero: the reference's first scatter-add, of those messages. -/
theorem agg_first (u : FVec Ideal Cert.KernelIdeal.S1600000x64 .f32) :
    aggOf (F := Ideal) (dst m c) u
      = Host.scatterAdd Cert.ReferenceIdeal.scatter_S100000x64_S1600000x1_S1600000x64_1_0_0_1 (val_main_v17 (F := Ideal))
          (val_main_v18 (F := Ideal) (m ((c : Thread Cert.KernelIdeal.nD Cert.KernelIdeal.τ).loc Cert.KernelIdeal.main_arg1))) u := by
  unfold aggOf
  rw [dstCol_v18]
  unfold val_main_v17 val_main_cst
  rfl

/-- Any messages summed into their destination nodes from zero: the reference's second scatter-add, of those messages. -/
theorem agg_second (u : FVec Ideal Cert.KernelIdeal.S1600000x64 .f32) :
    aggOf (F := Ideal) (dst m c) u
      = Host.scatterAdd Cert.ReferenceIdeal.scatter_S100000x64_S1600000x1_S1600000x64_1_0_0_1 (val_main_v39 (F := Ideal))
          (val_main_v40 (F := Ideal) (m ((c : Thread Cert.KernelIdeal.nD Cert.KernelIdeal.τ).loc Cert.KernelIdeal.main_arg1))) u := by
  unfold aggOf
  rw [dstCol_v40]
  unfold val_main_v39 val_main_cst_3
  rfl

/-- The first layer's messages summed into their destinations: the reference's first aggregate. -/
theorem agg_v19 (x0 : FVec Ideal Cert.KernelIdeal.S100000x64 .f32) (x2 : FVec Ideal Cert.KernelIdeal.S1600000x16 .f32)
    (x3 : FVec Ideal Cert.KernelIdeal.S16x64 .f32) (x4 : FVec Ideal Cert.KernelIdeal.S64 .f32) :
    aggOf (F := Ideal) (dst m c) (val_main_v16 (F := Ideal) x0 (m ((c : Thread Cert.KernelIdeal.nD Cert.KernelIdeal.τ).loc Cert.KernelIdeal.main_arg1)) x2 x3 x4)
      = val_main_v19 (F := Ideal) x0 (m ((c : Thread Cert.KernelIdeal.nD Cert.KernelIdeal.τ).loc Cert.KernelIdeal.main_arg1)) x2 x3 x4 := by
  unfold val_main_v19
  exact agg_first m c _

/-- The second layer's messages summed into their destinations: the reference's second aggregate. -/
theorem agg_v41 (x0 : FVec Ideal Cert.KernelIdeal.S100000x64 .f32) (x2 : FVec Ideal Cert.KernelIdeal.S1600000x16 .f32)
    (x3 : FVec Ideal Cert.KernelIdeal.S16x64 .f32) (x4 : FVec Ideal Cert.KernelIdeal.S64 .f32)
    (x5 : FVec Ideal Cert.KernelIdeal.S64x64 .f32) (x6 : FVec Ideal Cert.KernelIdeal.S64 .f32)
    (x7 : FVec Ideal Cert.KernelIdeal.S16x64 .f32) (x8 : FVec Ideal Cert.KernelIdeal.S64 .f32) :
    aggOf (F := Ideal) (dst m c) (val_main_v38 (F := Ideal) x0 (m ((c : Thread Cert.KernelIdeal.nD Cert.KernelIdeal.τ).loc Cert.KernelIdeal.main_arg1)) x2 x3 x4 x5 x6 x7 x8)
      = val_main_v41 (F := Ideal) x0 (m ((c : Thread Cert.KernelIdeal.nD Cert.KernelIdeal.τ).loc Cert.KernelIdeal.main_arg1)) x2 x3 x4 x5 x6 x7 x8 := by
  unfold val_main_v41
  exact agg_second m c _

/-- A length-64 vector laid out as one row: entry (0, f) of the row is entry f of the vector. -/
theorem rowOf_eq (b : FVec Ideal Cert.KernelIdeal.S64 .f32) : rowOf b = Spec.biasRow b := by
  funext i
  exact shapeCast_apply b _ i (ix1 (i 1))
    (by rewrite [Shape.rowMajor_val_one, Shape.rowMajor_val_two]
        have h0 : (i 0).val < 1 := (i 0).isLt
        show (i 1).val = (i 0).val * 64 + (i 1).val
        omega)

end BridgeA

open BridgeA

variable (m : (ℓ : Loc Cert.KernelIdeal.nD Cert.KernelIdeal.τ Cert.KernelIdeal.sig) → Buf (Elt Ideal) ℓ)
  (c : Dev Cert.KernelIdeal.nD)

/-- The first edge layer's messages agree. -/
theorem msg0_eq (hs : ∀ e, InRows (Fold.src m c e)) :
    Fold.msg0 m c = val_main_v16 (F := Ideal) (X0 m c) (m ((c : Thread Cert.KernelIdeal.nD Cert.KernelIdeal.τ).loc Cert.KernelIdeal.main_arg1)) (X2 m c) (X3 m c) (X4 m c) := by
  unfold Fold.msg0
  rw [takeRows_eq _ _ hs, gather_v14, rowOf_eq]
  exact (Cert.ReferenceIdeal.StagesA.msg0 (X0 m c) (m ((c : Thread Cert.KernelIdeal.nD Cert.KernelIdeal.τ).loc Cert.KernelIdeal.main_arg1)) (X2 m c) (X3 m c) (X4 m c)).symm

/-- The first node layer's rows agree. -/
theorem hid0_eq (hs : ∀ e, InRows (Fold.src m c e)) :
    Fold.hid0 m c = val_main_v25 (F := Ideal) (X0 m c) (m ((c : Thread Cert.KernelIdeal.nD Cert.KernelIdeal.τ).loc Cert.KernelIdeal.main_arg1)) (X2 m c) (X3 m c) (X4 m c) (X5 m c) (X6 m c) := by
  unfold Fold.hid0
  rw [msg0_eq m c hs, agg_v19, rowOf_eq]
  exact (Cert.ReferenceIdeal.StagesA.upd0 (X0 m c) (m ((c : Thread Cert.KernelIdeal.nD Cert.KernelIdeal.τ).loc Cert.KernelIdeal.main_arg1)) (X2 m c) (X3 m c) (X4 m c) (X5 m c) (X6 m c)).symm

/-- The second edge layer's messages agree. -/
theorem msg1_eq (hs : ∀ e, InRows (Fold.src m c e)) :
    Fold.msg1 m c = val_main_v38 (F := Ideal) (X0 m c) (m ((c : Thread Cert.KernelIdeal.nD Cert.KernelIdeal.τ).loc Cert.KernelIdeal.main_arg1)) (X2 m c) (X3 m c) (X4 m c) (X5 m c) (X6 m c) (X7 m c) (X8 m c) := by
  unfold Fold.msg1
  rw [takeRows_eq _ _ hs, hid0_eq m c hs, gather_v36, rowOf_eq]
  exact (Cert.ReferenceIdeal.StagesA.msg1 (X0 m c) (m ((c : Thread Cert.KernelIdeal.nD Cert.KernelIdeal.τ).loc Cert.KernelIdeal.main_arg1)) (X2 m c) (X3 m c) (X4 m c) (X5 m c) (X6 m c) (X7 m c) (X8 m c)).symm

/-- The second node layer's rows agree. -/
theorem hid1_eq (hs : ∀ e, InRows (Fold.src m c e)) :
    Fold.hid1 m c = val_main_v47 (F := Ideal) (X0 m c) (m ((c : Thread Cert.KernelIdeal.nD Cert.KernelIdeal.τ).loc Cert.KernelIdeal.main_arg1)) (X2 m c) (X3 m c) (X4 m c) (X5 m c) (X6 m c) (X7 m c) (X8 m c)
      (X9 m c) (X10 m c) := by
  unfold Fold.hid1
  rw [msg1_eq m c hs, hid0_eq m c hs, agg_v41, rowOf_eq]
  exact (Cert.ReferenceIdeal.StagesA.upd1 (X0 m c) (m ((c : Thread Cert.KernelIdeal.nD Cert.KernelIdeal.τ).loc Cert.KernelIdeal.main_arg1)) (X2 m c) (X3 m c) (X4 m c) (X5 m c) (X6 m c) (X7 m c) (X8 m c) (X9 m c) (X10 m c)).symm

/-- The linear map's results agree. -/
theorem lin_eq (hs : ∀ e, InRows (Fold.src m c e)) :
    Fold.lin m c = val_main_v48 (F := Ideal) (X0 m c) (m ((c : Thread Cert.KernelIdeal.nD Cert.KernelIdeal.τ).loc Cert.KernelIdeal.main_arg1)) (X2 m c) (X3 m c) (X4 m c) (X5 m c) (X6 m c) (X7 m c) (X8 m c)
      (X9 m c) (X10 m c) (X11 m c) := by
  unfold Fold.lin
  rw [hid1_eq m c hs]
  exact (Cert.ReferenceIdeal.StagesA.lin (X0 m c) (m ((c : Thread Cert.KernelIdeal.nD Cert.KernelIdeal.τ).loc Cert.KernelIdeal.main_arg1)) (X2 m c) (X3 m c) (X4 m c) (X5 m c) (X6 m c) (X7 m c) (X8 m c) (X9 m c) (X10 m c)
    (X11 m c)).symm

end Cert.Agree

end
-- ==== Proof.AgreeB.lean ====
/-
  The kernel program's last three whole-array stage values are the plain array program's. Both are the same functions
  of the same launch contents, spelled twice: the two rows of the edge index as index vectors; the negative-index wrap
  of an index vector set up as a column; the node degrees (ones summed into destinations, plus one), their −1/2 powers,
  an edge's weight (the product of the powers at its two wrapped endpoints) and a node's self-loop weight (its power
  squared); rows gathered at the wrapped sources; rows summed into the unwrapped destinations from zero. Spelled out, the
  two sides of each of these equations are one and the same term, so each holds by unfolding the names.

  Two re-layouts are real re-indexings: a vector of n entries cast to one row has entry j at (0, j), and cast to one
  column has entry i at (i, 0), because both positions have the same place in row-major order.

  Where every source index names a row, the kernel program's filling gather is the plain gather. With the linear map's
  result agreed (a hypothesis here), the scaled messages, the layer's last step and the output then agree stage by stage.
-/
import proofs.«425185_j22127671509526_1_alg».proof.Proof.Values
import proofs.«425185_j22127671509526_1_alg».proof.Proof.TakeRows
import proofs.«425185_j22127671509526_1_alg».proof.Proof.IndexRange
import proofs.«425185_j22127671509526_1_alg».proof.Proof.RefRead
import proofs.«425185_j22127671509526_1_alg».proof.Proof.RefStagesA
import proofs.«425185_j22127671509526_1_alg».proof.Proof.RefStagesB
import Idealize.ShloMosaic.Lib.Pipeline.Value
import Idealize.ShloMosaic.Lib.ValueIdx

set_option maxRecDepth 16384

noncomputable section

namespace Cert.AgreeB

open Cert.KernelIdeal Cert.KernelIdeal.Fold Cert.KernelIdeal.TakeRows Cert.IndexRange Cert.ReferenceIdeal.ReadCopy
open Idealize.ShloMosaic Idealize.ShloMosaic.TcCoe Idealize.SL.Sem Idealize.ShloMosaic.ValueIdx

/-! ## Two re-layouts read at an entry -/

/-- A vector of n entries cast to one row: entry (0, j) is entry j. -/
theorem cast_row {n : Nat} (b : (⟨1, ![n]⟩ : Shape).Idx → EReal) (h : (⟨1, ![n]⟩ : Shape).ShapeCasts ⟨2, ![1, n]⟩) :
    shapeCast (⟨2, ![1, n]⟩ : Shape) b h = Spec.biasRow b := by
  funext i
  refine shapeCast_apply b h i (ix1 (i 1)) ?_
  rewrite [Shape.rowMajor_val_one, Shape.rowMajor_val_two]
  have h0 : (i 0).val = 0 := by have h1 : (i 0).val < 1 := (i 0).isLt; omega
  show (i 1).val = (i 0).val * n + (i 1).val
  rw [h0, Nat.zero_mul, Nat.zero_add]

/-- A vector of n entries cast to one column: entry (i, 0) is entry i. -/
theorem cast_col {n : Nat} (v : (⟨1, ![n]⟩ : Shape).Idx → EReal) (h : (⟨1, ![n]⟩ : Shape).ShapeCasts ⟨2, ![n, 1]⟩) :
    shapeCast (⟨2, ![n, 1]⟩ : Shape) v h = Spec.col v := by
  funext i
  refine shapeCast_apply v h i (ix1 (i 0)) ?_
  rewrite [Shape.rowMajor_val_one, Shape.rowMajor_val_two]
  have h1 : (i 1).val = 0 := by have h1 : (i 1).val < 1 := (i 1).isLt; omega
  show (i 0).val = (i 0).val * 1 + (i 1).val
  rw [h1, Nat.mul_one, Nat.add_zero]

/-- A length-64 bias as the one-row array a stage adds to every row. -/
theorem rowOf_eq (b : FVec Ideal S64 .f32) : Fold.rowOf b = Spec.biasRow b := cast_row b _

/-! ## The shape records of the two programs are the same records -/

theorem gatherRows_rec : Cert.KernelIdeal.gather_S100000x64_S1600000x1_S1600000x64_1_0_n_n_0_1_164
    = Cert.ReferenceIdeal.gather_S100000x64_S1600000x1_S1600000x64_1_0_n_n_0_1_164 := rfl
theorem scatterRows_rec : Cert.KernelIdeal.scatter_S100000x64_S1600000x1_S1600000x64_1_0_0_1
    = Cert.ReferenceIdeal.scatter_S100000x64_S1600000x1_S1600000x64_1_0_0_1 := rfl
theorem gatherVec_rec : Cert.KernelIdeal.gather_S100000_S1600000x1_S1600000_n_0_n_n_0_1_1
    = Cert.ReferenceIdeal.gather_S100000_S1600000x1_S1600000_n_0_n_n_0_1_1 := rfl
theorem scatterVec_rec : Cert.KernelIdeal.scatter_S100000_S1600000x1_S1600000_n_0_0_1
    = Cert.ReferenceIdeal.scatter_S100000_S1600000x1_S1600000_n_0_0_1 := rfl

variable (m : (ℓ : Loc Cert.KernelIdeal.nD Cert.KernelIdeal.τ Cert.KernelIdeal.sig) → Buf (Elt Ideal) ℓ) (c : Dev Cert.KernelIdeal.nD)

/-- The edge index as launched. -/
abbrev X1 : IVec S2x1600000 32 := m ((c : Thread Cert.KernelIdeal.nD Cert.KernelIdeal.τ).loc Cert.KernelIdeal.main_arg1)

/-! ## The index vectors and their columns -/

/-- Row 0 of the edge index as a vector. -/
theorem src_eq : Fold.src m c = val_main_v1 (F := Ideal) (X1 m c) := by
  unfold Fold.src val_main_v1 val_main_v0
  rfl

/-- Row 1 of the edge index as a vector. -/
theorem dst_eq : Fold.dst m c = val_main_v3 (F := Ideal) (X1 m c) := by
  unfold Fold.dst val_main_v3 val_main_v2
  rfl

/-- The wrapped sources as a column: the copy the last layer's row gather reads. -/
theorem srcCol78 : TakeRows.idxCol (Fold.src m c) = val_main_v78 (F := Ideal) (X1 m c) := by
  unfold TakeRows.idxCol TakeRows.wrapped val_main_v78 val_main_v77 val_main_v74 val_main_v76 val_main_v73 val_main_v75
    val_main_c_12 val_main_c_13
  rw [src_eq m c]

/-- The wrapped sources as a column: the copy the edge weights read. -/
theorem srcCol62 : TakeRows.idxCol (Fold.src m c) = val_main_v62 (F := Ideal) (X1 m c) := by
  unfold TakeRows.idxCol TakeRows.wrapped val_main_v62 val_main_v61 val_main_v58 val_main_v60 val_main_v57 val_main_v59
    val_main_c_8 val_main_c_9
  rw [src_eq m c]

/-- The wrapped destinations as a column. -/
theorem dstCol69 : TakeRows.idxCol (Fold.dst m c) = val_main_v69 (F := Ideal) (X1 m c) := by
  unfold TakeRows.idxCol TakeRows.wrapped val_main_v69 val_main_v68 val_main_v65 val_main_v67 val_main_v64 val_main_v66
    val_main_c_10 val_main_c_11
  rw [dst_eq m c]

/-! ## Degrees, their powers, and the weights made of them -/

/-- The degree to the power −1/2, node by node. -/
theorem dinv_eq : Fold.dinvOf (F := Ideal) (Fold.dst m c) = val_main_v56 (F := Ideal) (X1 m c) := by
  unfold Fold.dinvOf Fold.degOf Fold.asCol val_main_v56 val_main_v54 val_main_v55 val_main_v52 val_main_v53 val_main_v50
    val_main_v51 val_main_v49 val_main_cst_4 val_main_cst_5 val_main_cst_6 val_main_cst_7
  rw [dst_eq m c, scatterVec_rec]

/-- An edge's weight. -/
theorem norm_eq : Fold.normOf (F := Ideal) (Fold.src m c) (Fold.dst m c) = val_main_v71 (F := Ideal) (X1 m c) := by
  unfold Fold.normOf val_main_v71 val_main_v63 val_main_v70
  rw [dinv_eq m c, srcCol62 m c, dstCol69 m c, gatherVec_rec]

/-- A node's self-loop weight. -/
theorem self_eq : Fold.selfOf (F := Ideal) (Fold.dst m c) = val_main_v85 (F := Ideal) (X1 m c) := by
  unfold Fold.selfOf val_main_v85
  rw [dinv_eq m c]

/-! ## The last layer's gather and its sum into destinations -/

/-- The linear map's rows gathered at the sources. -/
theorem gather79 : TakeRows.gatherRows (F := Ideal) (val_main_v48 (F := Ideal) (X0 m c) (X1 m c) (X2 m c) (X3 m c) (X4 m c) (X5 m c) (X6 m c) (X7 m c) (X8 m c) (X9 m c) (X10 m c) (X11 m c)) (Fold.src m c)
    = val_main_v79 (F := Ideal) (X0 m c) (X1 m c) (X2 m c) (X3 m c) (X4 m c) (X5 m c) (X6 m c) (X7 m c) (X8 m c) (X9 m c) (X10 m c) (X11 m c) := by
  unfold TakeRows.gatherRows val_main_v79
  rw [srcCol78 m c, gatherRows_rec]

/-- The scaled messages summed into their destination nodes. -/
theorem agg84 : Fold.aggOf (F := Ideal) (Fold.dst m c) (val_main_v81 (F := Ideal) (X0 m c) (X1 m c) (X2 m c) (X3 m c) (X4 m c) (X5 m c) (X6 m c) (X7 m c) (X8 m c) (X9 m c) (X10 m c) (X11 m c))
    = val_main_v84 (F := Ideal) (X0 m c) (X1 m c) (X2 m c) (X3 m c) (X4 m c) (X5 m c) (X6 m c) (X7 m c) (X8 m c) (X9 m c) (X10 m c) (X11 m c) := by
  unfold Fold.aggOf Fold.asCol val_main_v84 val_main_v82 val_main_v83 val_main_cst_14
  rw [dst_eq m c, scatterRows_rec]

/-! ## The three stages -/

/-- The scaled messages agree. -/
theorem scaled_eq (hs : ∀ e, InRows (Fold.src m c e))
    (hlin : Fold.lin m c = val_main_v48 (F := Ideal) (X0 m c) (X1 m c) (X2 m c) (X3 m c) (X4 m c) (X5 m c) (X6 m c) (X7 m c) (X8 m c) (X9 m c) (X10 m c) (X11 m c)) :
    Fold.scaled m c = val_main_v81 (F := Ideal) (X0 m c) (X1 m c) (X2 m c) (X3 m c) (X4 m c) (X5 m c) (X6 m c) (X7 m c) (X8 m c) (X9 m c) (X10 m c) (X11 m c) := by
  unfold Fold.scaled
  rw [takeRows_eq _ _ hs, hlin, gather79 m c, norm_eq m c, cast_col]
  exact (Cert.ReferenceIdeal.StagesB.scaled (X0 m c) (X1 m c) (X2 m c) (X3 m c) (X4 m c) (X5 m c) (X6 m c) (X7 m c) (X8 m c) (X9 m c) (X10 m c) (X11 m c)).symm

/-- The layer's result agrees. -/
theorem hid2_eq (hs : ∀ e, InRows (Fold.src m c e))
    (hlin : Fold.lin m c = val_main_v48 (F := Ideal) (X0 m c) (X1 m c) (X2 m c) (X3 m c) (X4 m c) (X5 m c) (X6 m c) (X7 m c) (X8 m c) (X9 m c) (X10 m c) (X11 m c)) :
    Fold.hid2 m c = val_main_v93 (F := Ideal) (X0 m c) (X1 m c) (X2 m c) (X3 m c) (X4 m c) (X5 m c) (X6 m c) (X7 m c) (X8 m c) (X9 m c) (X10 m c) (X11 m c) (X12 m c) := by
  unfold Fold.hid2
  rw [scaled_eq m c hs hlin, hlin, agg84 m c, self_eq m c, cast_col, rowOf_eq]
  exact (Cert.ReferenceIdeal.StagesB.fin (X0 m c) (X1 m c) (X2 m c) (X3 m c) (X4 m c) (X5 m c) (X6 m c) (X7 m c) (X8 m c) (X9 m c) (X10 m c) (X11 m c) (X12 m c)).symm

/-- The output agrees. -/
theorem out_eq (hs : ∀ e, InRows (Fold.src m c e))
    (hlin : Fold.lin m c = val_main_v48 (F := Ideal) (X0 m c) (X1 m c) (X2 m c) (X3 m c) (X4 m c) (X5 m c) (X6 m c) (X7 m c) (X8 m c) (X9 m c) (X10 m c) (X11 m c)) :
    Fold.out m c = val_main_v98 (F := Ideal) (X0 m c) (X1 m c) (X2 m c) (X3 m c) (X4 m c) (X5 m c) (X6 m c) (X7 m c) (X8 m c) (X9 m c) (X10 m c) (X11 m c) (X12 m c) (X13 m c) (X14 m c) := by
  unfold Fold.out
  rw [hid2_eq m c hs hlin, cast_row]
  exact (Cert.ReferenceIdeal.StagesB.out (X0 m c) (X1 m c) (X2 m c) (X3 m c) (X4 m c) (X5 m c) (X6 m c) (X7 m c) (X8 m c) (X9 m c) (X10 m c) (X11 m c) (X12 m c) (X13 m c) (X14 m c)).symm

end Cert.AgreeB

end
-- ==== Proof.lean ====
/-
  The certificate of a three-layer message-passing network (two GINE layers, one GCN layer, a linear classifier with a
  log-softmax) over 100,000 nodes and 1,600,000 edges: the tiled program computes what the whole-array program computes.

  The two programs differ in one thing only. Gathering the rows of the source nodes, the tiled program fills a row with
  the NaN word where an index falls outside [0, 100000) (after the usual wrap of negative indices), and the whole-array
  program clamps the index instead. Where every source index names a row — the precondition's last conjunct — neither
  happens, and the two gathers agree. Everything else is the same arithmetic: each of the eight tiled stages leaves, tile
  by tile, the array its `Spec` function describes (a message, a node update, a linear map, a row scaling, the GCN's last
  step, the log-softmax), the host operations between them are the same scatter-adds, degree factors and re-layouts on
  both sides, and the matrix products and row reductions are the same finite sums and maxima on the extended reals.

  * `frame_*`: the generated frames of the two tiled programs; the whole-array program's generated run with its result dropped.
  * `preserves`: the idealization rewrote nothing.
  * `algebraic`: the tiled program's run ends with its result buffer at the fold's last contents, which the eight steps
    identify as `Fold.out`; the whole-array program's run ends at its last stage; under the precondition the two agree.
-/
import proofs.«425185_j22127671509526_1_alg».proof.Defs
import proofs.«425185_j22127671509526_1_alg».proof.Proof.Gen.Kernel
import proofs.«425185_j22127671509526_1_alg».proof.Proof.Gen.Kernel.Frame
import proofs.«425185_j22127671509526_1_alg».proof.Proof.Gen.KernelIdeal
import proofs.«425185_j22127671509526_1_alg».proof.Proof.Gen.KernelIdeal.Frame
import proofs.«425185_j22127671509526_1_alg».proof.Proof.Gen.ReferenceIdeal
import proofs.«425185_j22127671509526_1_alg».proof.Proof.Gen.Pre_finite_inputs
import proofs.«425185_j22127671509526_1_alg».proof.Proof.KernelResult
import proofs.«425185_j22127671509526_1_alg».proof.Proof.RefRun
import proofs.«425185_j22127671509526_1_alg».proof.Proof.RefResult
import proofs.«425185_j22127671509526_1_alg».proof.Proof.Fold
import proofs.«425185_j22127671509526_1_alg».proof.Proof.Step12
import proofs.«425185_j22127671509526_1_alg».proof.Proof.Step34
import proofs.«425185_j22127671509526_1_alg».proof.Proof.Step5
import proofs.«425185_j22127671509526_1_alg».proof.Proof.Step67
import proofs.«425185_j22127671509526_1_alg».proof.Proof.SourceRange
import proofs.«425185_j22127671509526_1_alg».proof.Proof.AgreeA
import proofs.«425185_j22127671509526_1_alg».proof.Proof.AgreeB
import Idealize.ShloMosaic.Adequacy
import Idealize.ShloMosaic.Init

set_option maxRecDepth 16384

noncomputable section

namespace Cert.Proof

open Idealize.ShloMosaic Idealize.SL.Sem

/-- The tiled program's fold ends with the result buffer at the last stage value: the eight steps in order. -/
theorem fold_out (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W20 m ρ c (Proc.devRef .tc Cert.KernelIdeal.main_v55) = Cert.KernelIdeal.Fold.out m c :=
  have s0 := Cert.KernelIdeal.Fold.step0 m ρ c
  have s1 := Cert.KernelIdeal.Fold.step1 m ρ c s0
  have s2 := Cert.KernelIdeal.Fold.step2 m ρ c s1
  have s3 := Cert.KernelIdeal.Fold.step3 m ρ c s1 s2
  have s4 := Cert.KernelIdeal.Fold.step4 m ρ c s3
  have s5 := Cert.KernelIdeal.Fold.step5 m ρ c s4
  have s6 := Cert.KernelIdeal.Fold.step6 m ρ c s4 s5
  Cert.KernelIdeal.Fold.step7 m ρ c s6

/-- Under the precondition every source index names a row. -/
theorem src_ok
    (m : (ℓ : Loc Cert.KernelIdeal.nD Cert.KernelIdeal.τ Cert.KernelIdeal.sig) → Buf (Elt Ideal) ℓ)
    (h : Cert.Pre_KernelIdeal m) (c : Dev Cert.KernelIdeal.nD) (e : Cert.KernelIdeal.S1600000.Idx) :
    Cert.IndexRange.InRows (Cert.KernelIdeal.Fold.src m c e) :=
  Cert.SourceRange.src_inRows _ _ _ _ _ _ _ _ _ _ _ _ _ _ _ (h c) e

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunCopy.run (F := Ideal) m ρ)

theorem algebraic : Cert.algebraic_KernelIdeal_ReferenceIdeal := by
  intro m ρ m' ρ' hpre hagree
  refine ⟨fun c => Cert.KernelIdeal.Fold.out m c, ?_, ?_⟩
  · exact (θ_run Cert.KernelIdeal.defs _ _).mono (fun _ h c => ⟨(h c).1.trans (fold_out m ρ c), (h c).2⟩)
      (Cert.KernelIdeal.Result.run_result m ρ)
  · refine (θ_run Cert.ReferenceIdeal.defs _ _).mono (fun _ h c => ⟨(h c).1.trans ?_, (h c).2⟩)
      (Cert.ReferenceIdeal.RunCopy.run (F := Ideal) m' ρ')
    have hs : ∀ e, Cert.IndexRange.InRows (Cert.KernelIdeal.Fold.src m c e) := src_ok m hpre c
    obtain ⟨a0, a1, a2, a3, a4, a5, a6, a7, a8, a9, a10, a11, a12, a13, a14⟩ := hagree c
    rw [Cert.ReferenceIdeal.ReadCopy.val_main_v98_eq, a0, a1, a2, a3, a4, a5, a6, a7, a8, a9, a10, a11, a12, a13, a14]
    exact (Cert.AgreeB.out_eq m c hs (Cert.Agree.lin_eq m c hs)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
